-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1280 : Shape := ⟨2, ![50000, 1280]⟩
abbrev S2x800000 : Shape := ⟨2, ![2, 800000]⟩
abbrev S50000 : Shape := ⟨1, ![50000]⟩
abbrev S1280x256 : Shape := ⟨2, ![1280, 256]⟩
abbrev S256 : Shape := ⟨1, ![256]⟩
abbrev S_ : Shape := ⟨0, ![]⟩

class Facts : Prop where
  bcast_S_S50000x1280 : S_.BroadcastsInDim S50000x1280 (![] : Fin 0 → Fin S50000x1280.rank)
  reducesTo_S50000x1280_S_d0_1 : S50000x1280.ReducesTo [0, 1] S_
  h_S_ : 0 < S_.numel
  bcast_S_S1280x256 : S_.BroadcastsInDim S1280x256 (![] : Fin 0 → Fin S1280x256.rank)
  reducesTo_S1280x256_S_d0_1 : S1280x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x1280 .f32) (main_arg1 : IVec S2x800000 32) (main_arg2 : IVec S50000 32) (main_arg3 : FVec F S1280x256 .f32) (main_arg4 : FVec F S256 .f32) : IVec S_ 1 :=
  let main_v0 : FVec F S50000x1280 .f32 := Host.absf main_arg0
  let main_cst : FVec F S_ .f32 := constant S_ .f32 0x7F800000#32
  let main_v1 : FVec F S50000x1280 .f32 := broadcastInDim S50000x1280 ![] bcast_S_S50000x1280 main_cst
  let main_v2 : IVec S50000x1280 1 := cmpf .olt main_v0 main_v1
  let main_c : IVec S_ 1 := constantI S_ 1 1#1
  let main_v3 : IVec S_ 1 := (fun x v => Host.reduce IntOp.andi x v reducesTo_S50000x1280_S_d0_1 h_S_) main_v2 main_c
  let main_v4 : FVec F S1280x256 .f32 := Host.absf main_arg3
  let main_cst_0 : FVec F S_ .f32 := constant S_ .f32 0x7F800000#32
  let main_v5 : FVec F S1280x256 .f32 := broadcastInDim S1280x256 ![] bcast_S_S1280x256 main_cst_0
  let main_v6 : IVec S1280x256 1 := cmpf .olt main_v4 main_v5
  let main_c_1 : IVec S_ 1 := constantI S_ 1 1#1
  let main_v7 : IVec S_ 1 := (fun x v => Host.reduce IntOp.andi x v reducesTo_S1280x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x1280 : Shape := ⟨2, ![50000, 1280]⟩
abbrev S2x800000 : Shape := ⟨2, ![2, 800000]⟩
abbrev S50000 : Shape := ⟨1, ![50000]⟩
abbrev S1280x256 : Shape := ⟨2, ![1280, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x256 : Shape := ⟨2, ![50000, 256]⟩
abbrev S1000x1280 : Shape := ⟨2, ![1000, 1280]⟩
abbrev S1000x1 : Shape := ⟨2, ![1000, 1]⟩
abbrev S1000x256 : Shape := ⟨2, ![1000, 256]⟩
abbrev S800000x256 : Shape := ⟨2, ![800000, 256]⟩
abbrev S64x256 : Shape := ⟨2, ![64, 256]⟩
abbrev S2000x128 : Shape := ⟨2, ![2000, 128]⟩
abbrev S2000x1 : Shape := ⟨2, ![2000, 1]⟩
abbrev S128 : Shape := ⟨1, ![128]⟩
abbrev S64x128 : Shape := ⟨2, ![64, 128]⟩
abbrev S64x1 : Shape := ⟨2, ![64, 1]⟩
abbrev S1x128 : Shape := ⟨2, ![1, 128]⟩
abbrev S1x64 : Shape := ⟨2, ![1, 64]⟩
abbrev S2000x64 : Shape := ⟨2, ![2000, 64]⟩

abbrev nBuf : Space → Nat
  | .hbm => 39
  | .vmem => 22
  | .smem => 0
  | _ => 0

abbrev bufTy : (tb : Table) → Fin (tcTables nBuf tb) → BufTy
  | .hbm, ⟨0, _⟩ => ⟨S50000x1280, .f32⟩
  | .hbm, ⟨1, _⟩ => ⟨S2x800000, .i32⟩
  | .hbm, ⟨2, _⟩ => ⟨S50000, .i32⟩
  | .hbm, ⟨3, _⟩ => ⟨S1280x256, .f32⟩
  | .hbm, ⟨4, _⟩ => ⟨S256, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S50000x256, .f32⟩
  | .hbm, ⟨21, _⟩ => ⟨S50000x256, .bf16⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x256, .bf16⟩
  | .hbm, ⟨31, _⟩ => ⟨S800000x256, .f32⟩
  | .hbm, ⟨32, _⟩ => ⟨S_, .f32⟩
  | .hbm, ⟨33, _⟩ => ⟨S50000x256, .f32⟩
  | .hbm, ⟨34, _⟩ => ⟨S800000x1, .i32⟩
  | .hbm, ⟨35, _⟩ => ⟨S50000x256, .f32⟩
  | .hbm, ⟨36, _⟩ => ⟨S50000x1, .f32⟩
  | .hbm, ⟨37, _⟩ => ⟨S50000x1, .i32⟩
  | .hbm, ⟨38, _⟩ => ⟨S64x256, .f32⟩
  | .local _ .vmem, ⟨0, _⟩ => ⟨S1000x1280, .f32⟩
  | .local _ .vmem, ⟨1, _⟩ => ⟨S1000x1280, .f32⟩
  | .local _ .vmem, ⟨2, _⟩ => ⟨S1280x256, .f32⟩
  | .local _ .vmem, ⟨3, _⟩ => ⟨S1000x1, .f32⟩
  | .local _ .vmem, ⟨4, _⟩ => ⟨S1000x1, .f32⟩
  | .local _ .vmem, ⟨5, _⟩ => ⟨S1000x256, .f32⟩
  | .local _ .vmem, ⟨6, _⟩ => ⟨S1000x256, .f32⟩
  | .local _ .vmem, ⟨7, _⟩ => ⟨S1000x256, .bf16⟩
  | .local _ .vmem, ⟨8, _⟩ => ⟨S1000x256, .bf16⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S128, .f32⟩
  | .local _ .vmem, ⟨16, _⟩ => ⟨S2000x1, .i32⟩
  | .local _ .vmem, ⟨17, _⟩ => ⟨S2000x1, .i32⟩
  | .local _ .vmem, ⟨18, _⟩ => ⟨S64x128, .f32⟩
  | .local _ .vmem, ⟨19, _⟩ => ⟨S64x128, .f32⟩
  | .local _ .vmem, ⟨20, _⟩ => ⟨S64x128, .f32⟩
  | .local _ .vmem, ⟨21, _⟩ => ⟨S64x1, .f32⟩
  | _, _ => ⟨S50000x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 25], ![false, false]⟩

def k1_cond2 (i : grid1.Coords) : BitVec 1 :=
  let arg1 : BitVec 32 := BitVec.ofNat 32 (i 1).val
  let c24_i32 : BitVec 32 := 24#32
  let v39 : BitVec 1 := Scalar.cmpi .eq arg1 c24_i32
  let v40 : BitVec 32 := Scalar.extui v39
  let c0_i32_20 : BitVec 32 := 0#32
  let v41 : BitVec 1 := Scalar.cmpi .ne v40 c0_i32_20
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 2 → Memref sig .tc .vmem S2000x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S1000x1280_S1000x1280_0_0 : ∀ a, (![0, 0] : Fin 2 → Nat) a + S1000x1280.size a ≤ S1000x1280.size a
  h_S1000x1280 : 0 < S1000x1280.numel
  bitsLt_bf16_f32 : FTy.bits .bf16 < FTy.bits .f32
  inb_S1280x256_S1280x256_0_0 : ∀ a, (![0, 0] : Fin 2 → Nat) a + S1280x256.size a ≤ S1280x256.size a
  h_S1280x256 : 0 < S1280x256.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  packedbf16_S1000x256_S1000x256_0_0 : (Rect.unit (s := S1000x256) ![0, 0] S1000x256.size inb_S1000x256_S1000x256_0_0).PackedRows (EltTy.packing .bf16)
  bcast_S_S50000x256 : S_.BroadcastsInDim S50000x256 (![] : Fin 0 → Fin S50000x256.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  iota_S1x64_d1_w32 : S1x64.Iotas .tc 32 [1]
  broadcasts_S2000x1_S2000x64 : S2000x1.Broadcasts S2000x64
  broadcasts_S1x64_S2000x64 : S1x64.Broadcasts S2000x64
  natLt_1_32 : 1 < 32
  broadcasts_S64x1_S64x128 : S64x1.Broadcasts S64x128
  scatter_S50000_S800000x1_S800000_n_0_0_1_wf : ScatterDims.WF S50000 S800000x1 S800000 [] [0] [0] 1
  dot_S1000x1280_S1280x256_S1000x256_1_0_0_1_n_n_wf : DotDims.WF S1000x1280 S1280x256 S1000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x64_S2000x128_S64x128_0_0_1_1_n_n_wf : DotDims.WF S2000x64 S2000x128 S64x128 [0] [0] [1] [1] [] []
  dot_S2000x64_S2000x1_S64x1_0_0_1_1_n_n_wf : DotDims.WF S2000x64 S2000x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1280.size a ≤ S50000x1280.size a
  hwx0_0 : ∀ i : grid0.Coords, EltTy.bits .f32 = 32 ∨ (Rect.block (s := S50000x1280) S1000x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x256.size a ≤ S1280x256.size a
  hwx0_1 : ∀ i : grid0.Coords, EltTy.bits .f32 = 32 ∨ (Rect.block (s := S1280x256) S1280x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S50000x1.size a
  hwx0_2 : ∀ i : grid0.Coords, EltTy.bits .f32 = 32 ∨ (Rect.block (s := S50000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S50000x256.size a
  hwx0_3 : ∀ i : grid0.Coords, EltTy.bits .f32 = 32 ∨ (Rect.block (s := S50000x256) S1000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S50000x256.size a
  hwx0_4 : ∀ i : grid0.Coords, EltTy.bits .bf16 = 32 ∨ (Rect.block (s := S50000x256) S1000x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x256.size a
  hwx1_0 : ∀ i : grid1.Coords, EltTy.bits .f32 = 32 ∨ (Rect.block (s := S50000x256) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x256.size a
  hwx1_1 : ∀ i : grid1.Coords, EltTy.bits .f32 = 32 ∨ (Rect.block (s := S50000x256) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S256.size a
  hwx1_3 : ∀ i : grid1.Coords, EltTy.bits .f32 = 32 ∨ (Rect.block (s := S256) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .i32 = 32 ∨ (Rect.block (s := S50000x1) S2000x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x256.size a
  hwx1_5 : ∀ i : grid1.Coords, EltTy.bits .f32 = 32 ∨ (Rect.block (s := S64x256) S64x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x1280_S1280x256_S1000x256_1_0_0_1_n_n : DotDims S1000x1280 S1280x256 S1000x256 where
  lhsContracting := [1]
  rhsContracting := [0]
  lhsNonContracting := [0]
  rhsNonContracting := [1]
  lhsBatch := []
  rhsBatch := []
  wf := dot_S1000x1280_S1280x256_S1000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S2000x64_S2000x1_S64x1_0_0_1_1_n_n : DotDims S2000x64 S2000x1 S64x1 where
  lhsContracting := [0]
  rhsContracting := [0]
  lhsNonContracting := [1]
  rhsNonContracting := [1]
  lhsBatch := []
  rhsBatch := []
  wf := dot_S2000x64_S2000x1_S64x1_0_0_1_1_n_n_wf

abbrev win0_0 : Pipeline.Window sig grid0 :=
  Pipeline.Window.ofSpec (Memref.whole main_arg0) S1000x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1280x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S1000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26) S64x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S50000x1280 : Shape := ⟨2, ![50000, 1280]⟩
abbrev S2x800000 : Shape := ⟨2, ![2, 800000]⟩
abbrev S50000 : Shape := ⟨1, ![50000]⟩
abbrev S1280x256 : Shape := ⟨2, ![1280, 256]⟩
abbrev S256 : Shape := ⟨1, ![256]⟩
abbrev S50000x256 : Shape := ⟨2, ![50000, 256]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩

abbrev nBuf : Space → Nat
  | .hbm => 84
  | .vmem => 0
  | .smem => 0
  | _ => 0

abbrev bufTy : (tb : Table) → Fin (tcTables nBuf tb) → BufTy
  | .hbm, ⟨0, _⟩ => ⟨S50000x1280, .f32⟩
  | .hbm, ⟨1, _⟩ => ⟨S2x800000, .i32⟩
  | .hbm, ⟨2, _⟩ => ⟨S50000, .i32⟩
  | .hbm, ⟨3, _⟩ => ⟨S1280x256, .f32⟩
  | .hbm, ⟨4, _⟩ => ⟨S256, .f32⟩
  | .hbm, ⟨5, _⟩ => ⟨S50000x256, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S850000x1, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x256, .f32⟩
  | .hbm, ⟨57, _⟩ => ⟨S850000x256, .f32⟩
  | .hbm, ⟨58, _⟩ => ⟨S_, .f32⟩
  | .hbm, ⟨59, _⟩ => ⟨S50000x256, .f32⟩
  | .hbm, ⟨60, _⟩ => ⟨S850000x1, .i32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S_, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S64x256, .f32⟩
  | .hbm, ⟨70, _⟩ => ⟨S50000x1, .i32⟩
  | .hbm, ⟨71, _⟩ => ⟨S64x256, .f32⟩
  | .hbm, ⟨72, _⟩ => ⟨S_, .f32⟩
  | .hbm, ⟨73, _⟩ => ⟨S50000, .f32⟩
  | .hbm, ⟨74, _⟩ => ⟨S_, .f32⟩
  | .hbm, ⟨75, _⟩ => ⟨S64, .f32⟩
  | .hbm, ⟨76, _⟩ => ⟨S50000x1, .i32⟩
  | .hbm, ⟨77, _⟩ => ⟨S64, .f32⟩
  | .hbm, ⟨78, _⟩ => ⟨S_, .f32⟩
  | .hbm, ⟨79, _⟩ => ⟨S64, .f32⟩
  | .hbm, ⟨80, _⟩ => ⟨S64, .f32⟩
  | .hbm, ⟨81, _⟩ => ⟨S64x1, .f32⟩
  | .hbm, ⟨82, _⟩ => ⟨S64x256, .f32⟩
  | .hbm, ⟨83, _⟩ => ⟨S64x256, .f32⟩
  | _, _ => ⟨S50000x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  dot_S50000x1280_S1280x256_S50000x256_1_0_0_1_n_n_wf : DotDims.WF S50000x1280 S1280x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1

variable [Facts₀]

def dot_S50000x1280_S1280x256_S50000x256_1_0_0_1_n_n : DotDims S50000x1280 S1280x256 S50000x256 where
  lhsContracting := [1]
  rhsContracting := [0]
  lhsNonContracting := [0]
  rhsNonContracting := [1]
  lhsBatch := []
  rhsBatch := []
  wf := dot_S50000x1280_S1280x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.K.R0.lean ====
import proofs.«413251_j72258529788421_3_alg».proof.Proof.Gen.Kernel.Launch
import proofs.«413251_j72258529788421_3_alg».proof.Proof.Gen.Kernel.Skeleton
import proofs.«413251_j72258529788421_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

/-! # The first pallas_call (the linear layer: the product x · W with every row scaled), a region of class A

The body of the first call reads three blocks whole — a block of 1000 rows of the features, the whole weight
matrix, the matching 1000 inverse square-root degrees —, forms one product and one row scaling, and stores the
result whole twice: once in single precision, once narrowed. It keeps no state between grid points and takes no
branch. This module states, at ANY contents V of the core's buffers on entry, what each window's staging buffer
holds before and after the body at a grid point, and proves the body's Hoare triple there. -/

-- membership of an index in a rectangle with an axis of a thousand coordinates: the structural recursion is
-- one level per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its block at every point, for ANY proof data whose array is
    the entry contents and whose body leaves the block in place: where the block was not fetched anew, its index has
    not moved since the point before, and what the body left there is still this point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window alike. Its block index never moves (the one block is the whole matrix), so it is fetched at
    the first grid point only; at every later point the buffer holds what the body, which only reads it, left. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The window of inverse square-root degrees alike (a new block at every point). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is of a whole buffer, a rectangle at offsets zero of the buffer's own extents -/

abbrev r0_x : Rect S1000x1280 := Rect.unit (s := S1000x1280) ![0, 0] S1000x1280.size inb_S1000x1280_S1000x1280_0_0
abbrev r0_w : Rect S1280x256 := Rect.unit (s := S1280x256) ![0, 0] S1280x256.size inb_S1280x256_S1280x256_0_0
abbrev r0_d : Rect S1000x1 := Rect.unit (s := S1000x1) ![0, 0] S1000x1.size inb_S1000x1_S1000x1_0_0
abbrev r0_o : Rect S1000x256 := Rect.unit (s := S1000x256) ![0, 0] S1000x256.size inb_S1000x256_S1000x256_0_0

/-- The offsets of every access are zero on both axes. -/
theorem r0_off : (![0, 0] : Fin 2 → ℕ) = fun _ => 0 := funext fun a => by fin_cases a <;> rfl

/-! ## What the body leaves in each output window's buffer -/

/-- The single-precision output's staging buffer after the body, from the three input blocks: its one store,
    of the whole buffer. -/
def out0_3 (x0 : Vec F S1000x1280 .f32) (x1 : Vec F S1280x256 .f32) (x2 : Vec F S1000x1 .f32) : Vec F S1000x256 .f32 :=
  View.canon [⟨r0_o, k0_pay1 (View.ld x0 r0_x) (View.ld x1 r0_w) (View.ld x2 r0_d)⟩]

/-- The narrowed output's staging buffer after the body: again one store of the whole buffer. -/
def out0_4 (x0 : Vec F S1000x1280 .f32) (x1 : Vec F S1280x256 .f32) (x2 : Vec F S1000x1 .f32) : Vec F S1000x256 .bf16 :=
  View.canon [⟨r0_o, k0_pay2 (View.ld x0 r0_x) (View.ld x1 r0_w) (View.ld x2 r0_d)⟩]

/-- One store of the whole buffer, of a payload of whole loads: the buffer afterwards IS the payload of the blocks. -/
theorem out0_3_eq (x0 : Vec F S1000x1280 .f32) (x1 : Vec F S1280x256 .f32) (x2 : Vec F S1000x1 .f32) :
    out0_3 x0 x1 x2 = k0_pay1 x0 x1 x2 := by
  unfold out0_3
  rw [View.canon_unit_zero r0_off, View.ld_unit_zero r0_off, View.ld_unit_zero r0_off, View.ld_unit_zero r0_off]

theorem out0_4_eq (x0 : Vec F S1000x1280 .f32) (x1 : Vec F S1280x256 .f32) (x2 : Vec F S1000x1 .f32) :
    out0_4 x0 x1 x2 = k0_pay2 x0 x1 x2 := by
  unfold out0_4
  rw [View.canon_unit_zero r0_off, View.ld_unit_zero r0_off, View.ld_unit_zero r0_off, View.ld_unit_zero r0_off]

/-- The one store of an output holds every index of its buffer. -/
theorem cover0_3 (p0 : Vec F S1000x256 .f32) (y : S1000x256.Idx) :
    ∃ pc ∈ ([⟨r0_o, p0⟩] : List (View.Piece (Elt F) S1000x256 .f32)), y ∈ pc.1.set :=
  ⟨_, List.mem_singleton_self _, View.mem_set_unit_zero r0_off inb_S1000x256_S1000x256_0_0 y⟩

theorem cover0_4 (p0 : Vec F S1000x256 .bf16) (y : S1000x256.Idx) :
    ∃ pc ∈ ([⟨r0_o, p0⟩] : List (View.Piece (Elt F) S1000x256 .bf16)), y ∈ pc.1.set :=
  ⟨_, List.mem_singleton_self _, View.mem_set_unit_zero r0_off inb_S1000x256_S1000x256_0_0 y⟩

/-! ## The body's triple -/

set_option maxHeartbeats 1000000 in
/-- The body on whole staging memrefs, the three inputs' at read contents x0, x1, x2 and the two outputs' at anything,
    runs to the continuation holding the inputs' as they were and each output's at what its one store left. The body
    also reads each output buffer before it overwrites it; what it reads there is used by nothing. -/
theorem sound_kernel0 (c : Dev nD) (E : Set ℕ) (i : grid0.Coords)
    (arg1 : Memref sig .tc .vmem S1000x1280 .f32) (harg1 : arg1.IsWhole)
    (arg2 : Memref sig .tc .vmem S1280x256 .f32) (harg2 : arg2.IsWhole)
    (arg3 : Memref sig .tc .vmem S1000x1 .f32) (harg3 : arg3.IsWhole)
    (arg4 : Memref sig .tc .vmem S1000x256 .f32) (harg4 : arg4.IsWhole)
    (arg5 : Memref sig .tc .vmem S1000x256 .bf16) (harg5 : arg5.IsWhole)
    (x0 : Vec F S1000x1280 .f32) (x1 : Vec F S1280x256 .f32) (x2 : Vec F S1000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__linear_kernel i arg1 harg1 arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the first call's pipeline on core c: the arrays as the region finds them; after the body at
    point t each input's buffer still at its block and each output's at what the one store left; the invariant
    that of a region keeping no state (the scoped rest and the generator register, untouched); nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t: the invariant, what the core owes, and the five windows' current
    staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«413251_j72258529788421_3_alg».proof.Proof.Gen.Kernel.Launch
import proofs.«413251_j72258529788421_3_alg».proof.Proof.Gen.Kernel.Skeleton
import proofs.«413251_j72258529788421_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! # Region 1 (the pooling call) at a parameter: the half of the frame that is the kernel's

The pooling kernel runs on a grid of 2 × 25 points, point t at coordinates (t / 25, t % 25): the first
coordinate picks a chunk of 128 of the 256 output columns, the second a block of 2000 of the 50000 nodes. It
keeps two accumulators between points — the per-graph sums (64 × 128) and the per-graph node counts (64 × 1) —
which it resets where t % 25 = 0, updates at every point from the point's input blocks, and divides into the
output block where t % 25 = 24, the only points whose output block is written back. This module states what
the accumulators hold after each point (accAt1), the proof data of the region at any entry contents V,
and proves the body obligation by cases on t % 25. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks and the accumulators -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the two accumulators (sums 64×128, counts 64×1) from the point's input blocks.
    Windows: 0 the scattered sum, 1 the scaled features, 2 the degree scaling, 3 the bias chunk, 4 the graph
    of each node, 5 the result. -/
def stepAcc (c : Dev nD) (t : Fin cfg1.N) (s : Vec F S64x128 .f32 × Vec F S64x1 .f32) : Vec F S64x128 .f32 × Vec F S64x1 .f32 :=
  (k1_pay7 (iblk1 V c 2 t) (iblk1 V c 0 t) (iblk1 V c 1 t) (iblk1 V c 3 t) (iblk1 V c 4 t) s.1, k1_pay1 (k1_pay6 (iblk1 V c 4 t)) s.2)

/-- The accumulators after the body at position n: reset (to the constants the kernel stores there) and updated where n % 25 = 0, else
    what position n - 1 left, updated. -/
def accAt1 (c : Dev nD) : (n : ℕ) → n < cfg1.N → Vec F S64x128 .f32 × Vec F S64x1 .f32
  | 0, hn => stepAcc V c ⟨0, hn⟩ (k1_pay3, k1_pay4)
  | n + 1, hn =>
    if (n + 1) % 25 = 0 then stepAcc V c ⟨n + 1, hn⟩ (k1_pay3, k1_pay4)
    else stepAcc V c ⟨n + 1, hn⟩ (accAt1 c n (Nat.lt_of_succ_lt hn))

theorem accAt1_first (c : Dev nD) (t : Fin cfg1.N) (h : t.val % 25 = 0) :
    accAt1 V c t.val t.isLt = stepAcc V c t (k1_pay3, k1_pay4) := by
  obtain ⟨n, hn⟩ := t
  cases n with
  | zero => rfl
  | succ n => exact if_pos h

theorem accAt1_next (c : Dev nD) (t : Fin cfg1.N) (h : ¬ t.val % 25 = 0) :
    accAt1 V c t.val t.isLt = stepAcc V c t (accAt1 V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The other call's nine staging buffers, each whole at some contents: they ride along untouched. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f))

/-- The region's invariant before position n: before the first point both accumulators at anything, afterwards
    at what the point before left; beside them the other call's staging buffers and the generator register. -/
def PhiS1 (c : Dev nD) : (n : ℕ) → n ≤ cfg1.N → sProp 𝕄
  | 0, _ => iprop(rest1 (F := F) c ∗ (∃ d, owns (c : Thread nD τ) (Memref.whole cc1_scratch0) fullShare d) ∗ (∃ d, owns (c : Thread nD τ) (Memref.whole cc1_scratch1) fullShare d) ∗ (∃ r, prngReg c r))
  | n + 1, hn => iprop(rest1 (F := F) c ∗ owns (c : Thread nD τ) (Memref.whole cc1_scratch0) fullShare (accAt1 V c n hn).1 ∗ owns (c : Thread nD τ) (Memref.whole cc1_scratch1) fullShare (accAt1 V c n hn).2 ∗ (∃ r, prngReg c r))

/-- The invariant before the first point. -/
theorem PhiS1_zero (c : Dev nD) (n : ℕ) (h : n ≤ cfg1.N) (hz : n = 0) :
    PhiS1 V c n h = iprop(rest1 (F := F) c ∗ (∃ d, owns (c : Thread nD τ) (Memref.whole cc1_scratch0) fullShare d) ∗ (∃ d, owns (c : Thread nD τ) (Memref.whole cc1_scratch1) fullShare d) ∗ (∃ r, prngReg c r)) := by
  subst hz; rfl

/-- After point n (before point n + 1): the accumulators at that point's contents. -/
theorem PhiS1_succ (c : Dev nD) (n : ℕ) (hn : n < cfg1.N) :
    PhiS1 V c (n + 1) hn = iprop(rest1 (F := F) c ∗ owns (c : Thread nD τ) (Memref.whole cc1_scratch0) fullShare (accAt1 V c n hn).1 ∗ owns (c : Thread nD τ) (Memref.whole cc1_scratch1) fullShare (accAt1 V c n hn).2 ∗ (∃ r, prngReg c r)) := rfl

/-- Before a point that is not the first: the accumulators at what the point before left. -/
theorem PhiS1_pos (c : Dev nD) (n : ℕ) (h : n ≤ cfg1.N) (hz : n ≠ 0) :
    PhiS1 V c n h = iprop(rest1 (F := F) c ∗ owns (c : Thread nD τ) (Memref.whole cc1_scratch0) fullShare (accAt1 V c (n - 1) (by omega)).1 ∗ owns (c : Thread nD τ) (Memref.whole cc1_scratch1) fullShare (accAt1 V c (n - 1) (by omega)).2 ∗ (∃ r, prngReg c r)) := by
  cases n with
  | zero => exact absurd rfl hz
  | succ n => rfl

/-- Before any point the accumulators are at some contents: the named contents forgotten. -/
theorem PhiS1_any (c : Dev nD) (n : ℕ) (h : n ≤ cfg1.N) :
    PhiS1 V c n h ⊢ iprop(rest1 (F := F) c ∗ (∃ d, owns (c : Thread nD τ) (Memref.whole cc1_scratch0) fullShare d) ∗ (∃ d, owns (c : Thread nD τ) (Memref.whole cc1_scratch1) fullShare d) ∗ (∃ r, prngReg c r)) := by
  cases n with
  | zero => exact Idealize.SL.BI.Entails.refl _
  | succ n =>
    rw [PhiS1_succ]
    iintro ⟨HR, HS0, HS1, Hg⟩
    isplitl [HR]; · iexact HR
    isplitl [HS0]; · iexists _; iexact HS0
    isplitl [HS1]; · iexists _; iexact HS1
    iexact Hg

/-! ## The proof data -/

/-- The proof data of the pooling call on core c: the arrays as the region finds them; after the body at point
    t each input's buffer at its block and the output's at the quotient of the accumulators (consulted only
    where t % 25 = 24: elsewhere the window is idle and not written back); the invariant above; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay2 (accAt1 V c t.val t.isLt).1 (accAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) (h : t.val % 25 = 24) :
    (dat1 V c).after 5 t = k1_pay2 (accAt1 V c t.val t.isLt).1 (accAt1 V c t.val t.isLt).2 := by dsimp only [dat1]

/-- The invariant at a point's start (the proof data at t.castSucc), restated at t.val. -/
theorem PhiS1_castSucc (c : Dev nD) (t : Fin cfg1.N) :
    (dat1 V c).Φ t.castSucc = PhiS1 V c t.val (Nat.le_of_lt t.isLt) := by
  dsimp only [dat1]; simp only [Fin.coe_castSucc]

/-- The invariant at a point's end. -/
theorem PhiS1_succ_dat (c : Dev nD) (t : Fin cfg1.N) :
    (dat1 V c).Φ t.succ = PhiS1 V c (t.val + 1) t.isLt := rfl

/-! ## The body's branch conditions, in closed form over the grid -/

/-- The condition of the body's first branch (the reset), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 25). -/
theorem hcond1_0 : ∀ t : Fin cfg1.N, cond1_0 (grid1.coords t) ↔ t.val % 25 = 0 :=
  (by decide +kernel : ∀ t : Fin grid1.N, cond1_0 (grid1.coords t) ↔ t.val % 25 = 0)

/-- The condition of the body's second branch (the division into the output block). -/
abbrev cond1_1 (i : grid1.Coords) : Prop := k1_cond2 i = 1#1
/-- It holds at the points ≡ 24 (mod 25). -/
theorem hcond1_1 : ∀ t : Fin cfg1.N, cond1_1 (grid1.coords t) ↔ t.val % 25 = 24 :=
  (by decide +kernel : ∀ t : Fin grid1.N, cond1_1 (grid1.coords t) ↔ t.val % 25 = 24)

/-- Where the second branch is not taken the output window is idle and its block is not written back; where it
    is taken the window is live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## Loads and stores of a whole buffer -/

/-- The zero offsets of rank 1 and 2 as the constant function. -/
theorem zeros1 : (![0] : Fin 1 → ℕ) = fun _ => 0 := by
  funext a; fin_cases a <;> rfl
theorem zeros2 : (![0, 0] : Fin 2 → ℕ) = fun _ => 0 := by
  funext a; fin_cases a <;> rfl

/-- A load of a whole buffer through the whole-shape rectangle at zero offsets reads the buffer's contents. -/
theorem readAt_unread_unit {S : Shape} {off : Fin S.rank → ℕ} (hz : off = fun _ => 0) {κ : Kind} {sp : Space} {e : EltTy}
    {m : Memref sig κ sp S e} (h : m.IsWhole) (inb : ∀ a, off a + S.size a ≤ S.size a) (X : S.Idx → Elt F e) :
    View.readAt (Elt F) m.view (Rect.unit off S.size inb).toLoadRect (h.unread X) = X := by
  show View.ld (m.view.read (Elt F) (h.unread X)) (Rect.unit off S.size inb) = X
  rw [h.read_unread, View.ld_unit_zero hz inb]

/-- A store through it, last, leaves its payload, whatever the buffer held and whatever was stored before. -/
theorem read_writes_cons_unit {S : Shape} {off : Fin S.rank → ℕ} (hz : off = fun _ => 0) {κ : Kind} {sp : Space} {e : EltTy}
    (v : View sig κ sp S e) (f : v.ty.Contents (Elt F)) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons.mpr (Or.inl rfl), View.mem_set_unit_zero hz inb y⟩),
    View.canon_cons_unit_zero hz inb]

set_option maxHeartbeats 4000000 in
/-- The body at the first point of a column chunk: the accumulators, at anything, are reset and then updated. -/
theorem sound_kernel1_A (c : Dev nD) (E : Set ℕ) (i : grid1.Coords)
    (arg2 : Memref sig .tc .vmem S2000x128 .f32) (harg2 : arg2.IsWhole) (arg3 : Memref sig .tc .vmem S2000x128 .f32) (harg3 : arg3.IsWhole)
    (arg4 : Memref sig .tc .vmem S2000x1 .f32) (harg4 : arg4.IsWhole) (arg5 : Memref sig .tc .vmem S128 .f32) (harg5 : arg5.IsWhole)
    (arg6 : Memref sig .tc .vmem S2000x1 .i32) (harg6 : arg6.IsWhole) (arg7 : Memref sig .tc .vmem S64x128 .f32) (harg7 : arg7.IsWhole)
    (arg8 : Memref sig .tc .vmem S64x128 .f32) (harg8 : arg8.IsWhole) (arg9 : Memref sig .tc .vmem S64x1 .f32) (harg9 : arg9.IsWhole)
    (hc0 : cond1_0 i) (hc1 : ¬cond1_1 i)
    (x0 : Vec F S2000x128 .f32) (x1 : Vec F S2000x128 .f32) (x2 : Vec F S2000x1 .f32) (x3 : Vec F S128 .f32) (x4 : Vec F S2000x1 .i32)
    (y5 : Vec F S64x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y5
            ∗ owns (c : Thread nD τ) arg8 fullShare (k1_pay7 x2 x0 x1 x3 x4 k1_pay3) ∗ owns (c : Thread nD τ) arg9 fullShare (k1_pay1 (k1_pay6 x4) k1_pay4)) -∗ K ⟨⟩))
      ⊢ wp frame (wpE (defs₀ (F := F)) Variants.none c none) E (cc1__pool_kernel i arg2 harg2 arg3 harg3 arg4 harg4 arg5 harg5 arg6 harg6 arg7 harg7 arg8 harg8 arg9 harg9) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d0, %g0, -, HS0⟩, ⟨%d1, %g1, -, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    sl_unfold_run_names
    simp only [View.readCov_cons_toLoadRect, readAt_unread_unit (S := S2000x128) zeros2, readAt_unread_unit (S := S2000x1) zeros2,
      readAt_unread_unit (S := S128) zeros1, readAt_unread_unit (S := S64x128) zeros2, readAt_unread_unit (S := S64x1) zeros2,
      read_writes_cons_unit (S := S64x128) zeros2, read_writes_cons_unit (S := S64x1) zeros2]
  iexists _; isplitr
  swap; · iexact HS1
  ipureintro
  sl_unfold_run_names
  simp only [View.readCov_cons_toLoadRect, readAt_unread_unit (S := S2000x128) zeros2, readAt_unread_unit (S := S2000x1) zeros2,
    readAt_unread_unit (S := S128) zeros1, readAt_unread_unit (S := S64x128) zeros2, readAt_unread_unit (S := S64x1) zeros2,
    read_writes_cons_unit (S := S64x128) zeros2, read_writes_cons_unit (S := S64x1) zeros2]

set_option maxHeartbeats 4000000 in
/-- The body at a point in the middle of a column chunk: no reset, no division. The inputs' buffers stay, the
    output's buffer stays as found, the accumulators go from s to their update. -/
theorem sound_kernel1_B (c : Dev nD) (E : Set ℕ) (i : grid1.Coords)
    (arg2 : Memref sig .tc .vmem S2000x128 .f32) (harg2 : arg2.IsWhole) (arg3 : Memref sig .tc .vmem S2000x128 .f32) (harg3 : arg3.IsWhole)
    (arg4 : Memref sig .tc .vmem S2000x1 .f32) (harg4 : arg4.IsWhole) (arg5 : Memref sig .tc .vmem S128 .f32) (harg5 : arg5.IsWhole)
    (arg6 : Memref sig .tc .vmem S2000x1 .i32) (harg6 : arg6.IsWhole) (arg7 : Memref sig .tc .vmem S64x128 .f32) (harg7 : arg7.IsWhole)
    (arg8 : Memref sig .tc .vmem S64x128 .f32) (harg8 : arg8.IsWhole) (arg9 : Memref sig .tc .vmem S64x1 .f32) (harg9 : arg9.IsWhole)
    (hc0 : ¬cond1_0 i) (hc1 : ¬cond1_1 i)
    (x0 : Vec F S2000x128 .f32) (x1 : Vec F S2000x128 .f32) (x2 : Vec F S2000x1 .f32) (x3 : Vec F S128 .f32) (x4 : Vec F S2000x1 .i32)
    (y5 : Vec F S64x128 .f32) (s0 : Vec F S64x128 .f32) (s1 : Vec F S64x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y5
        ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y5
            ∗ owns (c : Thread nD τ) arg8 fullShare (k1_pay7 x2 x0 x1 x3 x4 s0) ∗ owns (c : Thread nD τ) arg9 fullShare (k1_pay1 (k1_pay6 x4) s1)) -∗ K ⟨⟩))
      ⊢ wp frame (wpE (defs₀ (F := F)) Variants.none c none) E (cc1__pool_kernel i arg2 harg2 arg3 harg3 arg4 harg4 arg5 harg5 arg6 harg6 arg7 harg7 arg8 harg8 arg9 harg9) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, HS0⟩, ⟨%g1, %hg1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5; obtain rfl := harg8.eq_unread hg0; obtain rfl := harg9.eq_unread hg1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    sl_unfold_run_names
    simp only [View.readCov_cons_toLoadRect, readAt_unread_unit (S := S2000x128) zeros2, readAt_unread_unit (S := S2000x1) zeros2,
      readAt_unread_unit (S := S128) zeros1, readAt_unread_unit (S := S64x128) zeros2, readAt_unread_unit (S := S64x1) zeros2,
      read_writes_cons_unit (S := S64x128) zeros2, read_writes_cons_unit (S := S64x1) zeros2]
  iexists _; isplitr
  swap; · iexact HS1
  ipureintro
  sl_unfold_run_names
  simp only [View.readCov_cons_toLoadRect, readAt_unread_unit (S := S2000x128) zeros2, readAt_unread_unit (S := S2000x1) zeros2,
    readAt_unread_unit (S := S128) zeros1, readAt_unread_unit (S := S64x128) zeros2, readAt_unread_unit (S := S64x1) zeros2,
    read_writes_cons_unit (S := S64x128) zeros2, read_writes_cons_unit (S := S64x1) zeros2]

set_option maxHeartbeats 4000000 in
/-- The body at the last point of a column chunk: the accumulators are updated and their quotient stored into the
    output's buffer, which held anything. -/
theorem sound_kernel1_C (c : Dev nD) (E : Set ℕ) (i : grid1.Coords)
    (arg2 : Memref sig .tc .vmem S2000x128 .f32) (harg2 : arg2.IsWhole) (arg3 : Memref sig .tc .vmem S2000x128 .f32) (harg3 : arg3.IsWhole)
    (arg4 : Memref sig .tc .vmem S2000x1 .f32) (harg4 : arg4.IsWhole) (arg5 : Memref sig .tc .vmem S128 .f32) (harg5 : arg5.IsWhole)
    (arg6 : Memref sig .tc .vmem S2000x1 .i32) (harg6 : arg6.IsWhole) (arg7 : Memref sig .tc .vmem S64x128 .f32) (harg7 : arg7.IsWhole)
    (arg8 : Memref sig .tc .vmem S64x128 .f32) (harg8 : arg8.IsWhole) (arg9 : Memref sig .tc .vmem S64x1 .f32) (harg9 : arg9.IsWhole)
    (hc0 : ¬cond1_0 i) (hc1 : cond1_1 i)
    (x0 : Vec F S2000x128 .f32) (x1 : Vec F S2000x128 .f32) (x2 : Vec F S2000x1 .f32) (x3 : Vec F S128 .f32) (x4 : Vec F S2000x1 .i32)
    (s0 : Vec F S64x128 .f32) (s1 : Vec F S64x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (k1_pay2 (k1_pay7 x2 x0 x1 x3 x4 s0) (k1_pay1 (k1_pay6 x4) s1))
            ∗ owns (c : Thread nD τ) arg8 fullShare (k1_pay7 x2 x0 x1 x3 x4 s0) ∗ owns (c : Thread nD τ) arg9 fullShare (k1_pay1 (k1_pay6 x4) s1)) -∗ K ⟨⟩))
      ⊢ wp frame (wpE (defs₀ (F := F)) Variants.none c none) E (cc1__pool_kernel i arg2 harg2 arg3 harg3 arg4 harg4 arg5 harg5 arg6 harg6 arg7 harg7 arg8 harg8 arg9 harg9) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g0, %hg0, HS0⟩, ⟨%g1, %hg1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hg0; obtain rfl := harg9.eq_unread hg1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    simp only [View.readCov_cons_toLoadRect, readAt_unread_unit (S := S2000x128) zeros2, readAt_unread_unit (S := S2000x1) zeros2,
      readAt_unread_unit (S := S128) zeros1, readAt_unread_unit (S := S64x128) zeros2, readAt_unread_unit (S := S64x1) zeros2,
      read_writes_cons_unit (S := S64x128) zeros2, read_writes_cons_unit (S := S64x1) zeros2]
  isplitl [HS0]
  · iexists _; isplitr
    swap; · iexact HS0
    ipureintro
    sl_unfold_run_names
    simp only [View.readCov_cons_toLoadRect, readAt_unread_unit (S := S2000x128) zeros2, readAt_unread_unit (S := S2000x1) zeros2,
      readAt_unread_unit (S := S128) zeros1, readAt_unread_unit (S := S64x128) zeros2, readAt_unread_unit (S := S64x1) zeros2,
      read_writes_cons_unit (S := S64x128) zeros2, read_writes_cons_unit (S := S64x1) zeros2]
  iexists _; isplitr
  swap; · iexact HS1
  ipureintro
  sl_unfold_run_names
  simp only [View.readCov_cons_toLoadRect, readAt_unread_unit (S := S2000x128) zeros2, readAt_unread_unit (S := S2000x1) zeros2,
    readAt_unread_unit (S := S128) zeros1, readAt_unread_unit (S := S64x128) zeros2, readAt_unread_unit (S := S64x1) zeros2,
    read_writes_cons_unit (S := S64x128) zeros2, read_writes_cons_unit (S := S64x1) zeros2]

end Cert.Kernel.Hand

end
-- ==== Proof.K.R1Ob.lean ====
import proofs.«413251_j72258529788421_3_alg».proof.Proof.K.R1

/-! # The pooling call's body obligation and its invariant at the two ends

The pooling kernel's body, at a grid point t of its 2 × 25 grid, is one of three programs according to t % 25:
at 0 it resets the two accumulators and updates them; from 1 to 23 it updates them; at 24 it updates them and
stores their quotient into the output block. This module joins the three Hoare triples of the body into the one
obligation the pipeline asks at every point: from the region's invariant before the point (the accumulators at
what the point before left, or at anything before a reset), nothing owed, and every window's current staging
buffer at what it then holds (an input's at its block, whether fetched at this point or kept from the point
before; the output's at what was there), the body runs to the invariant after the point (the accumulators at
this point's update), nothing owed, every input's buffer as it was and the output's at the quotient where it is
stored (t % 25 = 24) and as found elsewhere (there the block is not written back). It also shows that the
invariant before the first point is made from, and the invariant after the last point gives back, the class
invariant of a region: every scoped buffer no window stages at some contents, and the generator register. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The invariant at the two ends

The class invariant lists the eleven scoped buffers no window of this call stages — the other call's nine
staging buffers, then the two accumulators — each whole at some contents, beside the generator register; the
region's invariant before the first point is the same resources grouped as (the nine) ∗ accumulator ∗
accumulator ∗ register. -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  unfold Pipeline.ΦA; rw [scopedRest1_eq]
  unfold rest1
  simp only [owns_whole]
  iintro ⟨⟨A1, A2, A3, A4, A5, A6, A7, A8, A9, S0, S1⟩, Hg⟩
  isplitl [A1 A2 A3 A4 A5 A6 A7 A8 A9]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [S0]; · iexact S0
  isplitl [S1]; · iexact S1
  iexact Hg

/-- The invariant after the last point gives the class invariant back: what the accumulators hold is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  refine BIBase.Entails.trans (PhiS1_any V c _ _) ?_
  unfold Pipeline.ΦA; rw [scopedRest1_eq]
  unfold rest1
  simp only [owns_whole]
  iintro ⟨⟨A1, A2, A3, A4, A5, A6, A7, A8, A9⟩, S0, S1, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexact S0
    iexact S1
  iexact Hg

/-! ## What the body finds in each input window's buffer

An input window's current staging buffer holds the window's block at the point, whether the block was fetched at
this point or is the one fetched earlier (the bias chunk is fetched only where t % 25 = 0: its block index does
not move within a column chunk, so the block kept is this point's block). -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-- An input window is never idle: the body leaves its buffer at the block. -/
theorem leaves1_0 (c : Dev nD) (t : Fin cfg1.N) :
    (dat1 V c).leavesExact 0 t = owns (c : Thread nD τ) (st1_0 t) fullShare (iblk1 V c 0 t) := by
  rw [← after1_0]
theorem leaves1_1 (c : Dev nD) (t : Fin cfg1.N) :
    (dat1 V c).leavesExact 1 t = owns (c : Thread nD τ) (st1_1 t) fullShare (iblk1 V c 1 t) := by
  rw [← after1_1]
theorem leaves1_2 (c : Dev nD) (t : Fin cfg1.N) :
    (dat1 V c).leavesExact 2 t = owns (c : Thread nD τ) (st1_2 t) fullShare (iblk1 V c 2 t) := by
  rw [← after1_2]
theorem leaves1_3 (c : Dev nD) (t : Fin cfg1.N) :
    (dat1 V c).leavesExact 3 t = owns (c : Thread nD τ) (st1_3 t) fullShare (iblk1 V c 3 t) := by
  rw [← after1_3]
theorem leaves1_4 (c : Dev nD) (t : Fin cfg1.N) :
    (dat1 V c).leavesExact 4 t = owns (c : Thread nD τ) (st1_4 t) fullShare (iblk1 V c 4 t) := by
  rw [← after1_4]

/-! ## The body obligation, at a generic point -/

/-- What the body is called with at point t: the invariant, nothing owed, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point, by cases on t % 25. In every case the inputs' buffers hold their blocks and come back
    as they were, and nothing is owed before or after. Where t % 25 = 0 the accumulators may hold anything (the
    named contents the invariant has after an earlier point are forgotten) and end at the update of the reset
    values; elsewhere they hold what the point before left and end at its update. Where t % 25 = 24 the
    output's buffer, holding anything, ends at the quotient of the updated accumulators; elsewhere it is handed
    back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, leaves1_0, leaves1_1, leaves1_2, leaves1_3, leaves1_4]
  rw [show (dat1 V c).owesAt () t.succ = (dat1 V c).owesAt () t.castSucc from rfl]
  rw [PhiS1_succ_dat, PhiS1_succ, PhiS1_castSucc]
  have hN : t.val < 50 := lt_of_lt_of_eq t.isLt (show cfg1.N = 50 from N_1)
  by_cases h0 : t.val % 25 = 0
  · -- the first point of a column chunk: reset, then update
    have h1 : ¬t.val % 25 = 24 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t hc1)]
    rw [accAt1_first V c t h0]
    unfold stepAcc; dsimp only
    refine BIBase.Entails.trans (sep_mono (PhiS1_any V c _ _) .rfl) ?_
    iintro ⟨⟨HR, ⟨%e0, HS0⟩, ⟨%e1, HS1⟩, Hg⟩, Ho, ⟨%d0, H0⟩, ⟨%d1, H1⟩, ⟨%d2, H2⟩, ⟨%d3, H3⟩, ⟨%d4, H4⟩, ⟨%d5, H5⟩⟩
    iapply (sound_kernel1_A c Set.univ (grid1.coords t) _ _ _ _ _ _ _ _ _ _ _ _ _ _ _ _ hc0 hc1
      (iblk1 V c 0 t) (iblk1 V c 1 t) (iblk1 V c 2 t) (iblk1 V c 3 t) (iblk1 V c 4 t) ((dat1 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    iintro ⟨H0, H1, H2, H3, H4, H5, HS0, HS1⟩
    isplitl [HR HS0 HS1 Hg]
    · isplitl [HR]; · iexact HR
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    have hc0 : ¬cond1_0 (grid1.coords t) := fun h => h0 ((hcond1_0 t).mp h)
    rw [accAt1_next V c t h0, PhiS1_pos V c _ _ hz]
    unfold stepAcc; dsimp only
    by_cases h1 : t.val % 25 = 24
    · -- the last point of a column chunk: update, then the quotient into the output block
      have hc1 : cond1_1 (grid1.coords t) := (hcond1_1 t).mpr h1
      rw [show (dat1 V c).leavesExact 5 t = owns (c : Thread nD τ) (st1_5 t) fullShare ((dat1 V c).after 5 t) from by
        unfold Dat.leavesExact; rw [liveAt1_5 t hc1]]
      rw [after1_5 V c t h1, accAt1_next V c t h0]
      unfold stepAcc; dsimp only
      iintro ⟨⟨HR, HS0, HS1, Hg⟩, Ho, ⟨%d0, H0⟩, ⟨%d1, H1⟩, ⟨%d2, H2⟩, ⟨%d3, H3⟩, ⟨%d4, H4⟩, ⟨%d5, H5⟩⟩
      iapply (sound_kernel1_C c Set.univ (grid1.coords t) _ _ _ _ _ _ _ _ _ _ _ _ _ _ _ _ hc0 hc1
        (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a point in the middle of a column chunk: update only
      have hc1 : ¬cond1_1 (grid1.coords t) := fun h => h1 ((hcond1_1 t).mp h)
      rw [Dat.leavesExact_idle (dat1 V c) 5 t (idleAt1_5 t hc1) (noFlush1_5 t hc1)]
      iintro ⟨⟨HR, HS0, HS1, Hg⟩, Ho, ⟨%d0, H0⟩, ⟨%d1, H1⟩, ⟨%d2, H2⟩, ⟨%d3, H3⟩, ⟨%d4, H4⟩, ⟨%d5, H5⟩⟩
      iapply (sound_kernel1_B c Set.univ (grid1.coords t) _ _ _ _ _ _ _ _ _ _ _ _ _ _ _ _ hc0 hc1
        (iblk1 V c 0 t) (iblk1 V c 1 t) (iblk1 V c 2 t) (iblk1 V c 3 t) (iblk1 V c 4 t) ((dat1 V c).before 5 t d5) _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
import proofs.«413251_j72258529788421_3_alg».proof.Proof.K.R0
import proofs.«413251_j72258529788421_3_alg».proof.Proof.K.R1Ob
import proofs.«413251_j72258529788421_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main over its two kernel regions

@main is four stretches in order: fifteen host operations (the edge list cut into its row of sources and its row
of targets, the in-degrees counted by a scatter of ones, one added, the inverse square roots), the first kernel
region (the linear layer), sixteen host operations (negative source indices wrapped, the narrowed rows gathered
by source and widened, their sums scattered by target, two reshapes), the second kernel region (the pooling).

This module writes the contents of the core's buffers at each of the five boundaries as a fold from the launch
memory (a host stretch's contents are the stretch's function of the contents before it; a region leaves each of
its windows' arrays at what its write-backs fold to and every other buffer as it found it), shows that every
argument buffer passes through the fold unchanged, presents each stretch as a segment whose thread state is
"every unscoped buffer whole at the boundary's contents, the generator register at some state, nothing owed",
and concludes: every weakly fair execution of @main terminates, and every final memory holds at every unscoped
buffer the last boundary's contents; in particular the five arguments end as launched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core c's buffers at launch. -/
abbrev W0 : Dev nD → Valuation τ sig (Elt F) := fun c b => m (c, b)
/-- After the first host stretch: what the first region is entered from. -/
abbrev W1 : Dev nD → Valuation τ sig (Elt F) := fun c => StableHlo.after hostOps0 (W0 m c)
/-- The same, read at the TensorCore's references. -/
abbrev V1 : (c : Dev nD) → (b : Ref sig .tc) → Buf (Elt F) ((c : Thread nD τ).loc b) := fun c b => W1 m c b
/-- At the first region's exit: each of its five arrays at what the pipeline leaves there (an input as entered, an
    output at its write-backs folded over the whole grid), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m c b
/-- At the first region's exit each of its arrays holds what the pipeline leaves, and every other buffer what it
    held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: what the second region is entered from. -/
abbrev W3 : Dev nD → Valuation τ sig (Elt F) := fun c => StableHlo.after hostOps1 (W2 m c)
/-- The same, read at the TensorCore's references. -/
abbrev V3 : (c : Dev nD) → (b : Ref sig .tc) → Buf (Elt F) ((c : Thread nD τ).loc b) := fun c b => W3 m c b
/-- At the second region's exit: each of its six arrays at what the pipeline leaves there, every other buffer as
    entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### What each stretch leaves unchanged -/

/-- A buffer no operation of the first host stretch writes is as launched after it. -/
theorem W1_keep (c : Dev nD) (r : Ref sig .tc) (h : r ∉ (hostOps0_W : List (Ref sig .tc))) :
    W1 m c (Proc.devRef .tc r) = W0 m c (Proc.devRef .tc r) :=
  StableHlo.after_of_writes_sub hostOps0 _ hostOps0_writes h
/-- An INPUT window's array leaves the first region as it entered it: nothing is written back to it. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))
/-- A buffer no operation of the second host stretch writes is after it what the first region left. -/
theorem W3_keep (c : Dev nD) (r : Ref sig .tc) (h : r ∉ (hostOps1_W : List (Ref sig .tc))) :
    W3 m c (Proc.devRef .tc r) = W2 m c (Proc.devRef .tc r) :=
  StableHlo.after_of_writes_sub hostOps1 _ hostOps1_writes h
/-- An INPUT window's array leaves the second region as it entered it. -/
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))

/-! ### The arguments end as launched

No host operation writes an argument; a region reads an argument through an input window (the features and the
weights in the first region, the bias in the second) or does not touch it. So the fold at an argument's buffer
walks back to the launch memory. -/

/-- The node features: input window 0 of the first region. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_keep m c main_arg0 (by decide)
    _ = W1 m c (Proc.devRef .tc main_arg0) := W2_in m c 0 rfl
    _ = W0 m c (Proc.devRef .tc main_arg0) := W1_keep m c main_arg0 (by decide)
    _ = m ((c : Thread nD τ).loc main_arg0) := rfl

/-- The edge list: read by host operations only. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_keep m c main_arg1 (by decide)
    _ = W1 m c (Proc.devRef .tc main_arg1) := W2_of_ne m c main_arg1 (by decide)
    _ = W0 m c (Proc.devRef .tc main_arg1) := W1_keep m c main_arg1 (by decide)
    _ = m ((c : Thread nD τ).loc main_arg1) := rfl

/-- The graph of each node: read by a host reshape only. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_keep m c main_arg2 (by decide)
    _ = W1 m c (Proc.devRef .tc main_arg2) := W2_of_ne m c main_arg2 (by decide)
    _ = W0 m c (Proc.devRef .tc main_arg2) := W1_keep m c main_arg2 (by decide)
    _ = m ((c : Thread nD τ).loc main_arg2) := rfl

/-- The weights: input window 1 of the first region. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_keep m c main_arg3 (by decide)
    _ = W1 m c (Proc.devRef .tc main_arg3) := W2_in m c 1 rfl
    _ = W0 m c (Proc.devRef .tc main_arg3) := W1_keep m c main_arg3 (by decide)
    _ = m ((c : Thread nD τ).loc main_arg3) := rfl

/-- The bias: input window 3 of the second region. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_in m c 3 rfl
    _ = W2 m c (Proc.devRef .tc main_arg4) := W3_keep m c main_arg4 (by decide)
    _ = W1 m c (Proc.devRef .tc main_arg4) := W2_of_ne m c main_arg4 (by decide)
    _ = W0 m c (Proc.devRef .tc main_arg4) := W1_keep m c main_arg4 (by decide)
    _ = m ((c : Thread nD τ).loc main_arg4) := rfl

/-! ## The proof data family and the thread state -/

/-- Both pipelines' proof data, each at its region's entry contents: a literal match, so that the launch's
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the core
    owing nothing. -/
abbrev R (c : Dev nD) : sProp 𝕄 := iprop((∃ r, prngReg c r) ∗ ∃ W, owes (c : Thread nD τ) (0 : CellTallies nD τ sig Unit) W)
/-- A host stretch as a segment over the unscoped references from the contents W, R riding along: it ends at those
    references holding the stretch's function of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the
    generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- THE FIRST REGION over the thread state: entered from every unscoped buffer at W1, left at W2. Its five arrays
    are split out of the unscoped buffers and put back at the exit contents; the generator register goes into the
    region's invariant (with the scoped buffers no window stages) and comes out; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at W3, left at W4. As the first,
    but for its invariant: the two accumulators are carried from point to point, so the invariant is the class's
    (the scoped buffers no window stages at anything, the generator register) only at the two ends — it is made
    from that at the first point and gives that back at the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (V3 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main IS the run of the segments: @main is the chain of its four items, and the segments' run is that chain. -/
theorem main_run (c : Dev nD) : main (F := F) c = Pipeline.Seg.run (segs m) := (main_chain c).trans (by chain_rfl)

set_option backward.isDefEq.respectTransparency.types false in
/-- THE RUN: from any memory with every counter at zero, every weakly fair execution of @main on the TensorCores
    terminates, nothing faulting, and every final memory holds at every unscoped buffer of every core the last
    boundary's contents W4. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every weakly fair execution of @main terminates, nothing faulting, and every final memory has the
    five argument arrays as launched — the run's final contents read at each argument, which the fold carries
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)
    (run_main m ρ)

/-- info: 'Cert.Kernel.Hand.run_main' depends on axioms: [propext, Classical.choice, Quot.sound] -/
#guard_msgs in #print axioms run_main

/-- info: 'Cert.Kernel.Hand.frame' depends on axioms: [propext, Classical.choice, Quot.sound] -/
#guard_msgs in #print axioms frame

end Cert.Kernel.Hand

end
-- ==== Proof.KI.R0.lean ====
import proofs.«413251_j72258529788421_3_alg».proof.Proof.Gen.KernelIdeal.Launch
import proofs.«413251_j72258529788421_3_alg».proof.Proof.Gen.KernelIdeal.Skeleton
import proofs.«413251_j72258529788421_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

/-! # The first pallas_call (the linear layer: the product x · W with every row scaled), a region of class A

The body of the first call reads three blocks whole — a block of 1000 rows of the features, the whole weight
matrix, the matching 1000 inverse square-root degrees —, forms one product and one row scaling, and stores the
result whole twice: once in single precision, once narrowed. It keeps no state between grid points and takes no
branch. This module states, at ANY contents V of the core's buffers on entry, what each window's staging buffer
holds before and after the body at a grid point, and proves the body's Hoare triple there. -/

-- membership of an index in a rectangle with an axis of a thousand coordinates: the structural recursion is
-- one level per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its block at every point, for ANY proof data whose array is
    the entry contents and whose body leaves the block in place: where the block was not fetched anew, its index has
    not moved since the point before, and what the body left there is still this point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window alike. Its block index never moves (the one block is the whole matrix), so it is fetched at
    the first grid point only; at every later point the buffer holds what the body, which only reads it, left. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The window of inverse square-root degrees alike (a new block at every point). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is of a whole buffer, a rectangle at offsets zero of the buffer's own extents -/

abbrev r0_x : Rect S1000x1280 := Rect.unit (s := S1000x1280) ![0, 0] S1000x1280.size inb_S1000x1280_S1000x1280_0_0
abbrev r0_w : Rect S1280x256 := Rect.unit (s := S1280x256) ![0, 0] S1280x256.size inb_S1280x256_S1280x256_0_0
abbrev r0_d : Rect S1000x1 := Rect.unit (s := S1000x1) ![0, 0] S1000x1.size inb_S1000x1_S1000x1_0_0
abbrev r0_o : Rect S1000x256 := Rect.unit (s := S1000x256) ![0, 0] S1000x256.size inb_S1000x256_S1000x256_0_0

/-- The offsets of every access are zero on both axes. -/
theorem r0_off : (![0, 0] : Fin 2 → ℕ) = fun _ => 0 := funext fun a => by fin_cases a <;> rfl

/-! ## What the body leaves in each output window's buffer -/

/-- The single-precision output's staging buffer after the body, from the three input blocks: its one store,
    of the whole buffer. -/
def out0_3 (x0 : Vec F S1000x1280 .f32) (x1 : Vec F S1280x256 .f32) (x2 : Vec F S1000x1 .f32) : Vec F S1000x256 .f32 :=
  View.canon [⟨r0_o, k0_pay1 (View.ld x0 r0_x) (View.ld x1 r0_w) (View.ld x2 r0_d)⟩]

/-- The narrowed output's staging buffer after the body: again one store of the whole buffer. -/
def out0_4 (x0 : Vec F S1000x1280 .f32) (x1 : Vec F S1280x256 .f32) (x2 : Vec F S1000x1 .f32) : Vec F S1000x256 .bf16 :=
  View.canon [⟨r0_o, k0_pay2 (View.ld x0 r0_x) (View.ld x1 r0_w) (View.ld x2 r0_d)⟩]

/-- One store of the whole buffer, of a payload of whole loads: the buffer afterwards IS the payload of the blocks. -/
theorem out0_3_eq (x0 : Vec F S1000x1280 .f32) (x1 : Vec F S1280x256 .f32) (x2 : Vec F S1000x1 .f32) :
    out0_3 x0 x1 x2 = k0_pay1 x0 x1 x2 := by
  unfold out0_3
  rw [View.canon_unit_zero r0_off, View.ld_unit_zero r0_off, View.ld_unit_zero r0_off, View.ld_unit_zero r0_off]

theorem out0_4_eq (x0 : Vec F S1000x1280 .f32) (x1 : Vec F S1280x256 .f32) (x2 : Vec F S1000x1 .f32) :
    out0_4 x0 x1 x2 = k0_pay2 x0 x1 x2 := by
  unfold out0_4
  rw [View.canon_unit_zero r0_off, View.ld_unit_zero r0_off, View.ld_unit_zero r0_off, View.ld_unit_zero r0_off]

/-- The one store of an output holds every index of its buffer. -/
theorem cover0_3 (p0 : Vec F S1000x256 .f32) (y : S1000x256.Idx) :
    ∃ pc ∈ ([⟨r0_o, p0⟩] : List (View.Piece (Elt F) S1000x256 .f32)), y ∈ pc.1.set :=
  ⟨_, List.mem_singleton_self _, View.mem_set_unit_zero r0_off inb_S1000x256_S1000x256_0_0 y⟩

theorem cover0_4 (p0 : Vec F S1000x256 .bf16) (y : S1000x256.Idx) :
    ∃ pc ∈ ([⟨r0_o, p0⟩] : List (View.Piece (Elt F) S1000x256 .bf16)), y ∈ pc.1.set :=
  ⟨_, List.mem_singleton_self _, View.mem_set_unit_zero r0_off inb_S1000x256_S1000x256_0_0 y⟩

/-! ## The body's triple -/

set_option maxHeartbeats 1000000 in
/-- The body on whole staging memrefs, the three inputs' at read contents x0, x1, x2 and the two outputs' at anything,
    runs to the continuation holding the inputs' as they were and each output's at what its one store left. The body
    also reads each output buffer before it overwrites it; what it reads there is used by nothing. -/
theorem sound_kernel0 (c : Dev nD) (E : Set ℕ) (i : grid0.Coords)
    (arg1 : Memref sig .tc .vmem S1000x1280 .f32) (harg1 : arg1.IsWhole)
    (arg2 : Memref sig .tc .vmem S1280x256 .f32) (harg2 : arg2.IsWhole)
    (arg3 : Memref sig .tc .vmem S1000x1 .f32) (harg3 : arg3.IsWhole)
    (arg4 : Memref sig .tc .vmem S1000x256 .f32) (harg4 : arg4.IsWhole)
    (arg5 : Memref sig .tc .vmem S1000x256 .bf16) (harg5 : arg5.IsWhole)
    (x0 : Vec F S1000x1280 .f32) (x1 : Vec F S1280x256 .f32) (x2 : Vec F S1000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__linear_kernel i arg1 harg1 arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the first call's pipeline on core c: the arrays as the region finds them; after the body at
    point t each input's buffer still at its block and each output's at what the one store left; the invariant
    that of a region keeping no state (the scoped rest and the generator register, untouched); nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t: the invariant, what the core owes, and the five windows' current
    staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«413251_j72258529788421_3_alg».proof.Proof.Gen.KernelIdeal.Launch
import proofs.«413251_j72258529788421_3_alg».proof.Proof.Gen.KernelIdeal.Skeleton
import proofs.«413251_j72258529788421_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! # Region 1 (the pooling call) at a parameter: the half of the frame that is the kernel's

The pooling kernel runs on a grid of 2 × 25 points, point t at coordinates (t / 25, t % 25): the first
coordinate picks a chunk of 128 of the 256 output columns, the second a block of 2000 of the 50000 nodes. It
keeps two accumulators between points — the per-graph sums (64 × 128) and the per-graph node counts (64 × 1) —
which it resets where t % 25 = 0, updates at every point from the point's input blocks, and divides into the
output block where t % 25 = 24, the only points whose output block is written back. This module states what
the accumulators hold after each point (accAt1), the proof data of the region at any entry contents V,
and proves the body obligation by cases on t % 25. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks and the accumulators -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the two accumulators (sums 64×128, counts 64×1) from the point's input blocks.
    Windows: 0 the scattered sum, 1 the scaled features, 2 the degree scaling, 3 the bias chunk, 4 the graph
    of each node, 5 the result. -/
def stepAcc (c : Dev nD) (t : Fin cfg1.N) (s : Vec F S64x128 .f32 × Vec F S64x1 .f32) : Vec F S64x128 .f32 × Vec F S64x1 .f32 :=
  (k1_pay7 (iblk1 V c 2 t) (iblk1 V c 0 t) (iblk1 V c 1 t) (iblk1 V c 3 t) (iblk1 V c 4 t) s.1, k1_pay1 (k1_pay6 (iblk1 V c 4 t)) s.2)

/-- The accumulators after the body at position n: reset (to the constants the kernel stores there) and updated where n % 25 = 0, else
    what position n - 1 left, updated. -/
def accAt1 (c : Dev nD) : (n : ℕ) → n < cfg1.N → Vec F S64x128 .f32 × Vec F S64x1 .f32
  | 0, hn => stepAcc V c ⟨0, hn⟩ (k1_pay3, k1_pay4)
  | n + 1, hn =>
    if (n + 1) % 25 = 0 then stepAcc V c ⟨n + 1, hn⟩ (k1_pay3, k1_pay4)
    else stepAcc V c ⟨n + 1, hn⟩ (accAt1 c n (Nat.lt_of_succ_lt hn))

theorem accAt1_first (c : Dev nD) (t : Fin cfg1.N) (h : t.val % 25 = 0) :
    accAt1 V c t.val t.isLt = stepAcc V c t (k1_pay3, k1_pay4) := by
  obtain ⟨n, hn⟩ := t
  cases n with
  | zero => rfl
  | succ n => exact if_pos h

theorem accAt1_next (c : Dev nD) (t : Fin cfg1.N) (h : ¬ t.val % 25 = 0) :
    accAt1 V c t.val t.isLt = stepAcc V c t (accAt1 V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The other call's nine staging buffers, each whole at some contents: they ride along untouched. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f))

/-- The region's invariant before position n: before the first point both accumulators at anything, afterwards
    at what the point before left; beside them the other call's staging buffers and the generator register. -/
def PhiS1 (c : Dev nD) : (n : ℕ) → n ≤ cfg1.N → sProp 𝕄
  | 0, _ => iprop(rest1 (F := F) c ∗ (∃ d, owns (c : Thread nD τ) (Memref.whole cc1_scratch0) fullShare d) ∗ (∃ d, owns (c : Thread nD τ) (Memref.whole cc1_scratch1) fullShare d) ∗ (∃ r, prngReg c r))
  | n + 1, hn => iprop(rest1 (F := F) c ∗ owns (c : Thread nD τ) (Memref.whole cc1_scratch0) fullShare (accAt1 V c n hn).1 ∗ owns (c : Thread nD τ) (Memref.whole cc1_scratch1) fullShare (accAt1 V c n hn).2 ∗ (∃ r, prngReg c r))

/-- The invariant before the first point. -/
theorem PhiS1_zero (c : Dev nD) (n : ℕ) (h : n ≤ cfg1.N) (hz : n = 0) :
    PhiS1 V c n h = iprop(rest1 (F := F) c ∗ (∃ d, owns (c : Thread nD τ) (Memref.whole cc1_scratch0) fullShare d) ∗ (∃ d, owns (c : Thread nD τ) (Memref.whole cc1_scratch1) fullShare d) ∗ (∃ r, prngReg c r)) := by
  subst hz; rfl

/-- After point n (before point n + 1): the accumulators at that point's contents. -/
theorem PhiS1_succ (c : Dev nD) (n : ℕ) (hn : n < cfg1.N) :
    PhiS1 V c (n + 1) hn = iprop(rest1 (F := F) c ∗ owns (c : Thread nD τ) (Memref.whole cc1_scratch0) fullShare (accAt1 V c n hn).1 ∗ owns (c : Thread nD τ) (Memref.whole cc1_scratch1) fullShare (accAt1 V c n hn).2 ∗ (∃ r, prngReg c r)) := rfl

/-- Before a point that is not the first: the accumulators at what the point before left. -/
theorem PhiS1_pos (c : Dev nD) (n : ℕ) (h : n ≤ cfg1.N) (hz : n ≠ 0) :
    PhiS1 V c n h = iprop(rest1 (F := F) c ∗ owns (c : Thread nD τ) (Memref.whole cc1_scratch0) fullShare (accAt1 V c (n - 1) (by omega)).1 ∗ owns (c : Thread nD τ) (Memref.whole cc1_scratch1) fullShare (accAt1 V c (n - 1) (by omega)).2 ∗ (∃ r, prngReg c r)) := by
  cases n with
  | zero => exact absurd rfl hz
  | succ n => rfl

/-- Before any point the accumulators are at some contents: the named contents forgotten. -/
theorem PhiS1_any (c : Dev nD) (n : ℕ) (h : n ≤ cfg1.N) :
    PhiS1 V c n h ⊢ iprop(rest1 (F := F) c ∗ (∃ d, owns (c : Thread nD τ) (Memref.whole cc1_scratch0) fullShare d) ∗ (∃ d, owns (c : Thread nD τ) (Memref.whole cc1_scratch1) fullShare d) ∗ (∃ r, prngReg c r)) := by
  cases n with
  | zero => exact Idealize.SL.BI.Entails.refl _
  | succ n =>
    rw [PhiS1_succ]
    iintro ⟨HR, HS0, HS1, Hg⟩
    isplitl [HR]; · iexact HR
    isplitl [HS0]; · iexists _; iexact HS0
    isplitl [HS1]; · iexists _; iexact HS1
    iexact Hg

/-! ## The proof data -/

/-- The proof data of the pooling call on core c: the arrays as the region finds them; after the body at point
    t each input's buffer at its block and the output's at the quotient of the accumulators (consulted only
    where t % 25 = 24: elsewhere the window is idle and not written back); the invariant above; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay2 (accAt1 V c t.val t.isLt).1 (accAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) (h : t.val % 25 = 24) :
    (dat1 V c).after 5 t = k1_pay2 (accAt1 V c t.val t.isLt).1 (accAt1 V c t.val t.isLt).2 := by dsimp only [dat1]

/-- The invariant at a point's start (the proof data at t.castSucc), restated at t.val. -/
theorem PhiS1_castSucc (c : Dev nD) (t : Fin cfg1.N) :
    (dat1 V c).Φ t.castSucc = PhiS1 V c t.val (Nat.le_of_lt t.isLt) := by
  dsimp only [dat1]; simp only [Fin.coe_castSucc]

/-- The invariant at a point's end. -/
theorem PhiS1_succ_dat (c : Dev nD) (t : Fin cfg1.N) :
    (dat1 V c).Φ t.succ = PhiS1 V c (t.val + 1) t.isLt := rfl

/-! ## The body's branch conditions, in closed form over the grid -/

/-- The condition of the body's first branch (the reset), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 25). -/
theorem hcond1_0 : ∀ t : Fin cfg1.N, cond1_0 (grid1.coords t) ↔ t.val % 25 = 0 :=
  (by decide +kernel : ∀ t : Fin grid1.N, cond1_0 (grid1.coords t) ↔ t.val % 25 = 0)

/-- The condition of the body's second branch (the division into the output block). -/
abbrev cond1_1 (i : grid1.Coords) : Prop := k1_cond2 i = 1#1
/-- It holds at the points ≡ 24 (mod 25). -/
theorem hcond1_1 : ∀ t : Fin cfg1.N, cond1_1 (grid1.coords t) ↔ t.val % 25 = 24 :=
  (by decide +kernel : ∀ t : Fin grid1.N, cond1_1 (grid1.coords t) ↔ t.val % 25 = 24)

/-- Where the second branch is not taken the output window is idle and its block is not written back; where it
    is taken the window is live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## Loads and stores of a whole buffer -/

/-- The zero offsets of rank 1 and 2 as the constant function. -/
theorem zeros1 : (![0] : Fin 1 → ℕ) = fun _ => 0 := by
  funext a; fin_cases a <;> rfl
theorem zeros2 : (![0, 0] : Fin 2 → ℕ) = fun _ => 0 := by
  funext a; fin_cases a <;> rfl

/-- A load of a whole buffer through the whole-shape rectangle at zero offsets reads the buffer's contents. -/
theorem readAt_unread_unit {S : Shape} {off : Fin S.rank → ℕ} (hz : off = fun _ => 0) {κ : Kind} {sp : Space} {e : EltTy}
    {m : Memref sig κ sp S e} (h : m.IsWhole) (inb : ∀ a, off a + S.size a ≤ S.size a) (X : S.Idx → Elt F e) :
    View.readAt (Elt F) m.view (Rect.unit off S.size inb).toLoadRect (h.unread X) = X := by
  show View.ld (m.view.read (Elt F) (h.unread X)) (Rect.unit off S.size inb) = X
  rw [h.read_unread, View.ld_unit_zero hz inb]

/-- A store through it, last, leaves its payload, whatever the buffer held and whatever was stored before. -/
theorem read_writes_cons_unit {S : Shape} {off : Fin S.rank → ℕ} (hz : off = fun _ => 0) {κ : Kind} {sp : Space} {e : EltTy}
    (v : View sig κ sp S e) (f : v.ty.Contents (Elt F)) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons.mpr (Or.inl rfl), View.mem_set_unit_zero hz inb y⟩),
    View.canon_cons_unit_zero hz inb]

set_option maxHeartbeats 4000000 in
/-- The body at the first point of a column chunk: the accumulators, at anything, are reset and then updated. -/
theorem sound_kernel1_A (c : Dev nD) (E : Set ℕ) (i : grid1.Coords)
    (arg2 : Memref sig .tc .vmem S2000x128 .f32) (harg2 : arg2.IsWhole) (arg3 : Memref sig .tc .vmem S2000x128 .f32) (harg3 : arg3.IsWhole)
    (arg4 : Memref sig .tc .vmem S2000x1 .f32) (harg4 : arg4.IsWhole) (arg5 : Memref sig .tc .vmem S128 .f32) (harg5 : arg5.IsWhole)
    (arg6 : Memref sig .tc .vmem S2000x1 .i32) (harg6 : arg6.IsWhole) (arg7 : Memref sig .tc .vmem S64x128 .f32) (harg7 : arg7.IsWhole)
    (arg8 : Memref sig .tc .vmem S64x128 .f32) (harg8 : arg8.IsWhole) (arg9 : Memref sig .tc .vmem S64x1 .f32) (harg9 : arg9.IsWhole)
    (hc0 : cond1_0 i) (hc1 : ¬cond1_1 i)
    (x0 : Vec F S2000x128 .f32) (x1 : Vec F S2000x128 .f32) (x2 : Vec F S2000x1 .f32) (x3 : Vec F S128 .f32) (x4 : Vec F S2000x1 .i32)
    (y5 : Vec F S64x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y5
            ∗ owns (c : Thread nD τ) arg8 fullShare (k1_pay7 x2 x0 x1 x3 x4 k1_pay3) ∗ owns (c : Thread nD τ) arg9 fullShare (k1_pay1 (k1_pay6 x4) k1_pay4)) -∗ K ⟨⟩))
      ⊢ wp frame (wpE (defs₀ (F := F)) Variants.none c none) E (cc1__pool_kernel i arg2 harg2 arg3 harg3 arg4 harg4 arg5 harg5 arg6 harg6 arg7 harg7 arg8 harg8 arg9 harg9) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d0, %g0, -, HS0⟩, ⟨%d1, %g1, -, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    sl_unfold_run_names
    simp only [View.readCov_cons_toLoadRect, readAt_unread_unit (S := S2000x128) zeros2, readAt_unread_unit (S := S2000x1) zeros2,
      readAt_unread_unit (S := S128) zeros1, readAt_unread_unit (S := S64x128) zeros2, readAt_unread_unit (S := S64x1) zeros2,
      read_writes_cons_unit (S := S64x128) zeros2, read_writes_cons_unit (S := S64x1) zeros2]
  iexists _; isplitr
  swap; · iexact HS1
  ipureintro
  sl_unfold_run_names
  simp only [View.readCov_cons_toLoadRect, readAt_unread_unit (S := S2000x128) zeros2, readAt_unread_unit (S := S2000x1) zeros2,
    readAt_unread_unit (S := S128) zeros1, readAt_unread_unit (S := S64x128) zeros2, readAt_unread_unit (S := S64x1) zeros2,
    read_writes_cons_unit (S := S64x128) zeros2, read_writes_cons_unit (S := S64x1) zeros2]

set_option maxHeartbeats 4000000 in
/-- The body at a point in the middle of a column chunk: no reset, no division. The inputs' buffers stay, the
    output's buffer stays as found, the accumulators go from s to their update. -/
theorem sound_kernel1_B (c : Dev nD) (E : Set ℕ) (i : grid1.Coords)
    (arg2 : Memref sig .tc .vmem S2000x128 .f32) (harg2 : arg2.IsWhole) (arg3 : Memref sig .tc .vmem S2000x128 .f32) (harg3 : arg3.IsWhole)
    (arg4 : Memref sig .tc .vmem S2000x1 .f32) (harg4 : arg4.IsWhole) (arg5 : Memref sig .tc .vmem S128 .f32) (harg5 : arg5.IsWhole)
    (arg6 : Memref sig .tc .vmem S2000x1 .i32) (harg6 : arg6.IsWhole) (arg7 : Memref sig .tc .vmem S64x128 .f32) (harg7 : arg7.IsWhole)
    (arg8 : Memref sig .tc .vmem S64x128 .f32) (harg8 : arg8.IsWhole) (arg9 : Memref sig .tc .vmem S64x1 .f32) (harg9 : arg9.IsWhole)
    (hc0 : ¬cond1_0 i) (hc1 : ¬cond1_1 i)
    (x0 : Vec F S2000x128 .f32) (x1 : Vec F S2000x128 .f32) (x2 : Vec F S2000x1 .f32) (x3 : Vec F S128 .f32) (x4 : Vec F S2000x1 .i32)
    (y5 : Vec F S64x128 .f32) (s0 : Vec F S64x128 .f32) (s1 : Vec F S64x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y5
        ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare y5
            ∗ owns (c : Thread nD τ) arg8 fullShare (k1_pay7 x2 x0 x1 x3 x4 s0) ∗ owns (c : Thread nD τ) arg9 fullShare (k1_pay1 (k1_pay6 x4) s1)) -∗ K ⟨⟩))
      ⊢ wp frame (wpE (defs₀ (F := F)) Variants.none c none) E (cc1__pool_kernel i arg2 harg2 arg3 harg3 arg4 harg4 arg5 harg5 arg6 harg6 arg7 harg7 arg8 harg8 arg9 harg9) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, HS0⟩, ⟨%g1, %hg1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5; obtain rfl := harg8.eq_unread hg0; obtain rfl := harg9.eq_unread hg1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    sl_unfold_run_names
    simp only [View.readCov_cons_toLoadRect, readAt_unread_unit (S := S2000x128) zeros2, readAt_unread_unit (S := S2000x1) zeros2,
      readAt_unread_unit (S := S128) zeros1, readAt_unread_unit (S := S64x128) zeros2, readAt_unread_unit (S := S64x1) zeros2,
      read_writes_cons_unit (S := S64x128) zeros2, read_writes_cons_unit (S := S64x1) zeros2]
  iexists _; isplitr
  swap; · iexact HS1
  ipureintro
  sl_unfold_run_names
  simp only [View.readCov_cons_toLoadRect, readAt_unread_unit (S := S2000x128) zeros2, readAt_unread_unit (S := S2000x1) zeros2,
    readAt_unread_unit (S := S128) zeros1, readAt_unread_unit (S := S64x128) zeros2, readAt_unread_unit (S := S64x1) zeros2,
    read_writes_cons_unit (S := S64x128) zeros2, read_writes_cons_unit (S := S64x1) zeros2]

set_option maxHeartbeats 4000000 in
/-- The body at the last point of a column chunk: the accumulators are updated and their quotient stored into the
    output's buffer, which held anything. -/
theorem sound_kernel1_C (c : Dev nD) (E : Set ℕ) (i : grid1.Coords)
    (arg2 : Memref sig .tc .vmem S2000x128 .f32) (harg2 : arg2.IsWhole) (arg3 : Memref sig .tc .vmem S2000x128 .f32) (harg3 : arg3.IsWhole)
    (arg4 : Memref sig .tc .vmem S2000x1 .f32) (harg4 : arg4.IsWhole) (arg5 : Memref sig .tc .vmem S128 .f32) (harg5 : arg5.IsWhole)
    (arg6 : Memref sig .tc .vmem S2000x1 .i32) (harg6 : arg6.IsWhole) (arg7 : Memref sig .tc .vmem S64x128 .f32) (harg7 : arg7.IsWhole)
    (arg8 : Memref sig .tc .vmem S64x128 .f32) (harg8 : arg8.IsWhole) (arg9 : Memref sig .tc .vmem S64x1 .f32) (harg9 : arg9.IsWhole)
    (hc0 : ¬cond1_0 i) (hc1 : cond1_1 i)
    (x0 : Vec F S2000x128 .f32) (x1 : Vec F S2000x128 .f32) (x2 : Vec F S2000x1 .f32) (x3 : Vec F S128 .f32) (x4 : Vec F S2000x1 .i32)
    (s0 : Vec F S64x128 .f32) (s1 : Vec F S64x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (k1_pay2 (k1_pay7 x2 x0 x1 x3 x4 s0) (k1_pay1 (k1_pay6 x4) s1))
            ∗ owns (c : Thread nD τ) arg8 fullShare (k1_pay7 x2 x0 x1 x3 x4 s0) ∗ owns (c : Thread nD τ) arg9 fullShare (k1_pay1 (k1_pay6 x4) s1)) -∗ K ⟨⟩))
      ⊢ wp frame (wpE (defs₀ (F := F)) Variants.none c none) E (cc1__pool_kernel i arg2 harg2 arg3 harg3 arg4 harg4 arg5 harg5 arg6 harg6 arg7 harg7 arg8 harg8 arg9 harg9) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g0, %hg0, HS0⟩, ⟨%g1, %hg1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hg0; obtain rfl := harg9.eq_unread hg1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    simp only [View.readCov_cons_toLoadRect, readAt_unread_unit (S := S2000x128) zeros2, readAt_unread_unit (S := S2000x1) zeros2,
      readAt_unread_unit (S := S128) zeros1, readAt_unread_unit (S := S64x128) zeros2, readAt_unread_unit (S := S64x1) zeros2,
      read_writes_cons_unit (S := S64x128) zeros2, read_writes_cons_unit (S := S64x1) zeros2]
  isplitl [HS0]
  · iexists _; isplitr
    swap; · iexact HS0
    ipureintro
    sl_unfold_run_names
    simp only [View.readCov_cons_toLoadRect, readAt_unread_unit (S := S2000x128) zeros2, readAt_unread_unit (S := S2000x1) zeros2,
      readAt_unread_unit (S := S128) zeros1, readAt_unread_unit (S := S64x128) zeros2, readAt_unread_unit (S := S64x1) zeros2,
      read_writes_cons_unit (S := S64x128) zeros2, read_writes_cons_unit (S := S64x1) zeros2]
  iexists _; isplitr
  swap; · iexact HS1
  ipureintro
  sl_unfold_run_names
  simp only [View.readCov_cons_toLoadRect, readAt_unread_unit (S := S2000x128) zeros2, readAt_unread_unit (S := S2000x1) zeros2,
    readAt_unread_unit (S := S128) zeros1, readAt_unread_unit (S := S64x128) zeros2, readAt_unread_unit (S := S64x1) zeros2,
    read_writes_cons_unit (S := S64x128) zeros2, read_writes_cons_unit (S := S64x1) zeros2]

end Cert.KernelIdeal.Hand

end
-- ==== Proof.KI.R1Ob.lean ====
import proofs.«413251_j72258529788421_3_alg».proof.Proof.KI.R1

/-! # The pooling call's body obligation and its invariant at the two ends

The pooling kernel's body, at a grid point t of its 2 × 25 grid, is one of three programs according to t % 25:
at 0 it resets the two accumulators and updates them; from 1 to 23 it updates them; at 24 it updates them and
stores their quotient into the output block. This module joins the three Hoare triples of the body into the one
obligation the pipeline asks at every point: from the region's invariant before the point (the accumulators at
what the point before left, or at anything before a reset), nothing owed, and every window's current staging
buffer at what it then holds (an input's at its block, whether fetched at this point or kept from the point
before; the output's at what was there), the body runs to the invariant after the point (the accumulators at
this point's update), nothing owed, every input's buffer as it was and the output's at the quotient where it is
stored (t % 25 = 24) and as found elsewhere (there the block is not written back). It also shows that the
invariant before the first point is made from, and the invariant after the last point gives back, the class
invariant of a region: every scoped buffer no window stages at some contents, and the generator register. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The invariant at the two ends

The class invariant lists the eleven scoped buffers no window of this call stages — the other call's nine
staging buffers, then the two accumulators — each whole at some contents, beside the generator register; the
region's invariant before the first point is the same resources grouped as (the nine) ∗ accumulator ∗
accumulator ∗ register. -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  unfold Pipeline.ΦA; rw [scopedRest1_eq]
  unfold rest1
  simp only [owns_whole]
  iintro ⟨⟨A1, A2, A3, A4, A5, A6, A7, A8, A9, S0, S1⟩, Hg⟩
  isplitl [A1 A2 A3 A4 A5 A6 A7 A8 A9]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [S0]; · iexact S0
  isplitl [S1]; · iexact S1
  iexact Hg

/-- The invariant after the last point gives the class invariant back: what the accumulators hold is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  refine BIBase.Entails.trans (PhiS1_any V c _ _) ?_
  unfold Pipeline.ΦA; rw [scopedRest1_eq]
  unfold rest1
  simp only [owns_whole]
  iintro ⟨⟨A1, A2, A3, A4, A5, A6, A7, A8, A9⟩, S0, S1, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexact S0
    iexact S1
  iexact Hg

/-! ## What the body finds in each input window's buffer

An input window's current staging buffer holds the window's block at the point, whether the block was fetched at
this point or is the one fetched earlier (the bias chunk is fetched only where t % 25 = 0: its block index does
not move within a column chunk, so the block kept is this point's block). -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-- An input window is never idle: the body leaves its buffer at the block. -/
theorem leaves1_0 (c : Dev nD) (t : Fin cfg1.N) :
    (dat1 V c).leavesExact 0 t = owns (c : Thread nD τ) (st1_0 t) fullShare (iblk1 V c 0 t) := by
  rw [← after1_0]
theorem leaves1_1 (c : Dev nD) (t : Fin cfg1.N) :
    (dat1 V c).leavesExact 1 t = owns (c : Thread nD τ) (st1_1 t) fullShare (iblk1 V c 1 t) := by
  rw [← after1_1]
theorem leaves1_2 (c : Dev nD) (t : Fin cfg1.N) :
    (dat1 V c).leavesExact 2 t = owns (c : Thread nD τ) (st1_2 t) fullShare (iblk1 V c 2 t) := by
  rw [← after1_2]
theorem leaves1_3 (c : Dev nD) (t : Fin cfg1.N) :
    (dat1 V c).leavesExact 3 t = owns (c : Thread nD τ) (st1_3 t) fullShare (iblk1 V c 3 t) := by
  rw [← after1_3]
theorem leaves1_4 (c : Dev nD) (t : Fin cfg1.N) :
    (dat1 V c).leavesExact 4 t = owns (c : Thread nD τ) (st1_4 t) fullShare (iblk1 V c 4 t) := by
  rw [← after1_4]

/-! ## The body obligation, at a generic point -/

/-- What the body is called with at point t: the invariant, nothing owed, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point, by cases on t % 25. In every case the inputs' buffers hold their blocks and come back
    as they were, and nothing is owed before or after. Where t % 25 = 0 the accumulators may hold anything (the
    named contents the invariant has after an earlier point are forgotten) and end at the update of the reset
    values; elsewhere they hold what the point before left and end at its update. Where t % 25 = 24 the
    output's buffer, holding anything, ends at the quotient of the updated accumulators; elsewhere it is handed
    back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, leaves1_0, leaves1_1, leaves1_2, leaves1_3, leaves1_4]
  rw [show (dat1 V c).owesAt () t.succ = (dat1 V c).owesAt () t.castSucc from rfl]
  rw [PhiS1_succ_dat, PhiS1_succ, PhiS1_castSucc]
  have hN : t.val < 50 := lt_of_lt_of_eq t.isLt (show cfg1.N = 50 from N_1)
  by_cases h0 : t.val % 25 = 0
  · -- the first point of a column chunk: reset, then update
    have h1 : ¬t.val % 25 = 24 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t hc1)]
    rw [accAt1_first V c t h0]
    unfold stepAcc; dsimp only
    refine BIBase.Entails.trans (sep_mono (PhiS1_any V c _ _) .rfl) ?_
    iintro ⟨⟨HR, ⟨%e0, HS0⟩, ⟨%e1, HS1⟩, Hg⟩, Ho, ⟨%d0, H0⟩, ⟨%d1, H1⟩, ⟨%d2, H2⟩, ⟨%d3, H3⟩, ⟨%d4, H4⟩, ⟨%d5, H5⟩⟩
    iapply (sound_kernel1_A c Set.univ (grid1.coords t) _ _ _ _ _ _ _ _ _ _ _ _ _ _ _ _ hc0 hc1
      (iblk1 V c 0 t) (iblk1 V c 1 t) (iblk1 V c 2 t) (iblk1 V c 3 t) (iblk1 V c 4 t) ((dat1 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    iintro ⟨H0, H1, H2, H3, H4, H5, HS0, HS1⟩
    isplitl [HR HS0 HS1 Hg]
    · isplitl [HR]; · iexact HR
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    have hc0 : ¬cond1_0 (grid1.coords t) := fun h => h0 ((hcond1_0 t).mp h)
    rw [accAt1_next V c t h0, PhiS1_pos V c _ _ hz]
    unfold stepAcc; dsimp only
    by_cases h1 : t.val % 25 = 24
    · -- the last point of a column chunk: update, then the quotient into the output block
      have hc1 : cond1_1 (grid1.coords t) := (hcond1_1 t).mpr h1
      rw [show (dat1 V c).leavesExact 5 t = owns (c : Thread nD τ) (st1_5 t) fullShare ((dat1 V c).after 5 t) from by
        unfold Dat.leavesExact; rw [liveAt1_5 t hc1]]
      rw [after1_5 V c t h1, accAt1_next V c t h0]
      unfold stepAcc; dsimp only
      iintro ⟨⟨HR, HS0, HS1, Hg⟩, Ho, ⟨%d0, H0⟩, ⟨%d1, H1⟩, ⟨%d2, H2⟩, ⟨%d3, H3⟩, ⟨%d4, H4⟩, ⟨%d5, H5⟩⟩
      iapply (sound_kernel1_C c Set.univ (grid1.coords t) _ _ _ _ _ _ _ _ _ _ _ _ _ _ _ _ hc0 hc1
        (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a point in the middle of a column chunk: update only
      have hc1 : ¬cond1_1 (grid1.coords t) := fun h => h1 ((hcond1_1 t).mp h)
      rw [Dat.leavesExact_idle (dat1 V c) 5 t (idleAt1_5 t hc1) (noFlush1_5 t hc1)]
      iintro ⟨⟨HR, HS0, HS1, Hg⟩, Ho, ⟨%d0, H0⟩, ⟨%d1, H1⟩, ⟨%d2, H2⟩, ⟨%d3, H3⟩, ⟨%d4, H4⟩, ⟨%d5, H5⟩⟩
      iapply (sound_kernel1_B c Set.univ (grid1.coords t) _ _ _ _ _ _ _ _ _ _ _ _ _ _ _ _ hc0 hc1
        (iblk1 V c 0 t) (iblk1 V c 1 t) (iblk1 V c 2 t) (iblk1 V c 3 t) (iblk1 V c 4 t) ((dat1 V c).before 5 t d5) _ _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
import proofs.«413251_j72258529788421_3_alg».proof.Proof.KI.R0
import proofs.«413251_j72258529788421_3_alg».proof.Proof.KI.R1Ob
import proofs.«413251_j72258529788421_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main over its two kernel regions

@main is four stretches in order: fifteen host operations (the edge list cut into its row of sources and its row
of targets, the in-degrees counted by a scatter of ones, one added, the inverse square roots), the first kernel
region (the linear layer), sixteen host operations (negative source indices wrapped, the narrowed rows gathered
by source and widened, their sums scattered by target, two reshapes), the second kernel region (the pooling).

This module writes the contents of the core's buffers at each of the five boundaries as a fold from the launch
memory (a host stretch's contents are the stretch's function of the contents before it; a region leaves each of
its windows' arrays at what its write-backs fold to and every other buffer as it found it), shows that every
argument buffer passes through the fold unchanged, presents each stretch as a segment whose thread state is
"every unscoped buffer whole at the boundary's contents, the generator register at some state, nothing owed",
and concludes: every weakly fair execution of @main terminates, and every final memory holds at every unscoped
buffer the last boundary's contents; in particular the five arguments end as launched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core c's buffers at launch. -/
abbrev W0 : Dev nD → Valuation τ sig (Elt F) := fun c b => m (c, b)
/-- After the first host stretch: what the first region is entered from. -/
abbrev W1 : Dev nD → Valuation τ sig (Elt F) := fun c => StableHlo.after hostOps0 (W0 m c)
/-- The same, read at the TensorCore's references. -/
abbrev V1 : (c : Dev nD) → (b : Ref sig .tc) → Buf (Elt F) ((c : Thread nD τ).loc b) := fun c b => W1 m c b
/-- At the first region's exit: each of its five arrays at what the pipeline leaves there (an input as entered, an
    output at its write-backs folded over the whole grid), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m c b
/-- At the first region's exit each of its arrays holds what the pipeline leaves, and every other buffer what it
    held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: what the second region is entered from. -/
abbrev W3 : Dev nD → Valuation τ sig (Elt F) := fun c => StableHlo.after hostOps1 (W2 m c)
/-- The same, read at the TensorCore's references. -/
abbrev V3 : (c : Dev nD) → (b : Ref sig .tc) → Buf (Elt F) ((c : Thread nD τ).loc b) := fun c b => W3 m c b
/-- At the second region's exit: each of its six arrays at what the pipeline leaves there, every other buffer as
    entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### What each stretch leaves unchanged -/

/-- A buffer no operation of the first host stretch writes is as launched after it. -/
theorem W1_keep (c : Dev nD) (r : Ref sig .tc) (h : r ∉ (hostOps0_W : List (Ref sig .tc))) :
    W1 m c (Proc.devRef .tc r) = W0 m c (Proc.devRef .tc r) :=
  StableHlo.after_of_writes_sub hostOps0 _ hostOps0_writes h
/-- An INPUT window's array leaves the first region as it entered it: nothing is written back to it. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))
/-- A buffer no operation of the second host stretch writes is after it what the first region left. -/
theorem W3_keep (c : Dev nD) (r : Ref sig .tc) (h : r ∉ (hostOps1_W : List (Ref sig .tc))) :
    W3 m c (Proc.devRef .tc r) = W2 m c (Proc.devRef .tc r) :=
  StableHlo.after_of_writes_sub hostOps1 _ hostOps1_writes h
/-- An INPUT window's array leaves the second region as it entered it. -/
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))

/-! ### The arguments end as launched

No host operation writes an argument; a region reads an argument through an input window (the features and the
weights in the first region, the bias in the second) or does not touch it. So the fold at an argument's buffer
walks back to the launch memory. -/

/-- The node features: input window 0 of the first region. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_keep m c main_arg0 (by decide)
    _ = W1 m c (Proc.devRef .tc main_arg0) := W2_in m c 0 rfl
    _ = W0 m c (Proc.devRef .tc main_arg0) := W1_keep m c main_arg0 (by decide)
    _ = m ((c : Thread nD τ).loc main_arg0) := rfl

/-- The edge list: read by host operations only. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_keep m c main_arg1 (by decide)
    _ = W1 m c (Proc.devRef .tc main_arg1) := W2_of_ne m c main_arg1 (by decide)
    _ = W0 m c (Proc.devRef .tc main_arg1) := W1_keep m c main_arg1 (by decide)
    _ = m ((c : Thread nD τ).loc main_arg1) := rfl

/-- The graph of each node: read by a host reshape only. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_keep m c main_arg2 (by decide)
    _ = W1 m c (Proc.devRef .tc main_arg2) := W2_of_ne m c main_arg2 (by decide)
    _ = W0 m c (Proc.devRef .tc main_arg2) := W1_keep m c main_arg2 (by decide)
    _ = m ((c : Thread nD τ).loc main_arg2) := rfl

/-- The weights: input window 1 of the first region. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_keep m c main_arg3 (by decide)
    _ = W1 m c (Proc.devRef .tc main_arg3) := W2_in m c 1 rfl
    _ = W0 m c (Proc.devRef .tc main_arg3) := W1_keep m c main_arg3 (by decide)
    _ = m ((c : Thread nD τ).loc main_arg3) := rfl

/-- The bias: input window 3 of the second region. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_in m c 3 rfl
    _ = W2 m c (Proc.devRef .tc main_arg4) := W3_keep m c main_arg4 (by decide)
    _ = W1 m c (Proc.devRef .tc main_arg4) := W2_of_ne m c main_arg4 (by decide)
    _ = W0 m c (Proc.devRef .tc main_arg4) := W1_keep m c main_arg4 (by decide)
    _ = m ((c : Thread nD τ).loc main_arg4) := rfl

/-! ## The proof data family and the thread state -/

/-- Both pipelines' proof data, each at its region's entry contents: a literal match, so that the launch's
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the core
    owing nothing. -/
abbrev R (c : Dev nD) : sProp 𝕄 := iprop((∃ r, prngReg c r) ∗ ∃ W, owes (c : Thread nD τ) (0 : CellTallies nD τ sig Unit) W)
/-- A host stretch as a segment over the unscoped references from the contents W, R riding along: it ends at those
    references holding the stretch's function of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the
    generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- THE FIRST REGION over the thread state: entered from every unscoped buffer at W1, left at W2. Its five arrays
    are split out of the unscoped buffers and put back at the exit contents; the generator register goes into the
    region's invariant (with the scoped buffers no window stages) and comes out; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at W3, left at W4. As the first,
    but for its invariant: the two accumulators are carried from point to point, so the invariant is the class's
    (the scoped buffers no window stages at anything, the generator register) only at the two ends — it is made
    from that at the first point and gives that back at the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (V3 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main IS the run of the segments: @main is the chain of its four items, and the segments' run is that chain. -/
theorem main_run (c : Dev nD) : main (F := F) c = Pipeline.Seg.run (segs m) := (main_chain c).trans (by chain_rfl)

set_option backward.isDefEq.respectTransparency.types false in
/-- THE RUN: from any memory with every counter at zero, every weakly fair execution of @main on the TensorCores
    terminates, nothing faulting, and every final memory holds at every unscoped buffer of every core the last
    boundary's contents W4. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every weakly fair execution of @main terminates, nothing faulting, and every final memory has the
    five argument arrays as launched — the run's final contents read at each argument, which the fold carries
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)
    (run_main m ρ)

/-- info: 'Cert.KernelIdeal.Hand.run_main' depends on axioms: [propext, Classical.choice, Quot.sound] -/
#guard_msgs in #print axioms run_main

/-- info: 'Cert.KernelIdeal.Hand.frame' depends on axioms: [propext, Classical.choice, Quot.sound] -/
#guard_msgs in #print axioms frame

end Cert.KernelIdeal.Hand

end
-- ==== Proof.Spec.lean ====
/-
  The mathematics of the two programs, index by index, over the extended reals.

  A graph has 50000 nodes and 800000 directed edges `row e → col e`; every node also carries a self loop. With
  `deg n` = 1 + the number of edges into `n` and `dis n = deg n ^ (-1/2)`, one graph-convolution layer sends the
  node features `x` (50000 × 1280) through the weights `W` (1280 × 256) and then, at node `n`,
      out n = Σ_{edges e into n} dis (row e) · dis n · (x W) (row e)  +  dis n · dis n · (x W) n  +  b,
  followed by `max · 0` and a mean over the nodes of each of 64 graphs (`bt n` is node `n`'s graph).

  One program computes `out` as written, the edges and the self loops in ONE list of 850000 entries. The other
  scales first, `xws n = (x W) n · dis n`, sums the scaled rows over the 800000 edges only, and finishes with
  `dis n · (Σ_e xws (row e) + xws n) + b`: the same number whenever every quantity is a real number, because then
  multiplication distributes over the finite sum. Index words are 32-bit integers read signed: a negative source
  index wraps once by 50000 and is then clamped into the table, a target index outside the table drops its entry.
-/
import Idealize.ShloMosaic.PureOps.Ideal
import Idealize.ShloMosaic.PureOps.Ideal.Laws
import Idealize.ShloMosaic.Lib.ValueIdx
import Mathlib.Data.EReal.Operations
import Mathlib.Algebra.BigOperators.Fin
import Mathlib.Tactic.Ring
import Mathlib.Tactic.Linarith

noncomputable section

namespace Cert.Spec

open Idealize.ShloMosaic Idealize.ShloMosaic.ValueIdx
open scoped BigOperators

variable (x : (⟨2, ![50000, 1280]⟩ : Shape).Idx → EReal) (ei : (⟨2, ![2, 800000]⟩ : Shape).Idx → BitVec 32)
  (bt : (⟨1, ![50000]⟩ : Shape).Idx → BitVec 32) (W : (⟨2, ![1280, 256]⟩ : Shape).Idx → EReal)
  (b : (⟨1, ![256]⟩ : Shape).Idx → EReal)

/-! ## Index words -/

/-- A source index as written: a negative word wraps once by the table's length. -/
def wrap (w : BitVec 32) : BitVec 32 := if w.slt 0#32 then w + 50000#32 else w

/-- The table row a source index reads: the word read signed and clamped into `[0, 49999]`. -/
def clampRow (w : BitVec 32) : Fin 50000 := ⟨min w.toInt.toNat 49999, by omega⟩

/-- The row a source index word reads: wrapped, then clamped. -/
def src (w : BitVec 32) : Fin 50000 := clampRow (wrap w)

/-- A target index word names node (or graph) `n`: read signed, it is `n`. An entry whose target names no
    node is dropped. -/
def Hits {N : Nat} (w : BitVec 32) (n : Fin N) : Prop := w.toInt = (n.val : ℤ)

instance {N : Nat} (w : BitVec 32) (n : Fin N) : Decidable (Hits w n) := inferInstanceAs (Decidable (w.toInt = (n.val : ℤ)))

/-- Edge `e`'s source and target words. -/
def rowW (e : Fin 800000) : BitVec 32 := ei (ix2 (0 : Fin 2) e)
def colW (e : Fin 800000) : BitVec 32 := ei (ix2 (1 : Fin 2) e)

/-- A list of 800000 words followed by the numbers 0 … 49999: the edges, then the self loops. -/
def catW (a : Fin 800000 → BitVec 32) (j : Fin 850000) : BitVec 32 :=
  if h : j.val < 800000 then a ⟨j.val, h⟩ else BitVec.ofNat 32 (j.val - 800000)

/-! ## The layer, as the program that scales first computes it -/

/-- `(x W) n h`. -/
def xw (n : Fin 50000) (h : Fin 256) : EReal := ∑ k : Fin 1280, x (ix2 n k) * W (ix2 k h)

/-- The degree: the edges into `n`, counted from zero, plus the self loop. -/
def degK (n : Fin 50000) : EReal := (0 + ∑ e : Fin 800000 with Hits (colW ei e) n, (1 : EReal)) + 1

def disK (n : Fin 50000) : EReal := Ideal.rsqrt (degK ei n)

/-- The scaled row. -/
def xws (n : Fin 50000) (h : Fin 256) : EReal := xw x W n h * disK ei n

/-- The scaled rows summed over the edges into `n`, from zero. -/
def aggK (n : Fin 50000) (h : Fin 256) : EReal :=
  0 + ∑ e : Fin 800000 with Hits (colW ei e) n, xws x ei W (src (rowW ei e)) h

/-- The layer's output after `max · 0`. -/
def actK (n : Fin 50000) (h : Fin 256) : EReal :=
  max (disK ei n * (aggK x ei W n h + xws x ei W n h) + b (ix1 h)) 0

/-! ## The layer, over the one list of edges and self loops -/

def degR (n : Fin 50000) : EReal := 0 + ∑ j : Fin 850000 with Hits (catW (colW ei) j) n, (1 : EReal)

/-- `deg ^ (-1/2)` where the degree is positive, else zero. -/
def disR (n : Fin 50000) : EReal := if 0 < degR ei n then Ideal.rsqrt (degR ei n) else 0

def aggR (n : Fin 50000) (h : Fin 256) : EReal :=
  0 + ∑ j : Fin 850000 with Hits (catW (colW ei) j) n,
    (disR ei (src (catW (rowW ei) j)) * disR ei (src (catW (colW ei) j))) * xw x W (src (catW (rowW ei) j)) h

def actR (n : Fin 50000) (h : Fin 256) : EReal := max (aggR x ei W n h + b (ix1 h)) 0

/-! ## The mean over each graph -/

/-- The sum of `p` over the nodes of graph `g`, divided by their number, at least one. -/
def pool (p : Fin 50000 → Fin 256 → EReal) (g : Fin 64) (h : Fin 256) : EReal :=
  Ideal.div (∑ n : Fin 50000 with Hits (bt (ix1 n)) g, p n h)
    (max (∑ n : Fin 50000 with Hits (bt (ix1 n)) g, (1 : EReal)) 1)

/-- Node `2000 i + r`: row `r` of the `i`-th block of 2000 nodes. -/
def nodeOf (i : Fin 25) (r : Fin 2000) : Fin 50000 := ⟨2000 * i.val + r.val, by omega⟩

/-- A graph's membership test as one entry of a 0/1 matrix: the node's word equals the graph's number. -/
def hot (w : BitVec 32) (g : Fin 64) : EReal := if w = BitVec.ofNat 32 g.val then 1 else 0

/-! ## Facts about index words -/

/-- A numeral below `2^31`, as a 32-bit word read signed, is itself. -/
theorem toInt_ofNat_small (l : Nat) (hl : l < 2147483648) : (BitVec.ofNat 32 l).toInt = (l : ℤ) := by
  rw [BitVec.toInt_eq_toNat_cond, BitVec.toNat_ofNat]
  have e : l % 2 ^ 32 = l := Nat.mod_eq_of_lt (by omega)
  rw [e]
  split
  · rfl
  · omega

/-- The numeral `l` names node `n` exactly when `l = n`. -/
theorem hits_ofNat_iff {N : Nat} (l : Nat) (hl : l < 2147483648) (n : Fin N) :
    Hits (BitVec.ofNat 32 l) n ↔ l = n.val := by
  unfold Hits
  rw [toInt_ofNat_small l hl]
  exact Int.ofNat_inj

/-- A word names `n` exactly when it is the numeral `n`. -/
theorem hits_iff_eq_ofNat {N : Nat} (w : BitVec 32) (n : Fin N) (hN : N ≤ 2147483648) :
    Hits w n ↔ w = BitVec.ofNat 32 n.val := by
  unfold Hits
  rw [← toInt_ofNat_small n.val (by omega)]
  exact BitVec.toInt_inj

/-- The entry of the 0/1 matrix is one exactly when the word names the graph. -/
theorem hot_eq (w : BitVec 32) (g : Fin 64) : hot w g = if Hits w g then 1 else 0 := by
  unfold hot
  by_cases hh : Hits w g
  · rw [if_pos hh, if_pos ((hits_iff_eq_ofNat w g (by omega)).mp hh)]
  · rw [if_neg hh, if_neg (fun e => hh ((hits_iff_eq_ofNat w g (by omega)).mpr e))]

/-- A source word that names node `n` reads row `n`: it is not negative, so it does not wrap, and it is inside
    the table, so the clamp leaves it alone. -/
theorem src_of_hits (w : BitVec 32) (n : Fin 50000) (hw : Hits w n) : src w = n := by
  unfold Hits at hw
  have hns : ¬ (w.slt 0#32 = true) := by
    rw [BitVec.slt_iff_toInt_lt, hw, BitVec.toInt_zero]
    omega
  unfold src wrap
  rw [if_neg hns]
  unfold clampRow
  apply Fin.ext
  show min w.toInt.toNat 49999 = n.val
  rw [hw]
  have := n.isLt
  omega

/-- The block decomposition of the nodes: `(i, r) ↦ 2000 i + r` is a bijection. -/
def nodeEquiv : Fin 25 × Fin 2000 ≃ Fin 50000 where
  toFun p := nodeOf p.1 p.2
  invFun n := (⟨n.val / 2000, by omega⟩, ⟨n.val % 2000, by omega⟩)
  left_inv := by
    rintro ⟨i, r⟩
    apply Prod.ext
    · apply Fin.ext
      show (2000 * i.val + r.val) / 2000 = i.val
      omega
    · apply Fin.ext
      show (2000 * i.val + r.val) % 2000 = r.val
      omega
  right_inv := by
    intro n
    apply Fin.ext
    show 2000 * (n.val / 2000) + n.val % 2000 = n.val
    omega

/-- The sum over a graph's nodes, block by block of 2000 nodes, each block a product with the 0/1 matrix. -/
theorem blocks_sum (f : Fin 50000 → EReal) (g : Fin 64) :
    ∑ i : Fin 25, ∑ r : Fin 2000, hot (bt (ix1 (nodeOf i r))) g * f (nodeOf i r)
      = ∑ n : Fin 50000 with Hits (bt (ix1 n)) g, f n := by
  rw [Finset.sum_filter]
  rw [← Equiv.sum_comp nodeEquiv (fun n => if Hits (bt (ix1 n)) g then f n else 0)]
  rw [Fintype.sum_prod_type]
  apply Finset.sum_congr rfl
  intro i _
  apply Finset.sum_congr rfl
  intro r _
  show hot (bt (ix1 (nodeOf i r))) g * f (nodeOf i r)
    = if Hits (bt (ix1 (nodeOf i r))) g then f (nodeOf i r) else 0
  rw [hot_eq]
  by_cases hh : Hits (bt (ix1 (nodeOf i r))) g
  · rw [if_pos hh, if_pos hh, one_mul]
  · rw [if_neg hh, if_neg hh, zero_mul]

/-! ## The two layers agree on real inputs -/

/-- Every entry is a real number. -/
def Real2 {A B : Nat} (v : (⟨2, ![A, B]⟩ : Shape).Idx → EReal) : Prop := ∀ i, ∃ r : ℝ, v i = (r : EReal)
def Real1 {A : Nat} (v : (⟨1, ![A]⟩ : Shape).Idx → EReal) : Prop := ∀ i, ∃ r : ℝ, v i = (r : EReal)

/-! ## The long list: the edges, then the self loops -/

/-- A sum over the 850000 entries is the sum over the 800000 edges plus the sum over the 50000 self loops. -/
theorem sum_fin_cat (G : Fin 850000 → EReal) :
    ∑ j, G j = ∑ e : Fin 800000, G ⟨e.val, by omega⟩ + ∑ l : Fin 50000, G ⟨800000 + l.val, by omega⟩ :=
  Fin.sum_univ_add (a := 800000) (b := 50000) G

/-- An entry among the first 800000 is the edge's word. -/
theorem catW_lo (a : Fin 800000 → BitVec 32) (e : Fin 800000) (h : e.val < 850000) :
    catW a ⟨e.val, h⟩ = a e := by
  unfold catW
  exact dif_pos e.isLt

/-- Entry `800000 + l` is the numeral `l`. -/
theorem catW_hi (a : Fin 800000 → BitVec 32) (l : Fin 50000) (h : 800000 + l.val < 850000) :
    catW a ⟨800000 + l.val, h⟩ = BitVec.ofNat 32 l.val := by
  unfold catW
  have hn : ¬ ((⟨800000 + l.val, h⟩ : Fin 850000).val < 800000) := by
    show ¬ (800000 + l.val < 800000)
    omega
  rw [dif_neg hn]
  show BitVec.ofNat 32 (800000 + l.val - 800000) = _
  rw [Nat.add_sub_cancel_left]

/-- The entries of the long list whose target names `n`: the edges into `n`, and the one self loop of `n`. -/
theorem sum_cat_filter (a : Fin 800000 → BitVec 32) (n : Fin 50000) (G : Fin 850000 → EReal) :
    ∑ j : Fin 850000 with Hits (catW a j) n, G j
      = ∑ e : Fin 800000 with Hits (a e) n, G ⟨e.val, by omega⟩ + G ⟨800000 + n.val, by omega⟩ := by
  rw [Finset.sum_filter, sum_fin_cat, Finset.sum_filter]
  refine congrArg₂ (fun u v : EReal => u + v) ?_ ?_
  · apply Finset.sum_congr rfl
    intro e _
    rw [catW_lo]
  · rw [Finset.sum_eq_single n]
    · rw [if_pos]
      rw [catW_hi]
      exact (hits_ofNat_iff n.val (by omega) n).mpr rfl
    · intro l _ hne
      rw [if_neg]
      rw [catW_hi]
      intro hh
      exact hne (Fin.ext ((hits_ofNat_iff l.val (by omega) n).mp hh))
    · intro hh
      exact absurd (Finset.mem_univ n) hh

/-! ## The degrees and their inverse square roots are real numbers -/

/-- The coercion of the reals into the extended reals commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The number of edges into `n`, as a real number. -/
def cnt (n : Fin 50000) : ℝ := ∑ e : Fin 800000 with Hits (colW ei e) n, (1 : ℝ)

theorem cnt_nonneg (n : Fin 50000) : 0 ≤ cnt ei n :=
  Finset.sum_nonneg fun _ _ => zero_le_one

theorem sum_ones (n : Fin 50000) :
    ∑ e : Fin 800000 with Hits (colW ei e) n, (1 : EReal) = ((cnt ei n : ℝ) : EReal) := by
  unfold cnt
  rw [coe_sum]
  simp only [EReal.coe_one]

theorem degK_coe (n : Fin 50000) : degK ei n = ((cnt ei n + 1 : ℝ) : EReal) := by
  unfold degK
  rw [zero_add, sum_ones, EReal.coe_add, EReal.coe_one]

/-- The self loop's entry of the long list is the `+ 1` of the degree. -/
theorem degR_eq_degK (n : Fin 50000) : degR ei n = degK ei n := by
  unfold degR degK
  rw [sum_cat_filter (colW ei) n (fun _ => (1 : EReal)), zero_add, zero_add]

/-- `deg n ^ (-1/2)` as a real number. -/
def dr (n : Fin 50000) : ℝ := (Real.sqrt (cnt ei n + 1))⁻¹

theorem disK_coe (n : Fin 50000) : disK ei n = ((dr ei n : ℝ) : EReal) := by
  unfold disK dr
  have hp : 0 < cnt ei n + 1 := by
    have := cnt_nonneg ei n
    linarith
  rw [degK_coe, Ideal.rsqrt_coe, if_neg (not_lt.mpr hp.le), if_neg hp.ne']

/-- The degree is positive, so the guarded inverse square root is the plain one. -/
theorem disR_eq_disK (n : Fin 50000) : disR ei n = disK ei n := by
  unfold disR disK
  rw [degR_eq_degK, if_pos]
  rw [degK_coe]
  have := cnt_nonneg ei n
  exact EReal.coe_pos.mpr (by linarith)

/-- A row of `x W` on real inputs is a finite sum of products of reals. -/
theorem xw_coe (x' : (⟨2, ![50000, 1280]⟩ : Shape).Idx → ℝ) (W' : (⟨2, ![1280, 256]⟩ : Shape).Idx → ℝ)
    (hx' : ∀ i, x i = (x' i : EReal)) (hW' : ∀ i, W i = (W' i : EReal)) (n : Fin 50000) (h : Fin 256) :
    xw x W n h = ((∑ k : Fin 1280, x' (ix2 n k) * W' (ix2 k h) : ℝ) : EReal) := by
  unfold xw
  rw [coe_sum]
  apply Finset.sum_congr rfl
  intro k _
  rw [hx', hW', EReal.coe_mul]

/-- On real features, weights and bias the two ways of computing the layer give the same number at every node and
    channel: the self loop's entry of the long list is the `+ 1` of the degree and the `+ xws n` of the sum, and
    `dis n` moves out of the finite sum of reals. -/
theorem actK_eq_actR (hx : Real2 x) (hW : Real2 W) (hb : Real1 b) (n : Fin 50000) (h : Fin 256) :
    actK x ei W b n h = actR x ei W b n h := by
  choose x' hx' using hx
  choose W' hW' using hW
  choose b' hb' using hb
  have hxw : ∀ m, xw x W m h = ((∑ k : Fin 1280, x' (ix2 m k) * W' (ix2 k h) : ℝ) : EReal) :=
    fun m => xw_coe x W x' W' hx' hW' m h
  generalize hxr : (fun m : Fin 50000 => ∑ k : Fin 1280, x' (ix2 m k) * W' (ix2 k h)) = xr at hxw
  have hxw' : ∀ m, xw x W m h = ((xr m : ℝ) : EReal) := fun m => by rw [hxw m, ← hxr]
  have hK : ∀ m, disK ei m = ((dr ei m : ℝ) : EReal) := disK_coe ei
  have hR : ∀ m, disR ei m = ((dr ei m : ℝ) : EReal) := fun m => by rw [disR_eq_disK, disK_coe]
  have hxws : ∀ m, xws x ei W m h = ((xr m * dr ei m : ℝ) : EReal) := fun m => by
    unfold xws
    rw [hxw', hK, EReal.coe_mul]
  have haggK : aggK x ei W n h
      = ((∑ e : Fin 800000 with Hits (colW ei e) n, xr (src (rowW ei e)) * dr ei (src (rowW ei e)) : ℝ) : EReal) := by
    unfold aggK
    rw [zero_add, coe_sum]
    exact Finset.sum_congr rfl fun e _ => hxws _
  have haggR : aggR x ei W n h
      = ((∑ e : Fin 800000 with Hits (colW ei e) n, (dr ei (src (rowW ei e)) * dr ei n) * xr (src (rowW ei e))
          + (dr ei n * dr ei n) * xr n : ℝ) : EReal) := by
    unfold aggR
    rw [zero_add, sum_cat_filter (colW ei) n (fun j =>
      (disR ei (src (catW (rowW ei) j)) * disR ei (src (catW (colW ei) j))) * xw x W (src (catW (rowW ei) j)) h)]
    rw [EReal.coe_add, coe_sum]
    have hself : src (BitVec.ofNat 32 n.val) = n :=
      src_of_hits _ n ((hits_ofNat_iff n.val (by omega) n).mpr rfl)
    refine congrArg₂ (fun u v : EReal => u + v) ?_ ?_
    · apply Finset.sum_congr rfl
      intro e he
      have hit : Hits (colW ei e) n := (Finset.mem_filter.mp he).2
      rw [catW_lo, catW_lo, src_of_hits _ n hit, hR, hR, hxw', ← EReal.coe_mul, ← EReal.coe_mul]
    · rw [catW_hi, catW_hi, hself, hR, hxw', ← EReal.coe_mul, ← EReal.coe_mul]
  have key : dr ei n * (∑ e : Fin 800000 with Hits (colW ei e) n, xr (src (rowW ei e)) * dr ei (src (rowW ei e))
        + xr n * dr ei n) + b' (ix1 h)
      = (∑ e : Fin 800000 with Hits (colW ei e) n, (dr ei (src (rowW ei e)) * dr ei n) * xr (src (rowW ei e))
          + (dr ei n * dr ei n) * xr n) + b' (ix1 h) := by
    rw [mul_add, Finset.mul_sum]
    have e1 : ∀ e : Fin 800000, dr ei n * (xr (src (rowW ei e)) * dr ei (src (rowW ei e)))
        = (dr ei (src (rowW ei e)) * dr ei n) * xr (src (rowW ei e)) := fun e => by ring
    have e2 : dr ei n * (xr n * dr ei n) = (dr ei n * dr ei n) * xr n := by ring
    rw [e2, Finset.sum_congr rfl fun e _ => e1 e]
  unfold actK actR
  rw [haggK, haggR, hxws, hK, hb', ← EReal.coe_add, ← EReal.coe_mul, ← EReal.coe_add, ← EReal.coe_add, key]

theorem pool_actK_eq_pool_actR (hx : Real2 x) (hW : Real2 W) (hb : Real1 b) (g : Fin 64) (h : Fin 256) :
    pool bt (actK x ei W b) g h = pool bt (actR x ei W b) g h := by
  have e : ∀ n : Fin 50000, actK x ei W b n h = actR x ei W b n h := fun n => actK_eq_actR x ei W b hx hW hb n h
  unfold pool
  rw [Finset.sum_congr rfl fun n _ => e n]

end Cert.Spec

end
-- ==== Proof.LibIdealFinite.lean ====
/-
  Finiteness of host computations over the extended reals.

  At the ideal reading of floats every value is an extended real, an element of [-∞, +∞]. This module
  is about arrays whose every entry is an honest REAL number (neither infinity), and about the two
  sharper properties "every entry is a real number ≥ 0" and "every entry is a real number > 0". It
  proves that the elementary array operations preserve these properties:

  • sums, differences, products and negations of real entries are real; the exponential of a real is a
    positive real; a lane-by-lane choice between two arrays of reals is an array of reals;
  • an operation that only RE-INDEXES its operand (a broadcast along new axes, a permutation of the
    axes, a gather of slices at integer positions) has each output entry equal to some input entry, so
    it preserves all three properties;
  • a contraction (a matrix product: a finite sum of products) and a sum along axes added to an initial
    value are finite sums of reals, hence real — the coercion ℝ → [-∞, +∞] commutes with finite sums;
    such a sum of entries ≥ 0 is ≥ 0;
  • a quotient whose divisor is a positive real is the real quotient; the square root of a real > 0
    (≥ 0) is a real > 0 (≥ 0); a square is ≥ 0; a sum of a real ≥ 0 and a real > 0 is > 0;
  • the binary32 bit patterns listed at the end denote the real numbers stated there (and the pattern
    0x7F800000 denotes +∞), so a constant array of one of them has the corresponding property;
  • an integer converted to a float, signed or unsigned, is that integer as a real number.
-/
import Idealize.ShloMosaic.PureOps.Ideal
import Idealize.ShloMosaic.PureOps.Ideal.Laws
import Mathlib.Data.EReal.Operations
import Mathlib.Data.EReal.Inv
import Mathlib.Analysis.SpecialFunctions.Exp
import Mathlib.Analysis.SpecialFunctions.Sqrt
import Mathlib.Algebra.BigOperators.Group.Finset.Basic

noncomputable section

namespace IdealFinite

open Idealize.ShloMosaic
open scoped BigOperators

/-! ### The three properties -/

/-- An extended real that is a real number. -/
def IsFin (x : EReal) : Prop := ∃ r : ℝ, x = (r : EReal)

/-- Every entry of the array is a real number. -/
def AllFin {S : Shape} (v : S.Idx → EReal) : Prop := ∀ i, IsFin (v i)

/-- Every entry of the array is a real number that is not negative. -/
def AllNonneg {S : Shape} (v : S.Idx → EReal) : Prop := ∀ i, ∃ r : ℝ, 0 ≤ r ∧ v i = (r : EReal)

/-- Every entry of the array is a positive real number. -/
def AllPos {S : Shape} (v : S.Idx → EReal) : Prop := ∀ i, ∃ r : ℝ, 0 < r ∧ v i = (r : EReal)

theorem AllPos.allNonneg {S : Shape} {v : S.Idx → EReal} (h : AllPos v) : AllNonneg v := fun i => by
  obtain ⟨r, hr, e⟩ := h i
  exact ⟨r, hr.le, e⟩

theorem AllNonneg.allFin {S : Shape} {v : S.Idx → EReal} (h : AllNonneg v) : AllFin v := fun i => by
  obtain ⟨r, _, e⟩ := h i
  exact ⟨r, e⟩

theorem AllPos.allFin {S : Shape} {v : S.Idx → EReal} (h : AllPos v) : AllFin v := h.allNonneg.allFin

/-! ### Finite sums of reals -/

/-- The coercion of the reals into the extended reals commutes with finite sums. -/
theorem coe_finset_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is a real number. -/
theorem isFin_sum {ι : Type} (s : Finset ι) (f : ι → EReal) (h : ∀ i ∈ s, IsFin (f i)) :
    IsFin (∑ i ∈ s, f i) := by
  classical
  induction s using Finset.induction_on with
  | empty => exact ⟨0, by simp⟩
  | insert a s ha ih =>
    obtain ⟨r, hr⟩ := h a (Finset.mem_insert_self a s)
    obtain ⟨t, ht⟩ := ih fun i hi => h i (Finset.mem_insert_of_mem hi)
    exact ⟨r + t, by rw [Finset.sum_insert ha, hr, ht, EReal.coe_add]⟩

/-- A finite sum of real numbers that are not negative is a real number that is not negative. -/
theorem nonneg_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl _, by simp⟩
  | insert a s ha ih =>
    obtain ⟨r, hr0, hr⟩ := h a (Finset.mem_insert_self a s)
    obtain ⟨t, ht0, ht⟩ := ih fun i hi => h i (Finset.mem_insert_of_mem hi)
    exact ⟨r + t, add_nonneg hr0 ht0, by rw [Finset.sum_insert ha, hr, ht, EReal.coe_add]⟩

/-! ### Pointwise operations -/

theorem AllFin.addf {S : Shape} {φ : FTy} {x y : FVec Ideal S φ} (hx : AllFin x) (hy : AllFin y) :
    AllFin (Idealize.ShloMosaic.addf (F := Ideal) x y) := fun i => by
  obtain ⟨a, ha⟩ := hx i
  obtain ⟨b, hb⟩ := hy i
  exact ⟨a + b, by show x i + y i = _; rw [ha, hb, EReal.coe_add]⟩

theorem AllFin.subf {S : Shape} {φ : FTy} {x y : FVec Ideal S φ} (hx : AllFin x) (hy : AllFin y) :
    AllFin (Idealize.ShloMosaic.subf (F := Ideal) x y) := fun i => by
  obtain ⟨a, ha⟩ := hx i
  obtain ⟨b, hb⟩ := hy i
  exact ⟨a - b, by show x i - y i = _; rw [ha, hb, EReal.coe_sub]⟩

theorem AllFin.mulf {S : Shape} {φ : FTy} {x y : FVec Ideal S φ} (hx : AllFin x) (hy : AllFin y) :
    AllFin (Idealize.ShloMosaic.mulf (F := Ideal) x y) := fun i => by
  obtain ⟨a, ha⟩ := hx i
  obtain ⟨b, hb⟩ := hy i
  exact ⟨a * b, by show x i * y i = _; rw [ha, hb, EReal.coe_mul]⟩

theorem AllFin.negf {S : Shape} {φ : FTy} {x : FVec Ideal S φ} (hx : AllFin x) :
    AllFin (Idealize.ShloMosaic.Host.negf (F := Ideal) x) := fun i => by
  obtain ⟨a, ha⟩ := hx i
  exact ⟨-a, by show -(x i) = _; rw [ha, EReal.coe_neg]⟩

/-- The exponential of a real number is a positive real number. -/
theorem AllPos.exp {S : Shape} {φ : FTy} {x : FVec Ideal S φ} (hx : AllFin x) :
    AllPos (Idealize.ShloMosaic.Host.exp (F := Ideal) x) := fun i => by
  obtain ⟨a, ha⟩ := hx i
  exact ⟨Real.exp a, Real.exp_pos a, by show Ideal.exp (x i) = _; rw [ha, Ideal.exp_coe]⟩

theorem AllFin.exp {S : Shape} {φ : FTy} {x : FVec Ideal S φ} (hx : AllFin x) :
    AllFin (Idealize.ShloMosaic.Host.exp (F := Ideal) x) := (AllPos.exp hx).allFin

/-- A lane-by-lane choice between two arrays of reals, whatever the mask. -/
theorem AllFin.select {S : Shape} {p : IVec S 1} {a b : S.Idx → EReal} (ha : AllFin a) (hb : AllFin b) :
    AllFin (Idealize.ShloMosaic.select p a b) := fun i => by
  show IsFin (Scalar.select (p i) (a i) (b i))
  unfold Scalar.select
  split
  · exact ha i
  · exact hb i

theorem AllNonneg.select {S : Shape} {p : IVec S 1} {a b : S.Idx → EReal} (ha : AllNonneg a) (hb : AllNonneg b) :
    AllNonneg (Idealize.ShloMosaic.select p a b) := fun i => by
  show ∃ r : ℝ, 0 ≤ r ∧ Scalar.select (p i) (a i) (b i) = (r : EReal)
  unfold Scalar.select
  split
  · exact ha i
  · exact hb i

theorem AllPos.select {S : Shape} {p : IVec S 1} {a b : S.Idx → EReal} (ha : AllPos a) (hb : AllPos b) :
    AllPos (Idealize.ShloMosaic.select p a b) := fun i => by
  show ∃ r : ℝ, 0 < r ∧ Scalar.select (p i) (a i) (b i) = (r : EReal)
  unfold Scalar.select
  split
  · exact ha i
  · exact hb i

/-! ### Re-indexing operations: every output entry is an input entry -/

theorem AllFin.broadcastInDim {S T : Shape} {dims : Fin S.rank → Fin T.rank} {h : S.BroadcastsInDim T dims}
    {x : S.Idx → EReal} (hx : AllFin x) : AllFin (Idealize.ShloMosaic.broadcastInDim T dims h x) :=
  fun _ => hx _

theorem AllNonneg.broadcastInDim {S T : Shape} {dims : Fin S.rank → Fin T.rank} {h : S.BroadcastsInDim T dims}
    {x : S.Idx → EReal} (hx : AllNonneg x) : AllNonneg (Idealize.ShloMosaic.broadcastInDim T dims h x) :=
  fun _ => hx _

theorem AllPos.broadcastInDim {S T : Shape} {dims : Fin S.rank → Fin T.rank} {h : S.BroadcastsInDim T dims}
    {x : S.Idx → EReal} (hx : AllPos x) : AllPos (Idealize.ShloMosaic.broadcastInDim T dims h x) :=
  fun _ => hx _

theorem AllFin.transpose {S T : Shape} {perm : List (Fin S.rank)} {x : S.Idx → EReal} {h : S.Transposes perm T}
    (hx : AllFin x) : AllFin (Idealize.ShloMosaic.transpose T perm x h) :=
  fun _ => hx _

theorem AllNonneg.transpose {S T : Shape} {perm : List (Fin S.rank)} {x : S.Idx → EReal} {h : S.Transposes perm T}
    (hx : AllNonneg x) : AllNonneg (Idealize.ShloMosaic.transpose T perm x h) :=
  fun _ => hx _

theorem AllPos.transpose {S T : Shape} {perm : List (Fin S.rank)} {x : S.Idx → EReal} {h : S.Transposes perm T}
    (hx : AllPos x) : AllPos (Idealize.ShloMosaic.transpose T perm x h) :=
  fun _ => hx _

theorem AllFin.gather {S SI T : Shape} {w : Nat} {d : GatherDims S SI T} {x : S.Idx → EReal} {idx : IVec SI w}
    (hx : AllFin x) : AllFin (Idealize.ShloMosaic.Host.gather d x idx) :=
  fun _ => hx _

theorem AllNonneg.gather {S SI T : Shape} {w : Nat} {d : GatherDims S SI T} {x : S.Idx → EReal} {idx : IVec SI w}
    (hx : AllNonneg x) : AllNonneg (Idealize.ShloMosaic.Host.gather d x idx) :=
  fun _ => hx _

theorem AllPos.gather {S SI T : Shape} {w : Nat} {d : GatherDims S SI T} {x : S.Idx → EReal} {idx : IVec SI w}
    (hx : AllPos x) : AllPos (Idealize.ShloMosaic.Host.gather d x idx) :=
  fun _ => hx _

/-! ### Contractions and sums -/

/-- A matrix product of arrays of reals: each entry is a finite sum of products of reals. -/
theorem AllFin.dotGeneral {sl sr so : Shape} {φ₁ φ₂ : FTy} {d : DotDims sl sr so} {prec : Option ContractPrecision}
    {l : FVec Ideal sl φ₁} {r : FVec Ideal sr φ₂} (hl : AllFin l) (hr : AllFin r) :
    AllFin (Idealize.ShloMosaic.Host.dotGeneral (F := Ideal) d prec l r) := fun j => by
  show IsFin (FloatOps.dotGeneral d prec .single l r j)
  rw [Ideal.dotGeneral_apply]
  refine isFin_sum _ _ fun k _ => ?_
  obtain ⟨a, ha⟩ := hl (d.lhsIdx j k)
  obtain ⟨b, hb⟩ := hr (d.rhsIdx j k)
  exact ⟨a * b, by rw [ha, hb, EReal.coe_mul]⟩

/-- The sum of an array of reals along axes, added to a real initial value. -/
theorem AllFin.reduceAdd {S T U : Shape} {φ : FTy} {axes : List (Fin S.rank)} {x : FVec Ideal S φ}
    {v : U.Idx → Ideal φ} {red : S.ReducesTo axes T} {hu : 0 < U.numel} (hx : AllFin x) (hv : AllFin (S := U) v) :
    AllFin (Idealize.ShloMosaic.Host.reduceAdd (F := Ideal) x v red hu) := fun j => by
  show IsFin (Ideal.hostReduceAdd red x (v (Shape.Idx.first hu)) j)
  unfold Ideal.hostReduceAdd
  obtain ⟨a, ha⟩ := hv (Shape.Idx.first hu)
  obtain ⟨b, hb⟩ := isFin_sum (Finset.univ.filter fun i => red.drop i = j) x fun i _ => hx i
  exact ⟨a + b, by rw [ha, hb, EReal.coe_add]⟩

theorem AllNonneg.reduceAdd {S T U : Shape} {φ : FTy} {axes : List (Fin S.rank)} {x : FVec Ideal S φ}
    {v : U.Idx → Ideal φ} {red : S.ReducesTo axes T} {hu : 0 < U.numel} (hx : AllNonneg x)
    (hv : AllNonneg (S := U) v) :
    AllNonneg (Idealize.ShloMosaic.Host.reduceAdd (F := Ideal) x v red hu) := fun j => by
  show ∃ r : ℝ, 0 ≤ r ∧ Ideal.hostReduceAdd red x (v (Shape.Idx.first hu)) j = (r : EReal)
  unfold Ideal.hostReduceAdd
  obtain ⟨a, ha0, ha⟩ := hv (Shape.Idx.first hu)
  obtain ⟨b, hb0, hb⟩ := nonneg_sum (Finset.univ.filter fun i => red.drop i = j) x fun i _ => hx i
  exact ⟨a + b, add_nonneg ha0 hb0, by rw [ha, hb, EReal.coe_add]⟩

/-! ### Division by a positive real -/

/-- A real divided by a positive real, as extended reals, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem AllFin.divf {S : Shape} {φ : FTy} {x y : FVec Ideal S φ} (hx : AllFin x) (hy : AllPos y) :
    AllFin (Idealize.ShloMosaic.Host.divf (F := Ideal) x y) := fun i => by
  obtain ⟨a, ha⟩ := hx i
  obtain ⟨b, hb0, hb⟩ := hy i
  exact ⟨a / b, by show Ideal.div (x i) (y i) = _; rw [ha, hb, div_coe_coe a hb0.ne']⟩

theorem AllNonneg.divf {S : Shape} {φ : FTy} {x y : FVec Ideal S φ} (hx : AllNonneg x) (hy : AllPos y) :
    AllNonneg (Idealize.ShloMosaic.Host.divf (F := Ideal) x y) := fun i => by
  obtain ⟨a, ha0, ha⟩ := hx i
  obtain ⟨b, hb0, hb⟩ := hy i
  exact ⟨a / b, div_nonneg ha0 hb0.le, by show Ideal.div (x i) (y i) = _; rw [ha, hb, div_coe_coe a hb0.ne']⟩

theorem AllPos.divf {S : Shape} {φ : FTy} {x y : FVec Ideal S φ} (hx : AllPos x) (hy : AllPos y) :
    AllPos (Idealize.ShloMosaic.Host.divf (F := Ideal) x y) := fun i => by
  obtain ⟨a, ha0, ha⟩ := hx i
  obtain ⟨b, hb0, hb⟩ := hy i
  exact ⟨a / b, div_pos ha0 hb0, by show Ideal.div (x i) (y i) = _; rw [ha, hb, div_coe_coe a hb0.ne']⟩

/-! ### Square roots -/

/-- The square root of a positive real is a positive real. -/
theorem AllPos.sqrt {S : Shape} {φ : FTy} {x : FVec Ideal S φ} (hx : AllPos x) :
    AllPos (Idealize.ShloMosaic.Host.sqrt (F := Ideal) x) := fun i => by
  obtain ⟨a, ha0, ha⟩ := hx i
  exact ⟨Real.sqrt a, Real.sqrt_pos.mpr ha0, by
    show Ideal.sqrt (x i) = _
    rw [ha, Ideal.sqrt_coe, if_neg (not_lt.mpr ha0.le)]⟩

/-- The square root of a real that is not negative is a real that is not negative. -/
theorem AllNonneg.sqrt {S : Shape} {φ : FTy} {x : FVec Ideal S φ} (hx : AllNonneg x) :
    AllNonneg (Idealize.ShloMosaic.Host.sqrt (F := Ideal) x) := fun i => by
  obtain ⟨a, ha0, ha⟩ := hx i
  exact ⟨Real.sqrt a, Real.sqrt_nonneg a, by
    show Ideal.sqrt (x i) = _
    rw [ha, Ideal.sqrt_coe, if_neg (not_lt.mpr ha0)]⟩

/-! ### Signs of sums and products -/

/-- A square of a real is not negative. -/
theorem AllNonneg.mulf_self {S : Shape} {φ : FTy} {x : FVec Ideal S φ} (hx : AllFin x) :
    AllNonneg (Idealize.ShloMosaic.mulf (F := Ideal) x x) := fun i => by
  obtain ⟨a, ha⟩ := hx i
  exact ⟨a * a, mul_self_nonneg a, by show x i * x i = _; rw [ha, EReal.coe_mul]⟩

theorem AllNonneg.mulf {S : Shape} {φ : FTy} {x y : FVec Ideal S φ} (hx : AllNonneg x) (hy : AllNonneg y) :
    AllNonneg (Idealize.ShloMosaic.mulf (F := Ideal) x y) := fun i => by
  obtain ⟨a, ha0, ha⟩ := hx i
  obtain ⟨b, hb0, hb⟩ := hy i
  exact ⟨a * b, mul_nonneg ha0 hb0, by show x i * y i = _; rw [ha, hb, EReal.coe_mul]⟩

theorem AllPos.mulf {S : Shape} {φ : FTy} {x y : FVec Ideal S φ} (hx : AllPos x) (hy : AllPos y) :
    AllPos (Idealize.ShloMosaic.mulf (F := Ideal) x y) := fun i => by
  obtain ⟨a, ha0, ha⟩ := hx i
  obtain ⟨b, hb0, hb⟩ := hy i
  exact ⟨a * b, mul_pos ha0 hb0, by show x i * y i = _; rw [ha, hb, EReal.coe_mul]⟩

theorem AllNonneg.addf {S : Shape} {φ : FTy} {x y : FVec Ideal S φ} (hx : AllNonneg x) (hy : AllNonneg y) :
    AllNonneg (Idealize.ShloMosaic.addf (F := Ideal) x y) := fun i => by
  obtain ⟨a, ha0, ha⟩ := hx i
  obtain ⟨b, hb0, hb⟩ := hy i
  exact ⟨a + b, add_nonneg ha0 hb0, by show x i + y i = _; rw [ha, hb, EReal.coe_add]⟩

theorem AllPos.addf_nonneg_pos {S : Shape} {φ : FTy} {x y : FVec Ideal S φ} (hx : AllNonneg x) (hy : AllPos y) :
    AllPos (Idealize.ShloMosaic.addf (F := Ideal) x y) := fun i => by
  obtain ⟨a, ha0, ha⟩ := hx i
  obtain ⟨b, hb0, hb⟩ := hy i
  exact ⟨a + b, add_pos_of_nonneg_of_pos ha0 hb0, by show x i + y i = _; rw [ha, hb, EReal.coe_add]⟩

theorem AllPos.addf_pos_nonneg {S : Shape} {φ : FTy} {x y : FVec Ideal S φ} (hx : AllPos x) (hy : AllNonneg y) :
    AllPos (Idealize.ShloMosaic.addf (F := Ideal) x y) := fun i => by
  obtain ⟨a, ha0, ha⟩ := hx i
  obtain ⟨b, hb0, hb⟩ := hy i
  exact ⟨a + b, add_pos_of_pos_of_nonneg ha0 hb0, by show x i + y i = _; rw [ha, hb, EReal.coe_add]⟩

theorem AllPos.addf {S : Shape} {φ : FTy} {x y : FVec Ideal S φ} (hx : AllPos x) (hy : AllPos y) :
    AllPos (Idealize.ShloMosaic.addf (F := Ideal) x y) := AllPos.addf_pos_nonneg hx hy.allNonneg

/-! ### Constants: binary32 bit patterns as real numbers

Each pattern is read as sign, eight exponent bits and twenty-three fraction bits; a normal number is
(2^23 + fraction) · 2^(exponent − 150). -/

/-- The pattern of +0.0 denotes 0. -/
theorem ofBits_00000000 : Ideal.ofBits .f32 0x00000000#32 = ((0 : ℝ) : EReal) := by
  simp [Ideal.ofBits, Ideal.ieee]

/-- The pattern of 1.0 denotes 1. -/
theorem ofBits_3F800000 : Ideal.ofBits .f32 0x3F800000#32 = ((1 : ℝ) : EReal) := by
  simp [Ideal.ofBits, Ideal.ieee, -EReal.coe_mul]; norm_num

/-- The binary32 number nearest 0.01: 10737418 · 2^(-30). -/
theorem ofBits_3C23D70A : Ideal.ofBits .f32 0x3C23D70A#32 = ((10737418 / 1073741824 : ℝ) : EReal) := by
  simp [Ideal.ofBits, Ideal.ieee, -EReal.coe_mul]; norm_num

/-- The binary32 number nearest 1e-5: 10995116 · 2^(-40). -/
theorem ofBits_3727C5AC : Ideal.ofBits .f32 0x3727C5AC#32 = ((10995116 / 1099511627776 : ℝ) : EReal) := by
  simp [Ideal.ofBits, Ideal.ieee, -EReal.coe_mul]; norm_num

/-- The pattern of 16384.0 = 2^14. -/
theorem ofBits_46800000 : Ideal.ofBits .f32 0x46800000#32 = ((16384 : ℝ) : EReal) := by
  simp [Ideal.ofBits, Ideal.ieee, -EReal.coe_mul]; norm_num

/-- The pattern of 8192.0 = 2^13. -/
theorem ofBits_46000000 : Ideal.ofBits .f32 0x46000000#32 = ((8192 : ℝ) : EReal) := by
  simp [Ideal.ofBits, Ideal.ieee, -EReal.coe_mul]; norm_num

/-- The pattern of 2048.0 = 2^11. -/
theorem ofBits_45000000 : Ideal.ofBits .f32 0x45000000#32 = ((2048 : ℝ) : EReal) := by
  simp [Ideal.ofBits, Ideal.ieee, -EReal.coe_mul]; norm_num

/-- The pattern of 128.0 = 2^7. -/
theorem ofBits_43000000 : Ideal.ofBits .f32 0x43000000#32 = ((128 : ℝ) : EReal) := by
  simp [Ideal.ofBits, Ideal.ieee, -EReal.coe_mul]; norm_num

/-- The pattern of 2.0. -/
theorem ofBits_40000000 : Ideal.ofBits .f32 0x40000000#32 = ((2 : ℝ) : EReal) := by
  simp [Ideal.ofBits, Ideal.ieee, -EReal.coe_mul]; norm_num

/-- The pattern of 62.0 = 31 · 2. -/
theorem ofBits_42780000 : Ideal.ofBits .f32 0x42780000#32 = ((62 : ℝ) : EReal) := by
  simp [Ideal.ofBits, Ideal.ieee, -EReal.coe_mul]; norm_num

/-- The pattern with all exponent bits set and no fraction bit denotes +∞. -/
theorem ofBits_7F800000 : Ideal.ofBits .f32 0x7F800000#32 = ⊤ := by
  simp [Ideal.ofBits, Ideal.ieee]

/-- An extended real equal to a real is a real; equal to a real ≥ 0 (> 0), it is such a real. -/
theorem isFin_of_eq {x : EReal} {r : ℝ} (h : x = (r : EReal)) : IsFin x := ⟨r, h⟩
theorem nonneg_of_eq {x : EReal} {r : ℝ} (h : x = (r : EReal)) (hr : 0 ≤ r) : ∃ r : ℝ, 0 ≤ r ∧ x = (r : EReal) :=
  ⟨r, hr, h⟩
theorem pos_of_eq {x : EReal} {r : ℝ} (h : x = (r : EReal)) (hr : 0 < r) : ∃ r : ℝ, 0 < r ∧ x = (r : EReal) :=
  ⟨r, hr, h⟩

theorem ofBits_00000000_nonneg : ∃ r : ℝ, 0 ≤ r ∧ Ideal.ofBits .f32 0x00000000#32 = (r : EReal) :=
  nonneg_of_eq ofBits_00000000 (le_refl _)
theorem ofBits_3F800000_pos : ∃ r : ℝ, 0 < r ∧ Ideal.ofBits .f32 0x3F800000#32 = (r : EReal) :=
  pos_of_eq ofBits_3F800000 (by norm_num)
theorem ofBits_3C23D70A_pos : ∃ r : ℝ, 0 < r ∧ Ideal.ofBits .f32 0x3C23D70A#32 = (r : EReal) :=
  pos_of_eq ofBits_3C23D70A (by norm_num)
theorem ofBits_3727C5AC_pos : ∃ r : ℝ, 0 < r ∧ Ideal.ofBits .f32 0x3727C5AC#32 = (r : EReal) :=
  pos_of_eq ofBits_3727C5AC (by norm_num)
theorem ofBits_46800000_pos : ∃ r : ℝ, 0 < r ∧ Ideal.ofBits .f32 0x46800000#32 = (r : EReal) :=
  pos_of_eq ofBits_46800000 (by norm_num)
theorem ofBits_46000000_pos : ∃ r : ℝ, 0 < r ∧ Ideal.ofBits .f32 0x46000000#32 = (r : EReal) :=
  pos_of_eq ofBits_46000000 (by norm_num)
theorem ofBits_45000000_pos : ∃ r : ℝ, 0 < r ∧ Ideal.ofBits .f32 0x45000000#32 = (r : EReal) :=
  pos_of_eq ofBits_45000000 (by norm_num)
theorem ofBits_43000000_pos : ∃ r : ℝ, 0 < r ∧ Ideal.ofBits .f32 0x43000000#32 = (r : EReal) :=
  pos_of_eq ofBits_43000000 (by norm_num)
theorem ofBits_40000000_pos : ∃ r : ℝ, 0 < r ∧ Ideal.ofBits .f32 0x40000000#32 = (r : EReal) :=
  pos_of_eq ofBits_40000000 (by norm_num)
theorem ofBits_42780000_pos : ∃ r : ℝ, 0 < r ∧ Ideal.ofBits .f32 0x42780000#32 = (r : EReal) :=
  pos_of_eq ofBits_42780000 (by norm_num)

/-- A constant array has the property its one value has. -/
theorem AllFin.constant {S : Shape} {φ : FTy} {b : BitVec φ.bits} (h : IsFin (Ideal.ofBits φ b)) :
    AllFin (Idealize.ShloMosaic.constant (F := Ideal) S φ b) := fun _ => h

theorem AllNonneg.constant {S : Shape} {φ : FTy} {b : BitVec φ.bits}
    (h : ∃ r : ℝ, 0 ≤ r ∧ Ideal.ofBits φ b = (r : EReal)) :
    AllNonneg (Idealize.ShloMosaic.constant (F := Ideal) S φ b) := fun _ => h

theorem AllPos.constant {S : Shape} {φ : FTy} {b : BitVec φ.bits}
    (h : ∃ r : ℝ, 0 < r ∧ Ideal.ofBits φ b = (r : EReal)) :
    AllPos (Idealize.ShloMosaic.constant (F := Ideal) S φ b) := fun _ => h

/-! ### Integers converted to floats -/

/-- An unsigned integer as a float is that natural number, a real that is not negative. -/
theorem AllNonneg.uitofp {S : Shape} {w : Nat} {φ : FTy} {x : IVec S w} :
    AllNonneg (Idealize.ShloMosaic.uitofp (F := Ideal) φ x) :=
  fun i => ⟨((x i).toNat : ℝ), Nat.cast_nonneg _, rfl⟩

theorem AllFin.uitofp {S : Shape} {w : Nat} {φ : FTy} {x : IVec S w} :
    AllFin (Idealize.ShloMosaic.uitofp (F := Ideal) φ x) :=
  fun i => ⟨((x i).toNat : ℝ), rfl⟩

/-- A signed integer as a float is that integer, a real. -/
theorem AllFin.sitofp {S : Shape} {w : Nat} {φ : FTy} {x : IVec S w} :
    AllFin (Idealize.ShloMosaic.sitofp (F := Ideal) φ x) :=
  fun i => ⟨((x i).toInt : ℝ), rfl⟩

/-! ### Each closure lemma applies to the operation's own term, with nothing unfolded by hand -/

section Examples
variable {S T : Shape} (x y : FVec Ideal S .f32) (hx : AllFin x) (hy : AllFin y) (hp : AllPos y) (hn : AllNonneg x)

example : AllFin (addf (F := Ideal) x y) := AllFin.addf hx hy
example : AllFin (subf (F := Ideal) x y) := AllFin.subf hx hy
example : AllFin (mulf (F := Ideal) x y) := AllFin.mulf hx hy
example : AllFin (Host.negf (F := Ideal) x) := AllFin.negf hx
example : AllFin (Host.exp (F := Ideal) x) := AllFin.exp hx
example : AllPos (Host.exp (F := Ideal) x) := AllPos.exp hx
example : AllFin (Host.divf (F := Ideal) x y) := AllFin.divf hx hp
example : AllNonneg (Host.divf (F := Ideal) x y) := AllNonneg.divf hn hp
example : AllPos (Host.sqrt (F := Ideal) y) := AllPos.sqrt hp
example : AllNonneg (mulf (F := Ideal) x x) := AllNonneg.mulf_self hx
example : AllPos (addf (F := Ideal) x y) := AllPos.addf_nonneg_pos hn hp
example (p : IVec S 1) : AllFin (select p x y) := AllFin.select hx hy
example : AllFin (select (cmpf (F := Ideal) .oge x (constant S .f32 0x00000000#32)) x
    (mulf x (constant S .f32 0x3C23D70A#32))) :=
  AllFin.select hx (AllFin.mulf hx (AllFin.constant (isFin_of_eq ofBits_3C23D70A)))
example : AllPos (constant (F := Ideal) S .f32 0x3727C5AC#32) := AllPos.constant ofBits_3727C5AC_pos
example (dims : Fin S.rank → Fin T.rank) (h : S.BroadcastsInDim T dims) : AllFin (broadcastInDim T dims h x) :=
  AllFin.broadcastInDim hx
example (perm : List (Fin S.rank)) (h : S.Transposes perm T) : AllFin (transpose T perm x h) :=
  AllFin.transpose hx
example {SI : Shape} (d : GatherDims S SI T) (idx : IVec SI 32) : AllFin (Host.gather d x idx) :=
  AllFin.gather hx
example {sr so : Shape} (d : DotDims S sr so) (r : FVec Ideal sr .f32) (hr : AllFin r) :
    AllFin (Host.dotGeneral (F := Ideal) d none x r) := AllFin.dotGeneral hx hr
example {axes : List (Fin S.rank)} {U : Shape} (v : FVec Ideal U .f32) (hv : AllFin v) (red : S.ReducesTo axes T)
    (hu : 0 < U.numel) : AllFin (Host.reduceAdd (F := Ideal) x v red hu) := AllFin.reduceAdd hx hv
example {axes : List (Fin S.rank)} {U : Shape} (v : FVec Ideal U .f32) (hv : AllNonneg v) (red : S.ReducesTo axes T)
    (hu : 0 < U.numel) : AllNonneg (Host.reduceAdd (F := Ideal) x v red hu) := AllNonneg.reduceAdd hn hv
example (n : IVec S 32) : AllFin (uitofp (F := Ideal) .f32 n) := AllFin.uitofp
example (n : IVec S 32) : AllFin (sitofp (F := Ideal) .f32 n) := AllFin.sitofp
-- at a concrete shape: x / √(y + ε) is real when x is real, y > 0 and ε > 0
example (a : FVec Ideal ⟨2, ![8, 16]⟩ .f32) (b : FVec Ideal ⟨2, ![8, 16]⟩ .f32) (ha : AllFin a) (hb : AllPos b) :
    AllFin (Host.divf a (Host.sqrt (addf b (constant ⟨2, ![8, 16]⟩ .f32 0x3727C5AC#32)))) :=
  AllFin.divf ha (AllPos.sqrt (AllPos.addf hb (AllPos.constant ofBits_3727C5AC_pos)))

end Examples

end IdealFinite

end
-- ==== Proof.LibScatterGather.lean ====
/-
  THE ACCUMULATING SCATTER AND THE ROW GATHER, READ AT AN INDEX.

  A scatter with an addition body sends update element j to the operand index "start(j) + window(j)", the start read
  SIGNED off the index array and not clamped; an update that lands outside the operand is dropped. For the dimension
  numbers of a segment sum (one index word per update row, the indexed axis the operand's axis 0, the remaining update
  axes the window), element n of the result is the operand's element plus the sum of the updates whose index word is n.

  A gather reads, at result index j, the operand at "clamped start(j) + offset(j)". For the dimension numbers of a row
  lookup (one index word per result row, the indexed axis the operand's axis 0 collapsed, the remaining axis the slice),
  row e of the result is the operand's row at the index word read signed and clamped into [0, N - 1].
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace LibScatterGather

open Idealize.ShloMosaic Idealize.ShloMosaic.ValueIdx

/-- An update lands at operand index `i` exactly when, on every axis, its start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro hh a
      have := congrFun (Option.some.inj hh) a
      have hv := congrArg Fin.val this
      simp only at hv
      have := h a
      omega
    · intro hh
      congr 1
      funext a
      apply Fin.ext
      have := hh a
      simp only
      omega
  · next h =>
    constructor
    · intro hh; exact absurd hh (by simp)
    · intro hh
      exfalso
      apply h
      intro a
      have := hh a
      have := (i a).isLt
      omega

/-- A rank-1 index set is its one coordinate's range. -/
theorem sum_filter_idx1 {M : Nat} (p : (⟨1, ![M]⟩ : Shape).Idx → Prop) [DecidablePred p] (q : Fin M → Prop) [DecidablePred q]
    (hpq : ∀ j, p j ↔ q (j 0)) (f : (⟨1, ![M]⟩ : Shape).Idx → EReal) :
    ∑ j ∈ Finset.univ.filter p, f j = ∑ e : Fin M with q e, f (ix1 e) := by
  refine Finset.sum_bij' (fun j _ => j 0) (fun e _ => ix1 e) ?_ ?_ ?_ ?_ ?_
  · intro j hj
    exact Finset.mem_filter.2 ⟨Finset.mem_univ _, (hpq j).1 (Finset.mem_filter.1 hj).2⟩
  · intro e he
    exact Finset.mem_filter.2 ⟨Finset.mem_univ _, (hpq (ix1 e)).2 (Finset.mem_filter.1 he).2⟩
  · intro j _; exact (eq_ix1 j).symm
  · intro e _; rfl
  · intro j _; exact congrArg f (eq_ix1 j)

/-- segment_sum of a vector: element n of the result is the operand's plus the updates whose index word, read signed, is n (an index outside [0, N) drops its update). -/
theorem scatterAdd_vec_apply {N M w : Nat} (d : ScatterDims ⟨1, ![N]⟩ ⟨2, ![M, 1]⟩ ⟨1, ![M]⟩)
    (hu : d.updateWindowDims = []) (hi : d.insertedWindowDims = [0]) (hs : d.scatterDimsToOperandDims = [0]) (hv : d.indexVectorDim = 1)
    (x : (⟨1, ![N]⟩ : Shape).Idx → EReal) (idx : IVec ⟨2, ![M, 1]⟩ w) (upd : (⟨1, ![M]⟩ : Shape).Idx → EReal) (n : Fin N) :
    Ideal.hostScatterAdd d x idx upd (ix1 n)
      = x (ix1 n) + ∑ e : Fin M with (idx (ix2 e (0 : Fin 1))).toInt = (n.val : ℤ), upd (ix1 e) := by
  obtain ⟨uw, iw, sd, iv, wf⟩ := d
  simp only at hu hi hs hv
  subst hu hi hs hv
  unfold Ideal.hostScatterAdd
  congr 1
  have hstart : ∀ j : (⟨1, ![M]⟩ : Shape).Idx,
      (ScatterDims.mk (s := ⟨1, ![N]⟩) (si := ⟨2, ![M, 1]⟩) (u := ⟨1, ![M]⟩) [] [0] [0] 1 wf).start j idx 0
        = (idx (ix2 (j 0) (0 : Fin 1))).toInt := by
    intro j
    unfold ScatterDims.start
    rw [dif_pos (List.mem_singleton.mpr rfl)]
    congr 2
    funext b
    apply Fin.ext
    match b with
    | ⟨0, _⟩ => rfl
    | ⟨1, _⟩ => rfl
  have hwin : ∀ j : (⟨1, ![M]⟩ : Shape).Idx,
      (ScatterDims.mk (s := ⟨1, ![N]⟩) (si := ⟨2, ![M, 1]⟩) (u := ⟨1, ![M]⟩) [] [0] [0] 1 wf).window j 0 = 0 := by
    intro j; rfl
  refine sum_filter_idx1 _ _ ?_ upd
  intro j
  rw [resultIdx?_eq_some_iff]
  constructor
  · intro hh
    have := hh 0
    rw [hstart, hwin] at this
    simpa using this.trans (show (((ix1 n : (⟨1, ![N]⟩ : Shape).Idx) 0).val : ℤ) = (n.val : ℤ) from rfl)
  · intro hh a
    obtain rfl : a = 0 := Subsingleton.elim _ _
    rw [hstart, hwin, hh]
    show (n.val : ℤ) + ((0 : ℕ) : ℤ) = (n.val : ℤ)
    simp

/-- The updates of a row scatter that land at (n, h): one per update row e whose word is n, at column h. -/
theorem sum_filter_idx2_col {M H : Nat} (p : (⟨2, ![M, H]⟩ : Shape).Idx → Prop) [DecidablePred p] (q : Fin M → Prop) [DecidablePred q]
    (h : Fin H) (hpq : ∀ j, p j ↔ q (j 0) ∧ j 1 = h) (f : (⟨2, ![M, H]⟩ : Shape).Idx → EReal) :
    ∑ j ∈ Finset.univ.filter p, f j = ∑ e : Fin M with q e, f (ix2 e h) := by
  refine Finset.sum_bij' (fun j _ => j 0) (fun e _ => ix2 e h) ?_ ?_ ?_ ?_ ?_
  · intro j hj
    exact Finset.mem_filter.2 ⟨Finset.mem_univ _, ((hpq j).1 (Finset.mem_filter.1 hj).2).1⟩
  · intro e he
    exact Finset.mem_filter.2 ⟨Finset.mem_univ _, (hpq (ix2 e h)).2 ⟨(Finset.mem_filter.1 he).2, rfl⟩⟩
  · intro j hj
    have h1 : j 1 = h := ((hpq j).1 (Finset.mem_filter.1 hj).2).2
    rw [← h1]; exact (eq_ix2 j).symm
  · intro e _; rfl
  · intro j hj
    have h1 : j 1 = h := ((hpq j).1 (Finset.mem_filter.1 hj).2).2
    rw [← h1]; exact congrArg f (eq_ix2 j)

/-- segment_sum of the rows of a matrix: entry (n, h). -/
theorem scatterAdd_rows_apply {N M H w : Nat} (d : ScatterDims ⟨2, ![N, H]⟩ ⟨2, ![M, 1]⟩ ⟨2, ![M, H]⟩)
    (hu : d.updateWindowDims = [1]) (hi : d.insertedWindowDims = [0]) (hs : d.scatterDimsToOperandDims = [0]) (hv : d.indexVectorDim = 1)
    (x : (⟨2, ![N, H]⟩ : Shape).Idx → EReal) (idx : IVec ⟨2, ![M, 1]⟩ w) (upd : (⟨2, ![M, H]⟩ : Shape).Idx → EReal) (n : Fin N) (h : Fin H) :
    Ideal.hostScatterAdd d x idx upd (ix2 n h)
      = x (ix2 n h) + ∑ e : Fin M with (idx (ix2 e (0 : Fin 1))).toInt = (n.val : ℤ), upd (ix2 e h) := by
  obtain ⟨uw, iw, sd, iv, wf⟩ := d
  simp only at hu hi hs hv
  subst hu hi hs hv
  unfold Ideal.hostScatterAdd
  congr 1
  have hstart0 : ∀ j : (⟨2, ![M, H]⟩ : Shape).Idx,
      (ScatterDims.mk (s := ⟨2, ![N, H]⟩) (si := ⟨2, ![M, 1]⟩) (u := ⟨2, ![M, H]⟩) [1] [0] [0] 1 wf).start j idx 0
        = (idx (ix2 (j 0) (0 : Fin 1))).toInt := by
    intro j
    unfold ScatterDims.start
    rw [dif_pos (List.mem_singleton.mpr rfl)]
    congr 2
    funext b
    apply Fin.ext
    match b with
    | ⟨0, _⟩ => rfl
    | ⟨1, _⟩ => rfl
  have hstart1 : ∀ j : (⟨2, ![M, H]⟩ : Shape).Idx,
      (ScatterDims.mk (s := ⟨2, ![N, H]⟩) (si := ⟨2, ![M, 1]⟩) (u := ⟨2, ![M, H]⟩) [1] [0] [0] 1 wf).start j idx 1 = 0 := by
    intro j
    unfold ScatterDims.start
    rw [dif_neg (show (1 : Fin 2) ∉ ([0] : List (Fin 2)) by decide)]
  have hwin0 : ∀ j : (⟨2, ![M, H]⟩ : Shape).Idx,
      (ScatterDims.mk (s := ⟨2, ![N, H]⟩) (si := ⟨2, ![M, 1]⟩) (u := ⟨2, ![M, H]⟩) [1] [0] [0] 1 wf).window j 0 = 0 := by
    intro j; rfl
  have hwin1 : ∀ j : (⟨2, ![M, H]⟩ : Shape).Idx,
      (ScatterDims.mk (s := ⟨2, ![N, H]⟩) (si := ⟨2, ![M, 1]⟩) (u := ⟨2, ![M, H]⟩) [1] [0] [0] 1 wf).window j 1 = (j 1).val := by
    intro j; rfl
  refine sum_filter_idx2_col _ _ h ?_ upd
  intro j
  rw [resultIdx?_eq_some_iff]
  constructor
  · intro hh
    have h0 := hh 0
    have h1 := hh 1
    rw [hstart0, hwin0] at h0
    rw [hstart1, hwin1] at h1
    refine ⟨?_, ?_⟩
    · simpa using h0.trans (show (((ix2 n h : (⟨2, ![N, H]⟩ : Shape).Idx) 0).val : ℤ) = (n.val : ℤ) from rfl)
    · apply Fin.ext
      have h1' := h1.trans (show (((ix2 n h : (⟨2, ![N, H]⟩ : Shape).Idx) 1).val : ℤ) = (h.val : ℤ) from rfl)
      have : ((j 1).val : ℤ) = (h.val : ℤ) := by simpa using h1'
      exact_mod_cast this
  · rintro ⟨hh0, hh1⟩ a
    match a with
    | ⟨0, _⟩ =>
      show ScatterDims.start _ j idx 0 + ((ScatterDims.window _ j 0 : ℕ) : ℤ) = (n.val : ℤ)
      rw [hstart0, hwin0, hh0]; simp
    | ⟨1, _⟩ =>
      show ScatterDims.start _ j idx 1 + ((ScatterDims.window _ j 1 : ℕ) : ℤ) = (h.val : ℤ)
      rw [hstart1, hwin1, hh1]; simp

/-- `table[idx]` over the rows of a matrix: row e of the result is the table's row at the index word read signed and clamped into [0, N-1]. -/
theorem gather_rows_apply {α : Type} {N M H w : Nat} (d : GatherDims ⟨2, ![N, H]⟩ ⟨2, ![M, 1]⟩ ⟨2, ![M, H]⟩)
    (hoff : d.offsetDims = [1]) (hcoll : d.collapsedSliceDims = [0]) (hob : d.operandBatchingDims = [])
    (hsim : d.startIndexMap = [0]) (hivd : d.indexVectorDim = 1) (hss : d.sliceSizes = ![1, H]) (hN : 0 < N)
    (x : (⟨2, ![N, H]⟩ : Shape).Idx → α) (idx : IVec ⟨2, ![M, 1]⟩ w) (e : Fin M) (h : Fin H) :
    Host.gather d x idx (ix2 e h) = x (ix2 ⟨min (idx (ix2 e (0 : Fin 1))).toInt.toNat (N - 1), by omega⟩ h) := by
  obtain ⟨od, cd, ob, sb, sm, iv, ss, wf⟩ := d
  simp only at hoff hcoll hob hsim hivd hss
  subst hoff hcoll hob hsim hivd hss
  unfold Host.gather
  congr 1
  funext a
  apply Fin.ext
  match a with
  | ⟨0, _⟩ =>
    show GatherDims.start _ (ix2 e h) idx 0 + GatherDims.batchCoord _ (ix2 e h) 0 + GatherDims.offCoord _ (ix2 e h) 0
      = min (idx (ix2 e (0 : Fin 1))).toInt.toNat (N - 1)
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (List.mem_singleton.mpr rfl)]
    show min (idx _).toInt.toNat (N - 1) = _
    congr 3
    congr 1
    funext b
    apply Fin.ext
    match b with
    | ⟨0, _⟩ => rfl
    | ⟨1, _⟩ => rfl
  | ⟨1, _⟩ =>
    show GatherDims.start _ (ix2 e h) idx 1 + GatherDims.batchCoord _ (ix2 e h) 1 + GatherDims.offCoord _ (ix2 e h) 1 = h.val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

/-- The same for a vector table: element e of the result is the table's element at the index word read signed and clamped into [0, N-1]. -/
theorem gather_vec_apply {α : Type} {N M w : Nat} (d : GatherDims ⟨1, ![N]⟩ ⟨2, ![M, 1]⟩ ⟨1, ![M]⟩)
    (hcoll : d.collapsedSliceDims = [0]) (hob : d.operandBatchingDims = []) (hsim : d.startIndexMap = [0]) (hivd : d.indexVectorDim = 1) (hN : 0 < N)
    (x : (⟨1, ![N]⟩ : Shape).Idx → α) (idx : IVec ⟨2, ![M, 1]⟩ w) (e : Fin M) :
    Host.gather d x idx (ix1 e) = x (ix1 ⟨min (idx (ix2 e (0 : Fin 1))).toInt.toNat (N - 1), by omega⟩) := by
  have h1 : (ix1 e : (⟨1, ![M]⟩ : Shape).Idx) = Shape.Idx.ofFin e := by
    funext a; obtain rfl : a = 0 := Subsingleton.elim _ _; rfl
  have h2 : (ix2 e (0 : Fin 1) : (⟨2, ![M, 1]⟩ : Shape).Idx) = StableHlo.Predicate.ixP e := by
    funext a; match a with | ⟨0, _⟩ => rfl | ⟨1, _⟩ => rfl
  rw [h1, StableHlo.Predicate.gather_take d hcoll hob hsim hivd x idx e hN]
  congr 1
  funext a
  obtain rfl : a = 0 := Subsingleton.elim _ _
  apply Fin.ext
  show min (idx (StableHlo.Predicate.ixP e)).toInt.toNat (N - 1) = min (idx (ix2 e (0 : Fin 1))).toInt.toNat (N - 1)
  rw [h2]

end LibScatterGather
-- ==== Proof.KI.Val0.lean ====
/-
  The kernel program's values up to and including its first call, over the extended reals.

  The first host stretch cuts the edge list into its row of source words and its row of target words, counts for
  every node the edges whose target word names it (ones scattered onto zeros), adds the self loop's one, and takes the
  inverse square root: the normalisation `dis`, kept both as a vector and as a column. The first call then forms, block
  of 1000 rows by block, the product of the features with the weights and scales row `p` by `dis p`; it stores the
  result twice, once narrowed, and on extended reals the narrowing changes nothing.
-/
import proofs.«413251_j72258529788421_3_alg».proof.Proof.Gen.KernelIdeal.Launch
import proofs.«413251_j72258529788421_3_alg».proof.Proof.Gen.KernelIdeal.Skeleton
import proofs.«413251_j72258529788421_3_alg».proof.Proof.Gen.KernelIdeal.Regions
import proofs.«413251_j72258529788421_3_alg».proof.Proof.Spec
import proofs.«413251_j72258529788421_3_alg».proof.Proof.LibIdealFinite
import proofs.«413251_j72258529788421_3_alg».proof.Proof.LibScatterGather
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Val

open Cert.KernelIdeal Cert.KernelIdeal.Gen
open Idealize.ShloMosaic Idealize.ShloMosaic.TcCoe Idealize.SL.Sem Idealize.ShloMosaic.StableHlo
open Idealize.ShloMosaic.ValueIdx
open scoped BigOperators

/-! ## The first host stretch: the edge words and the degree normalisation -/

section Host0

variable (W : Valuation τ sig (Elt Ideal))

/-- The edge list as the stretch finds it: two rows of 800000 words. -/
abbrev eiOf : IVec S2x800000 32 := W (Proc.devRef .tc main_arg1)

/-- Row `r` of the edge list, as a vector of 800000 words: the slice of one row, reshaped. -/
def rowv (r : Nat) (h : S2x800000.Slices ![r, 0] S1x800000) : IVec S800000 32 :=
  shapeCast S800000 (extractStridedSlice S1x800000 ![r, 0] (eiOf W) h) shapeCasts_S1x800000_S800000

theorem rowv_apply (r : Nat) (hr : r < 2) (h : S2x800000.Slices ![r, 0] S1x800000) (i : S800000.Idx) :
    rowv W r h i = eiOf W (ix2 (⟨r, hr⟩ : Fin 2) (i 0)) := by
  unfold rowv
  have hi : (i 0).val < 800000 := (i 0).isLt
  refine (shapeCast_apply _ shapeCasts_S1x800000_S800000 i (ix2 (0 : Fin 1) (i 0)) ?_).trans ?_
  · rw [Shape.rowMajor_val_two, Shape.rowMajor_val_one]
    show 0 * 800000 + (i 0).val = (i 0).val
    omega
  · exact extractStridedSlice_apply ![r, 0] (eiOf W) h _ (ix2 (⟨r, hr⟩ : Fin 2) (i 0)) (fun a => match a with
      | ⟨0, _⟩ => by show r = r + 0; omega
      | ⟨1, _⟩ => by show (i 0).val = 0 + (i 0).val; omega)

/-- Fifty thousand zeros, fifty thousand ones, eight hundred thousand ones: splat constants. -/
def zerosN : FVec Ideal S50000 .f32 := broadcastInDim S50000 ![] bcast_S_S50000 (constant (F := Ideal) S_ FTy.f32 0x00000000#32)
def onesN : FVec Ideal S50000 .f32 := broadcastInDim S50000 ![] bcast_S_S50000 (constant (F := Ideal) S_ FTy.f32 0x3F800000#32)
def onesE : FVec Ideal S800000 .f32 := broadcastInDim S800000 ![] bcast_S_S800000 (constant (F := Ideal) S_ FTy.f32 0x3F800000#32)

theorem zerosN_apply (j : S50000.Idx) : zerosN j = 0 := by
  unfold zerosN
  refine (broadcastInDim_apply _ bcast_S_S50000 _ j ix0 (fun a => a.elim0)).trans ?_
  rw [constant_apply, Ideal.ofBits_zero_f32]

theorem onesN_apply (j : S50000.Idx) : onesN j = 1 := by
  unfold onesN
  refine (broadcastInDim_apply _ bcast_S_S50000 _ j ix0 (fun a => a.elim0)).trans ?_
  rw [constant_apply, IdealFinite.ofBits_3F800000, EReal.coe_one]

theorem onesE_apply (j : S800000.Idx) : onesE j = 1 := by
  unfold onesE
  refine (broadcastInDim_apply _ bcast_S_S800000 _ j ix0 (fun a => a.elim0)).trans ?_
  rw [constant_apply, IdealFinite.ofBits_3F800000, EReal.coe_one]

/-- The target words as a column of 800000 rows: the scatter's index array. -/
def colx : IVec S800000x1 32 :=
  broadcastInDim S800000x1 ![0] bcast_S800000_S800000x1_0 (rowv W 1 slices_S2x800000_S1x800000_1_0)

theorem colx_apply (e : Fin 800000) : colx W (ix2 e (0 : Fin 1)) = Cert.Spec.colW (eiOf W) e := by
  unfold colx
  refine (broadcastInDim_apply _ bcast_S800000_S800000x1_0 _ _ (ix1 e) (fun a => match a with
    | ⟨0, _⟩ => by show e.val = if (800000 : Nat) = 1 then 0 else e.val; rw [if_neg (by decide)])).trans ?_
  exact rowv_apply W 1 (by decide) _ (ix1 e)

/-- The degree vector: ones scattered by target word onto zeros, plus one. -/
def degv : FVec Ideal S50000 .f32 :=
  addf (Host.scatterAdd scatter_S50000_S800000x1_S800000_n_0_0_1 zerosN (colx W) onesE) onesN

/-- The edges into node `n`, counted: the ones whose target word names `n`. -/
theorem count_apply (n : Fin 50000) :
    (∑ e : Fin 800000 with (colx W (ix2 e (0 : Fin 1))).toInt = (n.val : ℤ), onesE (ix1 e))
      = ∑ e : Fin 800000 with Cert.Spec.Hits (Cert.Spec.colW (eiOf W) e) n, (1 : EReal) := by
  refine Finset.sum_congr (Finset.filter_congr fun e _ => ?_) (fun e _ => onesE_apply _)
  rw [colx_apply]
  exact Iff.rfl

/-- On extended reals the host's accumulating scatter is the exact one: stated at generic operands. -/
theorem scatterAdd_ideal {s si su : Shape} {w : Nat} (d : ScatterDims s si su) (v : FVec Ideal s .f32) (idx : IVec si w)
    (upd : FVec Ideal su .f32) : Host.scatterAdd (F := Ideal) d v idx upd = Ideal.hostScatterAdd d v idx upd := rfl

theorem degv_apply (n : Fin 50000) : degv W (ix1 n) = Cert.Spec.degK (eiOf W) n := by
  unfold degv
  rw [addf_apply, scatterAdd_ideal,
    LibScatterGather.scatterAdd_vec_apply scatter_S50000_S800000x1_S800000_n_0_0_1 rfl rfl rfl rfl,
    count_apply, zerosN_apply, onesN_apply]
  rfl

/-- What the stretch leaves in the normalisation vector, and in its column form. -/
theorem host0_term_v10 :
    StableHlo.after (Gen.hostOps0 (F := Ideal)) W (Proc.devRef .tc main_v10) = (Host.rsqrt (degv W) : FVec Ideal S50000 .f32) := by
  dsimp only [Gen.hostOps0]
  after_results
  rfl

theorem host0_term_v11 :
    StableHlo.after (Gen.hostOps0 (F := Ideal)) W (Proc.devRef .tc main_v11)
      = (shapeCast S50000x1 (Host.rsqrt (degv W)) shapeCasts_S50000_S50000x1 : FVec Ideal S50000x1 .f32) := by
  dsimp only [Gen.hostOps0]
  after_results
  rfl

theorem host0_term_v1 :
    StableHlo.after (Gen.hostOps0 (F := Ideal)) W (Proc.devRef .tc main_v1) = rowv W 0 slices_S2x800000_S1x800000_0_0 := by
  dsimp only [Gen.hostOps0]
  after_results
  rfl

theorem host0_term_v3 :
    StableHlo.after (Gen.hostOps0 (F := Ideal)) W (Proc.devRef .tc main_v3) = rowv W 1 slices_S2x800000_S1x800000_1_0 := by
  dsimp only [Gen.hostOps0]
  after_results
  rfl

/-- On extended reals the host's inverse square root, at an index: stated at a generic operand. -/
theorem rsqrt_ideal_apply {s : Shape} (v : FVec Ideal s .f32) (i : s.Idx) :
    (Host.rsqrt v : FVec Ideal s .f32) i = Ideal.rsqrt (v i) := rfl

theorem rsqrt_degv_apply (n : Fin 50000) : (Host.rsqrt (degv W) : FVec Ideal S50000 .f32) (ix1 n) = Cert.Spec.disK (eiOf W) n := by
  rw [rsqrt_ideal_apply, degv_apply]
  rfl

/-- The normalisation vector after the stretch: at node `n`, the inverse square root of its degree. -/
theorem host0_v10 :
    (StableHlo.after (Gen.hostOps0 (F := Ideal)) W (Proc.devRef .tc main_v10) : S50000.Idx → EReal)
      = fun i => Cert.Spec.disK (eiOf W) (i 0) := by
  rw [host0_term_v10]
  funext i
  rw [eq_ix1 i]
  exact rsqrt_degv_apply W (i 0)

/-- The same as a column of 50000 rows. -/
theorem host0_v11 :
    (StableHlo.after (Gen.hostOps0 (F := Ideal)) W (Proc.devRef .tc main_v11) : S50000x1.Idx → EReal)
      = fun i => Cert.Spec.disK (eiOf W) (i 0) := by
  rw [host0_term_v11]
  funext i
  have hi0 : (i 0).val < 50000 := (i 0).isLt
  have hi1 : (i 1).val < 1 := (i 1).isLt
  refine (shapeCast_apply _ shapeCasts_S50000_S50000x1 i (ix1 (i 0)) ?_).trans (rsqrt_degv_apply W (i 0))
  rw [Shape.rowMajor_val_two, Shape.rowMajor_val_one]
  show (i 0).val = (i 0).val * 1 + (i 1).val
  omega

/-- The source words and the target words after the stretch. -/
theorem host0_v1 :
    (StableHlo.after (Gen.hostOps0 (F := Ideal)) W (Proc.devRef .tc main_v1) : S800000.Idx → BitVec 32)
      = fun i => eiOf W (ix2 (0 : Fin 2) (i 0)) := by
  rw [host0_term_v1]
  funext i
  exact rowv_apply W 0 (by decide) _ i

theorem host0_v3 :
    (StableHlo.after (Gen.hostOps0 (F := Ideal)) W (Proc.devRef .tc main_v3) : S800000.Idx → BitVec 32)
      = fun i => eiOf W (ix2 (1 : Fin 2) (i 0)) := by
  rw [host0_term_v3]
  funext i
  exact rowv_apply W 1 (by decide) _ i

/-- A buffer the stretch does not write keeps its contents. -/
theorem host0_keeps (b : Ref sig .tc) (hb : b ∉ Gen.hostOps0_W) :
    StableHlo.after (Gen.hostOps0 (F := Ideal)) W (Proc.devRef .tc b) = W (Proc.devRef .tc b) :=
  StableHlo.after_of_writes_sub Gen.hostOps0 _ Gen.hostOps0_writes hb

end Host0

/-! ## The first call's payload at an index: a row of the product, scaled by the row's normalisation -/

section Payload0

theorem lhsK_0 (i : S1000x256.Idx) (q : dot_S1000x1280_S1280x256_S1000x256_1_0_0_1_n_n.contr.Idx) :
    (dot_S1000x1280_S1280x256_S1000x256_1_0_0_1_n_n.lhsIdx i q 0).val = (i 0).val := by
  unfold DotDims.lhsIdx
  rw [dif_neg (show ¬(0 : Fin S1000x1280.rank) ∈ dot_S1000x1280_S1280x256_S1000x256_1_0_0_1_n_n.lhsBatch by decide), dif_pos (show (0 : Fin S1000x1280.rank) ∈ dot_S1000x1280_S1280x256_S1000x256_1_0_0_1_n_n.lhsNonContracting by decide)]
  rfl
theorem lhsK_1 (i : S1000x256.Idx) (q : dot_S1000x1280_S1280x256_S1000x256_1_0_0_1_n_n.contr.Idx) :
    (dot_S1000x1280_S1280x256_S1000x256_1_0_0_1_n_n.lhsIdx i q 1).val = (q ⟨0, by decide⟩).val :=
  dot_S1000x1280_S1280x256_S1000x256_1_0_0_1_n_n.lhsIdx_val_of_single rfl i q
theorem rhsK_0 (i : S1000x256.Idx) (q : dot_S1000x1280_S1280x256_S1000x256_1_0_0_1_n_n.contr.Idx) :
    (dot_S1000x1280_S1280x256_S1000x256_1_0_0_1_n_n.rhsIdx i q 0).val = (q ⟨0, by decide⟩).val :=
  dot_S1000x1280_S1280x256_S1000x256_1_0_0_1_n_n.rhsIdx_val_of_single rfl i q
theorem rhsK_1 (i : S1000x256.Idx) (q : dot_S1000x1280_S1280x256_S1000x256_1_0_0_1_n_n.contr.Idx) :
    (dot_S1000x1280_S1280x256_S1000x256_1_0_0_1_n_n.rhsIdx i q 1).val = (i 1).val := by
  unfold DotDims.rhsIdx
  rw [dif_neg (show ¬(1 : Fin S1280x256.rank) ∈ dot_S1000x1280_S1280x256_S1000x256_1_0_0_1_n_n.rhsBatch by decide), dif_pos (show (1 : Fin S1280x256.rank) ∈ dot_S1000x1280_S1280x256_S1000x256_1_0_0_1_n_n.rhsNonContracting by decide)]
  rfl

variable (x0 : Vec Ideal S1000x1280 .f32) (x1 : Vec Ideal S1280x256 .f32) (x2 : Vec Ideal S1000x1 .f32)

/-- Row `p`, channel `q` of the single-precision payload: the row of the block times the column of the weights, times the
    row's normalisation. The two narrowings before the product are the identity on extended reals. -/
theorem k0_pay1_apply (p : Fin 1000) (q : Fin 256) :
    Gen.k0_pay1 (F := Ideal) x0 x1 x2 (ix2 p q)
      = (∑ k : Fin 1280, x0 (ix2 p k) * x1 (ix2 k q)) * x2 (ix2 p (0 : Fin 1)) := by
  unfold Gen.k0_pay1
  rw [mulf_apply]
  congr 1
  · show FloatOps.matmul dot_S1000x1280_S1280x256_S1000x256_1_0_0_1_n_n none _ _ (constant S1000x256 .f32 0x00000000#32) (ix2 p q) = _
    rw [Ideal.matmul_constant_zero_apply, ← Equiv.sum_comp (ValueIdx.contrEquiv1 dot_S1000x1280_S1280x256_S1000x256_1_0_0_1_n_n 1280 rfl rfl).symm]
    refine Finset.sum_congr rfl fun k _ => ?_
    have hk := ValueIdx.contrEquiv1_symm_val dot_S1000x1280_S1280x256_S1000x256_1_0_0_1_n_n 1280 rfl rfl k
    have el : dot_S1000x1280_S1280x256_S1000x256_1_0_0_1_n_n.lhsIdx (ix2 p q) ((ValueIdx.contrEquiv1 dot_S1000x1280_S1280x256_S1000x256_1_0_0_1_n_n 1280 rfl rfl).symm k) = ix2 p k := funext fun a => Fin.ext (by
      match a with
      | ⟨0, _⟩ => exact lhsK_0 _ _
      | ⟨1, _⟩ => exact (lhsK_1 _ _).trans hk)
    have er : dot_S1000x1280_S1280x256_S1000x256_1_0_0_1_n_n.rhsIdx (ix2 p q) ((ValueIdx.contrEquiv1 dot_S1000x1280_S1280x256_S1000x256_1_0_0_1_n_n 1280 rfl rfl).symm k) = ix2 k q := funext fun a => Fin.ext (by
      match a with
      | ⟨0, _⟩ => exact (rhsK_0 _ _).trans hk
      | ⟨1, _⟩ => exact rhsK_1 _ _)
    rw [truncf_apply, truncf_apply, el, er]
  · rw [shapeCast_self]
    exact broadcastTo_apply x2 broadcasts_S1000x1_S1000x256 (ix2 p q) (ix2 p (0 : Fin 1)) (fun a => match a with
      | ⟨0, _⟩ => by show p.val = if (1000 : Nat) = 1 then 0 else p.val; rw [if_neg (by decide)]
      | ⟨1, _⟩ => by show 0 = if (1 : Nat) = 1 then 0 else q.val; rw [if_pos rfl])

/-- The narrowed payload holds the same extended real. -/
theorem k0_pay2_apply (p : Fin 1000) (q : Fin 256) :
    Gen.k0_pay2 (F := Ideal) x0 x1 x2 (ix2 p q)
      = (∑ k : Fin 1280, x0 (ix2 p k) * x1 (ix2 k q)) * x2 (ix2 p (0 : Fin 1)) := by
  unfold Gen.k0_pay2
  rw [truncf_apply]
  exact k0_pay1_apply x0 x1 x2 p q

end Payload0

end Cert.KernelIdeal.Val
end
-- ==== Proof.KI.Val0Arr.lean ====
import proofs.«413251_j72258529788421_3_alg».proof.Proof.KI.R0
import proofs.«413251_j72258529788421_3_alg».proof.Proof.KI.Val0
import Idealize.ShloMosaic.Lib.Pipeline.Value
import Idealize.ShloMosaic.Lib.ValueIdx

/-! # The first call's two output arrays after its last grid point

The first call's grid walks the 50000 rows of the features in 50 blocks of 1000 rows. At grid point t the body is
handed rows [1000 t, 1000 t + 1000) of the features, the whole weight matrix, and the same rows of the column of
inverse square-root degrees; it leaves in both output buffers the block's rows of

    G i = (Σ_k x[i₀, k] · W[k, i₁]) · dis[i₀],

and the pipeline writes each buffer back to the same rows of its array. The blocks tile the arrays, so after the
last point both arrays hold G everywhere, whatever they held on entry. Everything is read in the exact arithmetic,
where narrowing the second output changes no value. -/

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

-- the TensorCore's buffer contents when the region is entered, in the exact arithmetic
variable (V : (c : Dev nD) → (b : Ref sig .tc) → Buf (Elt Ideal) ((c : Thread nD τ).loc b))

/-! ## The closed form -/

/-- What both output arrays end holding: row i₀ of the features times column i₁ of the weights, scaled by the
    row's inverse square-root degree. -/
def G0 (a0 : S50000x1280.Idx → EReal) (a1 : S1280x256.Idx → EReal) (a2 : S50000x1.Idx → EReal) : S50000x256.Idx → EReal :=
  fun i => (∑ k : Fin 1280, a0 (ix2 (i 0) k) * a1 (ix2 k (i 1))) * a2 (ix2 (i 0) (0 : Fin 1))

/-- G at row n, column h. -/
theorem G0_apply (a0 : S50000x1280.Idx → EReal) (a1 : S1280x256.Idx → EReal) (a2 : S50000x1.Idx → EReal) (n : Fin 50000) (h : Fin 256) :
    G0 a0 a1 a2 (ix2 n h) = (∑ k : Fin 1280, a0 (ix2 n k) * a1 (ix2 k h)) * a2 (ix2 n (0 : Fin 1)) := rfl

/-! ## Where a block sits in its array -/

/-- The printed index maps, decided over the 50 grid points: the row-blocked windows are at block row t, block
    column 0; the weights' one block is at (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- A grid point is below 50. -/
theorem t_lt (t : Fin cfg0.N) : t.val < 50 := Nat.lt_of_lt_of_eq t.isLt N_0

/-- Element (p, k) of the features' block at point t is element (1000 t + p, k) of the array. -/
theorem emb0 (t : Fin cfg0.N) (p : Fin 1000) (k : Fin 1280) (r : Fin 50000) (hr : r.val = t.val * 1000 + p.val) :
    ((cfg0.win 0).blk t).view.emb (ix2 p k) = (ix2 r k : S50000x1280.Idx) := by
  obtain ⟨e0, e1, -⟩ := idx_facts0 t
  funext a; apply Fin.ext
  match a with
  | ⟨0, _⟩ => show win0_0.index t (0 : Fin 2) * 1000 + 1 * p.val = r.val; omega
  | ⟨1, _⟩ => show win0_0.index t (1 : Fin 2) * 1280 + 1 * k.val = k.val; omega

/-- The weights' block is the whole matrix. -/
theorem emb1 (t : Fin cfg0.N) (k : Fin 1280) (q : Fin 256) :
    ((cfg0.win 1).blk t).view.emb (ix2 k q) = (ix2 k q : S1280x256.Idx) := by
  obtain ⟨-, -, e0, e1, -⟩ := idx_facts0 t
  funext a; apply Fin.ext
  match a with
  | ⟨0, _⟩ => show win0_1.index t (0 : Fin 2) * 1280 + 1 * k.val = k.val; omega
  | ⟨1, _⟩ => show win0_1.index t (1 : Fin 2) * 256 + 1 * q.val = q.val; omega

/-- Element p of the block of inverse square-root degrees at point t is element 1000 t + p of the column. -/
theorem emb2 (t : Fin cfg0.N) (p : Fin 1000) (r : Fin 50000) (hr : r.val = t.val * 1000 + p.val) :
    ((cfg0.win 2).blk t).view.emb (ix2 p (0 : Fin 1)) = (ix2 r (0 : Fin 1) : S50000x1.Idx) := by
  obtain ⟨-, -, -, -, e0, e1, -⟩ := idx_facts0 t
  funext a; apply Fin.ext
  match a with
  | ⟨0, _⟩ => show win0_2.index t (0 : Fin 2) * 1000 + 1 * p.val = r.val; omega
  | ⟨1, _⟩ => show win0_2.index t (1 : Fin 2) * 1 + 1 * (0 : Fin 1).val = (0 : Fin 1).val; omega

/-- Element (p, q) of either output's block at point t is element (1000 t + p, q) of its array. -/
theorem emb3 (t : Fin cfg0.N) (p : Fin 1000) (q : Fin 256) (r : Fin 50000) (hr : r.val = t.val * 1000 + p.val) :
    ((cfg0.win 3).blk t).view.emb (ix2 p q) = (ix2 r q : S50000x256.Idx) := by
  obtain ⟨-, -, -, -, -, -, e0, e1, -⟩ := idx_facts0 t
  funext a; apply Fin.ext
  match a with
  | ⟨0, _⟩ => show win0_3.index t (0 : Fin 2) * 1000 + 1 * p.val = r.val; omega
  | ⟨1, _⟩ => show win0_3.index t (1 : Fin 2) * 256 + 1 * q.val = q.val; omega

theorem emb4 (t : Fin cfg0.N) (p : Fin 1000) (q : Fin 256) (r : Fin 50000) (hr : r.val = t.val * 1000 + p.val) :
    ((cfg0.win 4).blk t).view.emb (ix2 p q) = (ix2 r q : S50000x256.Idx) := by
  obtain ⟨-, -, -, -, -, -, -, -, e0, e1⟩ := idx_facts0 t
  funext a; apply Fin.ext
  match a with
  | ⟨0, _⟩ => show win0_4.index t (0 : Fin 2) * 1000 + 1 * p.val = r.val; omega
  | ⟨1, _⟩ => show win0_4.index t (1 : Fin 2) * 256 + 1 * q.val = q.val; omega

/-! ## An input block's element is the array's -/

/-- Element (p, k) of the features' block at point t is the features at (1000 t + p, k). -/
theorem read0 (c : Dev nD) (t : Fin cfg0.N) (p : Fin 1000) (r : Fin 50000) (hr : r.val = t.val * 1000 + p.val) (k : Fin 1280) :
    Hand.iblk0 V c 0 t (ix2 p k) = V c main_arg0 (ix2 r k) := by
  show V c main_arg0 (((cfg0.win 0).blk t).view.emb (ix2 p k)) = _
  rw [emb0 t p k r hr]

/-- Element (k, q) of the weights' block is the weights at (k, q). -/
theorem read1 (c : Dev nD) (t : Fin cfg0.N) (q : Fin 256) (k : Fin 1280) :
    Hand.iblk0 V c 1 t (ix2 k q) = V c main_arg3 (ix2 k q) := by
  show V c main_arg3 (((cfg0.win 1).blk t).view.emb (ix2 k q)) = _
  rw [emb1 t k q]

/-- Element p of the degrees' block at point t is the inverse square-root degree of row 1000 t + p. -/
theorem read2 (c : Dev nD) (t : Fin cfg0.N) (p : Fin 1000) (r : Fin 50000) (hr : r.val = t.val * 1000 + p.val) :
    Hand.iblk0 V c 2 t (ix2 p (0 : Fin 1)) = V c main_v11 (ix2 r (0 : Fin 1)) := by
  show V c main_v11 (((cfg0.win 2).blk t).view.emb (ix2 p (0 : Fin 1))) = _
  rw [emb2 t p r hr]

/-! ## What a grid point writes back -/

/-- Grid point t writes back, to the single-precision output, block t of G of the arrays the region finds: what
    the body left is its payload of the three input blocks; at element (p, q) that is the product of row p of the
    features' block with column q of the weights, scaled by element p of the degrees' block; and those blocks' elements
    are the arrays' at row 1000 t + p, where the output's block puts element (p, q). -/
theorem flushed3_eq (c : Dev nD) (t : Fin cfg0.N) :
    (Hand.dat0 (F := Ideal) V c).flushed 3 t
      = ((cfg0.win 3).blk t).view.read (Elt Ideal) (G0 (V c main_arg0) (V c main_arg3) (V c main_v11)) := by
  show (cfg0.win 3).cut (grid0.coords t) ((Hand.dat0 (F := Ideal) V c).after 3 t) = _
  rw [Hand.after0_3, Hand.out0_3_eq]
  funext j
  obtain ⟨p, q, rfl⟩ : ∃ (p : Fin 1000) (q : Fin 256), j = ix2 p q := ⟨j 0, j 1, eq_ix2 j⟩
  have hr : t.val * 1000 + p.val < 50000 := by have := t_lt t; have := p.isLt; omega
  show k0_pay1 (F := Ideal) (Hand.iblk0 V c 0 t) (Hand.iblk0 V c 1 t) (Hand.iblk0 V c 2 t) (ix2 p q)
    = G0 (V c main_arg0) (V c main_arg3) (V c main_v11) (((cfg0.win 3).blk t).view.emb (ix2 p q))
  rw [k0_pay1_apply, emb3 t p q ⟨_, hr⟩ rfl, G0_apply]
  simp only [read0 V c t p ⟨_, hr⟩ rfl, read1 V c t q, read2 V c t p ⟨_, hr⟩ rfl]

/-- The narrowed output alike: in the exact arithmetic its payload has the same elements. -/
theorem flushed4_eq (c : Dev nD) (t : Fin cfg0.N) :
    (Hand.dat0 (F := Ideal) V c).flushed 4 t
      = ((cfg0.win 4).blk t).view.read (Elt Ideal) (G0 (V c main_arg0) (V c main_arg3) (V c main_v11)) := by
  show (cfg0.win 4).cut (grid0.coords t) ((Hand.dat0 (F := Ideal) V c).after 4 t) = _
  rw [Hand.after0_4, Hand.out0_4_eq]
  funext j
  obtain ⟨p, q, rfl⟩ : ∃ (p : Fin 1000) (q : Fin 256), j = ix2 p q := ⟨j 0, j 1, eq_ix2 j⟩
  have hr : t.val * 1000 + p.val < 50000 := by have := t_lt t; have := p.isLt; omega
  show k0_pay2 (F := Ideal) (Hand.iblk0 V c 0 t) (Hand.iblk0 V c 1 t) (Hand.iblk0 V c 2 t) (ix2 p q)
    = G0 (V c main_arg0) (V c main_arg3) (V c main_v11) (((cfg0.win 4).blk t).view.emb (ix2 p q))
  rw [k0_pay2_apply, emb4 t p q ⟨_, hr⟩ rfl, G0_apply]
  simp only [read0 V c t p ⟨_, hr⟩ rfl, read1 V c t q, read2 V c t p ⟨_, hr⟩ rfl]

/-! ## The blocks tile the arrays -/

/-- An index of the output array is in point t's block iff each coordinate is in the block's range on its axis. -/
theorem mem_blk3 (t : Fin cfg0.N) (i : S50000x256.Idx) :
    i ∈ ((cfg0.win 3).blk t).view.set ↔ ∀ a : Fin 2, win0_3.index t a * S1000x256.size a ≤ (i a).val ∧ (i a).val < win0_3.index t a * S1000x256.size a + S1000x256.size a := by
  show i ∈ ((View.whole main_v12_0).slice (win0_3.rect t)).set ↔ _
  rw [View.set_slice_whole, Rect.mem_set_unit]
  exact Iff.rfl

theorem mem_blk4 (t : Fin cfg0.N) (i : S50000x256.Idx) :
    i ∈ ((cfg0.win 4).blk t).view.set ↔ ∀ a : Fin 2, win0_4.index t a * S1000x256.size a ≤ (i a).val ∧ (i a).val < win0_4.index t a * S1000x256.size a + S1000x256.size a := by
  show i ∈ ((View.whole main_v12_1).slice (win0_4.rect t)).set ↔ _
  rw [View.set_slice_whole, Rect.mem_set_unit]
  exact Iff.rfl

/-- Row r of the single-precision output is written back by grid point r / 1000. -/
theorem cover3 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have ht : (i 0).val / 1000 < cfg0.N := Nat.lt_of_lt_of_eq (by omega : (i 0).val / 1000 < 50) N_0.symm
  refine ⟨⟨(i 0).val / 1000, ht⟩, flush0_3 _, ?_⟩
  rw [mem_blk3]
  obtain ⟨-, -, -, -, -, -, e0, e1, -⟩ := idx_facts0 ⟨(i 0).val / 1000, ht⟩
  intro a
  match a with
  | ⟨0, _⟩ =>
    show win0_3.index ⟨(i 0).val / 1000, ht⟩ (0 : Fin 2) * 1000 ≤ (i 0).val ∧ (i 0).val < win0_3.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_3.index ⟨(i 0).val / 1000, ht⟩ (1 : Fin 2) * 256 ≤ (i 1).val ∧ (i 1).val < win0_3.index ⟨(i 0).val / 1000, ht⟩ (1 : Fin 2) * 256 + 256
    rw [e1]; omega

/-- Row r of the narrowed output alike. -/
theorem cover4 (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  have ht : (i 0).val / 1000 < cfg0.N := Nat.lt_of_lt_of_eq (by omega : (i 0).val / 1000 < 50) N_0.symm
  refine ⟨⟨(i 0).val / 1000, ht⟩, flush0_4 _, ?_⟩
  rw [mem_blk4]
  obtain ⟨-, -, -, -, -, -, -, -, e0, e1⟩ := idx_facts0 ⟨(i 0).val / 1000, ht⟩
  intro a
  match a with
  | ⟨0, _⟩ =>
    show win0_4.index ⟨(i 0).val / 1000, ht⟩ (0 : Fin 2) * 1000 ≤ (i 0).val ∧ (i 0).val < win0_4.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_4.index ⟨(i 0).val / 1000, ht⟩ (1 : Fin 2) * 256 ≤ (i 1).val ∧ (i 1).val < win0_4.index ⟨(i 0).val / 1000, ht⟩ (1 : Fin 2) * 256 + 256
    rw [e1]; omega

/-! ## The arrays after the last point -/

/-- The single-precision output array, once every grid point has written its block back, for ANY entry contents. -/
theorem arr0_3 (c : Dev nD) :
    (Hand.dat0 (F := Ideal) V c).arrAt 3 cfg0.N
      = G0 (V c main_arg0) (V c main_arg3) (V c main_v11) :=
  (Hand.dat0 (F := Ideal) V c).arrAt_eq_of_cover 3 (G0 (V c main_arg0) (V c main_arg3) (V c main_v11))
    (fun t _ => flushed3_eq V c t) cover3

/-- The narrowed output array: the same function. -/
theorem arr0_4 (c : Dev nD) :
    (Hand.dat0 (F := Ideal) V c).arrAt 4 cfg0.N
      = G0 (V c main_arg0) (V c main_arg3) (V c main_v11) :=
  (Hand.dat0 (F := Ideal) V c).arrAt_eq_of_cover 4 (G0 (V c main_arg0) (V c main_arg3) (V c main_v11))
    (fun t _ => flushed4_eq V c t) cover4

end Cert.KernelIdeal.Val

end
-- ==== Proof.KI.Val1Pay.lean ====
import proofs.«413251_j72258529788421_3_alg».proof.Proof.Gen.KernelIdeal.Skeleton
import proofs.«413251_j72258529788421_3_alg».proof.Proof.Spec
import proofs.«413251_j72258529788421_3_alg».proof.Proof.LibIdealFinite
import Idealize.ShloMosaic.Lib.Pipeline.Value
import Idealize.ShloMosaic.Lib.ValueIdx
import Idealize.ShloMosaic.PureOps.Ideal.Laws

/-! # The pooling call's values at an index, over the extended reals

At one grid point the pooling call holds a block of 2000 nodes and 128 channels. It forms the 2000 × 64 matrix of
zeros and ones whose entry (r, g) says "node r belongs to graph g", multiplies its transpose into the block of layer
outputs max(dis · (sum + scaled row) + bias, 0) and into a column of ones, and adds the two products to the running
per-graph sums and counts; at the last block it divides the sums by the counts, at least one. Each of these values is
read here at one index as the plain sum, product, maximum or quotient of extended reals that it is. -/

noncomputable section

namespace Cert.KernelIdeal.Val

open Cert.KernelIdeal Cert.KernelIdeal.Gen
open Idealize.ShloMosaic Idealize.ShloMosaic.TcCoe Idealize.ShloMosaic.ValueIdx Idealize.SL.Sem
open scoped BigOperators

/-! ## The pooling call's payloads at an index -/

/-- The membership matrix: entry (r, g) is 1 when row r's graph word is the numeral g, else 0. -/
theorem pay5_apply (bt : Vec Ideal S2000x1 .i32) (r : Fin 2000) (g : Fin 64) :
    Gen.k1_pay5 (F := Ideal) bt (ix2 r g) = Cert.Spec.hot (bt (ix2 r (0 : Fin 1))) g := by
  unfold Gen.k1_pay5
  rw [shapeCast_self]
  have hb : broadcastTo S2000x64 bt broadcasts_S2000x1_S2000x64 (ix2 r g) = bt (ix2 r (0 : Fin 1)) :=
    broadcastTo_apply bt broadcasts_S2000x1_S2000x64 (ix2 r g) (ix2 r (0 : Fin 1)) (fun a => match a with
      | ⟨0, _⟩ => by show r.val = if (2000 : Nat) = 1 then 0 else r.val; rw [if_neg (by decide)]
      | ⟨1, _⟩ => by show (0 : Nat) = if (1 : Nat) = 1 then 0 else g.val; rw [if_pos rfl])
  have hi : broadcastTo S2000x64 (iota .tc S1x64 32 [1] iota_S1x64_d1_w32) broadcasts_S1x64_S2000x64 (ix2 r g) = BitVec.ofNat 32 g.val := by
    rw [broadcastTo_apply (iota .tc S1x64 32 [1] iota_S1x64_d1_w32) broadcasts_S1x64_S2000x64 (ix2 r g) (ix2 (0 : Fin 1) g) (fun a => match a with
      | ⟨0, _⟩ => by show (0 : Nat) = if (1 : Nat) = 1 then 0 else r.val; rw [if_pos rfl]
      | ⟨1, _⟩ => by show g.val = if (64 : Nat) = 1 then 0 else g.val; rw [if_neg (by decide)])]
    show BitVec.ofNat 32 (0 * 64 + g.val) = _
    rw [Nat.zero_mul, Nat.zero_add]
  show FloatOps.sitofp (F := Ideal) .f32 ((IntOp.cmpi .eq (broadcastTo S2000x64 bt broadcasts_S2000x1_S2000x64 (ix2 r g))
      (broadcastTo S2000x64 (iota .tc S1x64 32 [1] iota_S1x64_d1_w32) broadcasts_S1x64_S2000x64 (ix2 r g))).setWidth 32) = _
  rw [hb, hi]
  unfold Cert.Spec.hot
  show (((((BitVec.ofBool (bt (ix2 r (0 : Fin 1)) == BitVec.ofNat 32 g.val)).setWidth 32).toInt : ℝ) : EReal)) = _
  by_cases hw : bt (ix2 r (0 : Fin 1)) = BitVec.ofNat 32 g.val
  · rw [if_pos hw, beq_iff_eq.mpr hw]
    show (((1 : ℤ) : ℝ) : EReal) = 1
    simp
  · rw [if_neg hw, beq_eq_false_iff_ne.mpr hw]
    show (((0 : ℤ) : ℝ) : EReal) = 0
    simp

/-! ### The two products with the membership matrix: both contract axis 0 of both operands -/

theorem lhs_dotA_0 (i : S64x128.Idx) (q : dot_S2000x64_S2000x128_S64x128_0_0_1_1_n_n.contr.Idx) :
    (dot_S2000x64_S2000x128_S64x128_0_0_1_1_n_n.lhsIdx i q 0).val = (q ⟨0, by decide⟩).val :=
  dot_S2000x64_S2000x128_S64x128_0_0_1_1_n_n.lhsIdx_val_of_single rfl i q
theorem lhs_dotA_1 (i : S64x128.Idx) (q : dot_S2000x64_S2000x128_S64x128_0_0_1_1_n_n.contr.Idx) :
    (dot_S2000x64_S2000x128_S64x128_0_0_1_1_n_n.lhsIdx i q 1).val = (i 0).val := by
  unfold DotDims.lhsIdx
  rw [dif_neg (show ¬(1 : Fin S2000x64.rank) ∈ dot_S2000x64_S2000x128_S64x128_0_0_1_1_n_n.lhsBatch by decide), dif_pos (show (1 : Fin S2000x64.rank) ∈ dot_S2000x64_S2000x128_S64x128_0_0_1_1_n_n.lhsNonContracting by decide)]
  rfl
theorem rhs_dotA_0 (i : S64x128.Idx) (q : dot_S2000x64_S2000x128_S64x128_0_0_1_1_n_n.contr.Idx) :
    (dot_S2000x64_S2000x128_S64x128_0_0_1_1_n_n.rhsIdx i q 0).val = (q ⟨0, by decide⟩).val :=
  dot_S2000x64_S2000x128_S64x128_0_0_1_1_n_n.rhsIdx_val_of_single rfl i q
theorem rhs_dotA_1 (i : S64x128.Idx) (q : dot_S2000x64_S2000x128_S64x128_0_0_1_1_n_n.contr.Idx) :
    (dot_S2000x64_S2000x128_S64x128_0_0_1_1_n_n.rhsIdx i q 1).val = (i 1).val := by
  unfold DotDims.rhsIdx
  rw [dif_neg (show ¬(1 : Fin S2000x128.rank) ∈ dot_S2000x64_S2000x128_S64x128_0_0_1_1_n_n.rhsBatch by decide), dif_pos (show (1 : Fin S2000x128.rank) ∈ dot_S2000x64_S2000x128_S64x128_0_0_1_1_n_n.rhsNonContracting by decide)]
  rfl

/-- The membership matrix transposed times a 2000 × 128 block, into zero: entry (g, q) is the sum over the block's rows. -/
theorem dotA_apply (l : FVec Ideal S2000x64 .f32) (v : FVec Ideal S2000x128 .f32) (g : Fin 64) (q : Fin 128) :
    matmul dot_S2000x64_S2000x128_S64x128_0_0_1_1_n_n (some .fp32) l v (constant S64x128 .f32 0x00000000#32) (ix2 g q)
      = ∑ r : Fin 2000, l (ix2 r g) * v (ix2 r q) := by
  simp only [matmul]
  rw [Ideal.matmul_constant_zero_apply, ← Equiv.sum_comp (ValueIdx.contrEquiv1 dot_S2000x64_S2000x128_S64x128_0_0_1_1_n_n 2000 rfl rfl).symm]
  refine Finset.sum_congr rfl fun k _ => ?_
  have hk := ValueIdx.contrEquiv1_symm_val dot_S2000x64_S2000x128_S64x128_0_0_1_1_n_n 2000 rfl rfl k
  have el : dot_S2000x64_S2000x128_S64x128_0_0_1_1_n_n.lhsIdx (ix2 g q) ((ValueIdx.contrEquiv1 dot_S2000x64_S2000x128_S64x128_0_0_1_1_n_n 2000 rfl rfl).symm k) = ix2 k g := funext fun a => Fin.ext (by
    match a with
    | ⟨0, _⟩ => exact (lhs_dotA_0 _ _).trans hk
    | ⟨1, _⟩ => exact lhs_dotA_1 _ _)
  have er : dot_S2000x64_S2000x128_S64x128_0_0_1_1_n_n.rhsIdx (ix2 g q) ((ValueIdx.contrEquiv1 dot_S2000x64_S2000x128_S64x128_0_0_1_1_n_n 2000 rfl rfl).symm k) = ix2 k q := funext fun a => Fin.ext (by
    match a with
    | ⟨0, _⟩ => exact (rhs_dotA_0 _ _).trans hk
    | ⟨1, _⟩ => exact rhs_dotA_1 _ _)
  rw [el, er]

theorem lhs_dotB_0 (i : S64x1.Idx) (q : dot_S2000x64_S2000x1_S64x1_0_0_1_1_n_n.contr.Idx) :
    (dot_S2000x64_S2000x1_S64x1_0_0_1_1_n_n.lhsIdx i q 0).val = (q ⟨0, by decide⟩).val :=
  dot_S2000x64_S2000x1_S64x1_0_0_1_1_n_n.lhsIdx_val_of_single rfl i q
theorem lhs_dotB_1 (i : S64x1.Idx) (q : dot_S2000x64_S2000x1_S64x1_0_0_1_1_n_n.contr.Idx) :
    (dot_S2000x64_S2000x1_S64x1_0_0_1_1_n_n.lhsIdx i q 1).val = (i 0).val := by
  unfold DotDims.lhsIdx
  rw [dif_neg (show ¬(1 : Fin S2000x64.rank) ∈ dot_S2000x64_S2000x1_S64x1_0_0_1_1_n_n.lhsBatch by decide), dif_pos (show (1 : Fin S2000x64.rank) ∈ dot_S2000x64_S2000x1_S64x1_0_0_1_1_n_n.lhsNonContracting by decide)]
  rfl
theorem rhs_dotB_0 (i : S64x1.Idx) (q : dot_S2000x64_S2000x1_S64x1_0_0_1_1_n_n.contr.Idx) :
    (dot_S2000x64_S2000x1_S64x1_0_0_1_1_n_n.rhsIdx i q 0).val = (q ⟨0, by decide⟩).val :=
  dot_S2000x64_S2000x1_S64x1_0_0_1_1_n_n.rhsIdx_val_of_single rfl i q
theorem rhs_dotB_1 (i : S64x1.Idx) (q : dot_S2000x64_S2000x1_S64x1_0_0_1_1_n_n.contr.Idx) :
    (dot_S2000x64_S2000x1_S64x1_0_0_1_1_n_n.rhsIdx i q 1).val = (i 1).val := by
  unfold DotDims.rhsIdx
  rw [dif_neg (show ¬(1 : Fin S2000x1.rank) ∈ dot_S2000x64_S2000x1_S64x1_0_0_1_1_n_n.rhsBatch by decide), dif_pos (show (1 : Fin S2000x1.rank) ∈ dot_S2000x64_S2000x1_S64x1_0_0_1_1_n_n.rhsNonContracting by decide)]
  rfl

/-- The membership matrix transposed times a column of 2000, into zero. -/
theorem dotB_apply (l : FVec Ideal S2000x64 .f32) (v : FVec Ideal S2000x1 .f32) (g : Fin 64) :
    matmul dot_S2000x64_S2000x1_S64x1_0_0_1_1_n_n (some .fp32) l v (constant S64x1 .f32 0x00000000#32) (ix2 g (0 : Fin 1))
      = ∑ r : Fin 2000, l (ix2 r g) * v (ix2 r (0 : Fin 1)) := by
  simp only [matmul]
  rw [Ideal.matmul_constant_zero_apply, ← Equiv.sum_comp (ValueIdx.contrEquiv1 dot_S2000x64_S2000x1_S64x1_0_0_1_1_n_n 2000 rfl rfl).symm]
  refine Finset.sum_congr rfl fun k _ => ?_
  have hk := ValueIdx.contrEquiv1_symm_val dot_S2000x64_S2000x1_S64x1_0_0_1_1_n_n 2000 rfl rfl k
  have el : dot_S2000x64_S2000x1_S64x1_0_0_1_1_n_n.lhsIdx (ix2 g (0 : Fin 1)) ((ValueIdx.contrEquiv1 dot_S2000x64_S2000x1_S64x1_0_0_1_1_n_n 2000 rfl rfl).symm k) = ix2 k g := funext fun a => Fin.ext (by
    match a with
    | ⟨0, _⟩ => exact (lhs_dotB_0 _ _).trans hk
    | ⟨1, _⟩ => exact lhs_dotB_1 _ _)
  have er : dot_S2000x64_S2000x1_S64x1_0_0_1_1_n_n.rhsIdx (ix2 g (0 : Fin 1)) ((ValueIdx.contrEquiv1 dot_S2000x64_S2000x1_S64x1_0_0_1_1_n_n 2000 rfl rfl).symm k) = ix2 k (0 : Fin 1) := funext fun a => Fin.ext (by
    match a with
    | ⟨0, _⟩ => exact (rhs_dotB_0 _ _).trans hk
    | ⟨1, _⟩ => exact rhs_dotB_1 _ _)
  rw [el, er]

/-- The layer's output on a block of 2000 rows and 128 channels, after the maximum with zero. -/
theorem act_block_apply (d : Vec Ideal S2000x1 .f32) (s x : Vec Ideal S2000x128 .f32) (bb : Vec Ideal S128 .f32) (r : Fin 2000) (q : Fin 128) :
    maximumf (addf (mulf (broadcastTo S2000x128 d broadcasts_S2000x1_S2000x128) (addf s x))
        (broadcastTo S2000x128 (shapeCast S1x128 bb shapeCasts_S128_S1x128) broadcasts_S1x128_S2000x128))
      (broadcast S2000x128 (Scalar.ofBits (F := Ideal) .f32 0x00000000#32)) (ix2 r q)
      = max (d (ix2 r (0 : Fin 1)) * (s (ix2 r q) + x (ix2 r q)) + bb (ix1 q)) 0 := by
  rw [maximumf_apply, addf_apply, mulf_apply, addf_apply, broadcast_apply]
  have hd : broadcastTo S2000x128 d broadcasts_S2000x1_S2000x128 (ix2 r q) = d (ix2 r (0 : Fin 1)) :=
    broadcastTo_apply d broadcasts_S2000x1_S2000x128 (ix2 r q) (ix2 r (0 : Fin 1)) (fun a => match a with
      | ⟨0, _⟩ => by show r.val = if (2000 : Nat) = 1 then 0 else r.val; rw [if_neg (by decide)]
      | ⟨1, _⟩ => by show (0 : Nat) = if (1 : Nat) = 1 then 0 else q.val; rw [if_pos rfl])
  have hb : broadcastTo S2000x128 (shapeCast S1x128 bb shapeCasts_S128_S1x128) broadcasts_S1x128_S2000x128 (ix2 r q) = bb (ix1 q) := by
    rw [broadcastTo_apply (shapeCast S1x128 bb shapeCasts_S128_S1x128) broadcasts_S1x128_S2000x128 (ix2 r q) (ix2 (0 : Fin 1) q) (fun a => match a with
      | ⟨0, _⟩ => by show (0 : Nat) = if (1 : Nat) = 1 then 0 else r.val; rw [if_pos rfl]
      | ⟨1, _⟩ => by show q.val = if (128 : Nat) = 1 then 0 else q.val; rw [if_neg (by decide)])]
    exact shapeCast_apply bb shapeCasts_S128_S1x128 (ix2 (0 : Fin 1) q) (ix1 q)
      (by rewrite [Shape.rowMajor_val_two, Shape.rowMajor_val_one]; show q.val = 0 * 128 + q.val; omega)
  rw [hd, hb]
  show max _ (Ideal.ofBits .f32 0x00000000#32) = _
  rw [Ideal.ofBits_zero_f32]

/-- One point's update of the sums: the accumulator plus, over the block's 2000 rows, membership times the layer's output. -/
theorem pay7_apply (d : Vec Ideal S2000x1 .f32) (s x : Vec Ideal S2000x128 .f32) (bb : Vec Ideal S128 .f32) (bt : Vec Ideal S2000x1 .i32)
    (acc : Vec Ideal S64x128 .f32) (g : Fin 64) (q : Fin 128) :
    Gen.k1_pay7 (F := Ideal) d s x bb bt acc (ix2 g q)
      = acc (ix2 g q) + ∑ r : Fin 2000, Cert.Spec.hot (bt (ix2 r (0 : Fin 1))) g * max (d (ix2 r (0 : Fin 1)) * (s (ix2 r q) + x (ix2 r q)) + bb (ix1 q)) 0 := by
  unfold Gen.k1_pay7
  rw [shapeCast_self, shapeCast_self, shapeCast_self, shapeCast_self, addf_apply, dotA_apply]
  exact congrArg (acc (ix2 g q) + ·) (Finset.sum_congr rfl fun r _ => by rw [pay5_apply, act_block_apply])

/-- One point's count of each graph's rows in the block. -/
theorem pay6_apply (bt : Vec Ideal S2000x1 .i32) (g : Fin 64) :
    Gen.k1_pay6 (F := Ideal) bt (ix2 g (0 : Fin 1)) = ∑ r : Fin 2000, Cert.Spec.hot (bt (ix2 r (0 : Fin 1))) g * 1 := by
  unfold Gen.k1_pay6
  rw [dotB_apply]
  refine Finset.sum_congr rfl fun r _ => ?_
  rw [pay5_apply, broadcast_apply]
  show _ * Ideal.ofBits .f32 0x3F800000#32 = _
  rw [IdealFinite.ofBits_3F800000, EReal.coe_one]

/-- The counts' update: the accumulator plus the point's counts. -/
theorem pay1_apply (v28 : FVec Ideal S64x1 .f32) (cnt : Vec Ideal S64x1 .f32) (g : Fin 64) :
    Gen.k1_pay1 (F := Ideal) v28 cnt (ix2 g (0 : Fin 1)) = cnt (ix2 g (0 : Fin 1)) + v28 (ix2 g (0 : Fin 1)) := by
  unfold Gen.k1_pay1
  rw [shapeCast_self, addf_apply]

/-- The mean: the sums divided by the counts, at least one. -/
theorem pay2_apply (acc : Vec Ideal S64x128 .f32) (cnt : Vec Ideal S64x1 .f32) (g : Fin 64) (q : Fin 128) :
    Gen.k1_pay2 (F := Ideal) acc cnt (ix2 g q) = Ideal.div (acc (ix2 g q)) (max (cnt (ix2 g (0 : Fin 1))) 1) := by
  unfold Gen.k1_pay2
  rw [divf_apply]
  have hc : broadcastTo S64x128 (maximumf cnt (broadcast S64x1 (Scalar.ofBits (F := Ideal) .f32 0x3F800000#32))) broadcasts_S64x1_S64x128 (ix2 g q)
      = max (cnt (ix2 g (0 : Fin 1))) 1 := by
    rw [broadcastTo_apply _ broadcasts_S64x1_S64x128 (ix2 g q) (ix2 g (0 : Fin 1)) (fun a => match a with
      | ⟨0, _⟩ => by show g.val = if (64 : Nat) = 1 then 0 else g.val; rw [if_neg (by decide)]
      | ⟨1, _⟩ => by show (0 : Nat) = if (1 : Nat) = 1 then 0 else q.val; rw [if_pos rfl]), maximumf_apply, broadcast_apply]
    show max _ (Ideal.ofBits .f32 0x3F800000#32) = _
    rw [IdealFinite.ofBits_3F800000, EReal.coe_one]
  rw [hc]

/-- The reset of the sums is zero everywhere. -/
theorem pay3_apply (i : S64x128.Idx) : Gen.k1_pay3 (F := Ideal) i = 0 := by
  unfold Gen.k1_pay3
  rw [shapeCast_self, broadcast_apply]
  exact Ideal.ofBits_zero_f32

/-- The reset of the counts is zero everywhere. -/
theorem pay4_apply (i : S64x1.Idx) : Gen.k1_pay4 (F := Ideal) i = 0 := by
  unfold Gen.k1_pay4
  rw [shapeCast_self, broadcast_apply]
  exact Ideal.ofBits_zero_f32

end Cert.KernelIdeal.Val

end
-- ==== Proof.KI.Val1Acc.lean ====
import proofs.«413251_j72258529788421_3_alg».proof.Proof.KI.R1
import proofs.«413251_j72258529788421_3_alg».proof.Proof.Spec
import proofs.«413251_j72258529788421_3_alg».proof.Proof.KI.Val1Pay
import Idealize.ShloMosaic.PureOps.Ideal.Laws
import Idealize.ShloMosaic.Lib.ValueIdx
import Idealize.ShloMosaic.Lib.Pipeline.Value
import Idealize.ShloMosaic.Lib.ValueLayout

/-! # Region 1's accumulators after each column chunk's last point

The pooling call visits 50 points, point `t = 25 j + i`: `j < 2` the chunk of 128 of the 256 channels, `i < 25`
the block of 2000 of the 50000 nodes. This module reads each input block of a point off its array (block `i`
of the rows, chunk `j` of the columns), then shows by induction on `i` that after point `25 j + i` the sum
accumulator holds, at graph `g` and channel `q`, the sum over the nodes of blocks `0 … i` that belong to `g` of
the activated layer output at channel `128 j + q`, and the count accumulator the number of those nodes. At
`i = 24` these are the sums over all 50000 nodes. -/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-! ## The blocks of a point, read off their arrays -/

/-- The printed index maps over the grid: the row block is `t % 25`, the column chunk `t / 25`. -/
theorem idx_facts1 : ∀ t : Fin cfg1.N,
    win1_0.index t (0 : Fin 2) = t.val % 25 ∧ win1_0.index t (1 : Fin 2) = t.val / 25
    ∧ win1_1.index t (0 : Fin 2) = t.val % 25 ∧ win1_1.index t (1 : Fin 2) = t.val / 25
    ∧ win1_2.index t (0 : Fin 2) = t.val % 25 ∧ win1_2.index t (1 : Fin 2) = 0
    ∧ win1_3.index t (0 : Fin 1) = t.val / 25
    ∧ win1_4.index t (0 : Fin 2) = t.val % 25 ∧ win1_4.index t (1 : Fin 2) = 0 :=
  (by decide +kernel : ∀ t : Fin grid1.N, _)

theorem iblk1_0_apply (c : Dev nD) (t : Fin cfg1.N) (x : S2000x128.Idx) (k : S50000x256.Idx)
    (hk0 : (k 0).val = 2000 * (t.val % 25) + (x 0).val) (hk1 : (k 1).val = 128 * (t.val / 25) + (x 1).val) :
    (iblk1 V c 0 t : Vec Ideal S2000x128 .f32) x = (V c main_v23 : S50000x256.Idx → EReal) k := by
  obtain ⟨e0, e1, -⟩ := idx_facts1 t
  unfold iblk1
  rw [View.read_apply]
  show V c main_v23 _ = V c main_v23 _
  refine congrArg (V c main_v23) (funext fun a => Fin.ext ?_)
  match a with
  | ⟨0, _⟩ => show win1_0.index t 0 * 2000 + 1 * (x 0).val = (k 0).val; rw [e0, hk0]; omega
  | ⟨1, _⟩ => show win1_0.index t 1 * 128 + 1 * (x 1).val = (k 1).val; rw [e1, hk1]; omega

theorem iblk1_1_apply (c : Dev nD) (t : Fin cfg1.N) (x : S2000x128.Idx) (k : S50000x256.Idx)
    (hk0 : (k 0).val = 2000 * (t.val % 25) + (x 0).val) (hk1 : (k 1).val = 128 * (t.val / 25) + (x 1).val) :
    (iblk1 V c 1 t : Vec Ideal S2000x128 .f32) x = (V c main_v12_0 : S50000x256.Idx → EReal) k := by
  obtain ⟨-, -, e0, e1, -⟩ := idx_facts1 t
  unfold iblk1
  rw [View.read_apply]
  show V c main_v12_0 _ = V c main_v12_0 _
  refine congrArg (V c main_v12_0) (funext fun a => Fin.ext ?_)
  match a with
  | ⟨0, _⟩ => show win1_1.index t 0 * 2000 + 1 * (x 0).val = (k 0).val; rw [e0, hk0]; omega
  | ⟨1, _⟩ => show win1_1.index t 1 * 128 + 1 * (x 1).val = (k 1).val; rw [e1, hk1]; omega

theorem iblk1_2_apply (c : Dev nD) (t : Fin cfg1.N) (x : S2000x1.Idx) (k : S50000x1.Idx)
    (hk0 : (k 0).val = 2000 * (t.val % 25) + (x 0).val) :
    (iblk1 V c 2 t : Vec Ideal S2000x1 .f32) x = (V c main_v24 : S50000x1.Idx → EReal) k := by
  obtain ⟨-, -, -, -, e0, e1, -⟩ := idx_facts1 t
  unfold iblk1
  rw [View.read_apply]
  show V c main_v24 _ = V c main_v24 _
  refine congrArg (V c main_v24) (funext fun a => Fin.ext ?_)
  match a with
  | ⟨0, _⟩ => show win1_2.index t 0 * 2000 + 1 * (x 0).val = (k 0).val; rw [e0, hk0]; omega
  | ⟨1, _⟩ =>
    show win1_2.index t 1 * 1 + 1 * (x 1).val = (k 1).val
    have h1 : (x 1).val < 1 := (x 1).isLt
    have h2 : (k 1).val < 1 := (k 1).isLt
    rw [e1]; omega

theorem iblk1_3_apply (c : Dev nD) (t : Fin cfg1.N) (x : S128.Idx) (k : S256.Idx)
    (hk0 : (k 0).val = 128 * (t.val / 25) + (x 0).val) :
    (iblk1 V c 3 t : Vec Ideal S128 .f32) x = (V c main_arg4 : S256.Idx → EReal) k := by
  obtain ⟨-, -, -, -, -, -, e0, -⟩ := idx_facts1 t
  unfold iblk1
  rw [View.read_apply]
  show V c main_arg4 _ = V c main_arg4 _
  refine congrArg (V c main_arg4) (funext fun a => Fin.ext ?_)
  match a with
  | ⟨0, _⟩ => show win1_3.index t 0 * 128 + 1 * (x 0).val = (k 0).val; rw [e0, hk0]; omega

theorem iblk1_4_apply (c : Dev nD) (t : Fin cfg1.N) (x : S2000x1.Idx) (k : S50000x1.Idx)
    (hk0 : (k 0).val = 2000 * (t.val % 25) + (x 0).val) :
    (iblk1 V c 4 t : Vec Ideal S2000x1 .i32) x = (V c main_v25 : S50000x1.Idx → BitVec 32) k := by
  obtain ⟨-, -, -, -, -, -, -, e0, e1⟩ := idx_facts1 t
  unfold iblk1
  rw [View.read_apply]
  show V c main_v25 _ = V c main_v25 _
  refine congrArg (V c main_v25) (funext fun a => Fin.ext ?_)
  match a with
  | ⟨0, _⟩ => show win1_4.index t 0 * 2000 + 1 * (x 0).val = (k 0).val; rw [e0, hk0]; omega
  | ⟨1, _⟩ =>
    show win1_4.index t 1 * 1 + 1 * (x 1).val = (k 1).val
    have h1 : (x 1).val < 1 := (x 1).isLt
    have h2 : (k 1).val < 1 := (k 1).isLt
    rw [e1]; omega

/-! ### At point `t = 25 j + i`: block `i` of the rows, chunk `j` of the columns -/

theorem blk0 (c : Dev nD) (t : Fin cfg1.N) (j : Fin 2) (i : Fin 25) (ht : t.val = 25 * j.val + i.val)
    (r : Fin 2000) (q : Fin 128) :
    (iblk1 V c 0 t : Vec Ideal S2000x128 .f32) (ix2 r q)
      = (V c main_v23 : S50000x256.Idx → EReal) (ix2 (Cert.Spec.nodeOf i r) (⟨128 * j.val + q.val, by omega⟩ : Fin 256)) :=
  iblk1_0_apply V c t (ix2 r q) _
    (by show 2000 * i.val + r.val = 2000 * (t.val % 25) + r.val; omega)
    (by show 128 * j.val + q.val = 128 * (t.val / 25) + q.val; omega)

theorem blk1 (c : Dev nD) (t : Fin cfg1.N) (j : Fin 2) (i : Fin 25) (ht : t.val = 25 * j.val + i.val)
    (r : Fin 2000) (q : Fin 128) :
    (iblk1 V c 1 t : Vec Ideal S2000x128 .f32) (ix2 r q)
      = (V c main_v12_0 : S50000x256.Idx → EReal) (ix2 (Cert.Spec.nodeOf i r) (⟨128 * j.val + q.val, by omega⟩ : Fin 256)) :=
  iblk1_1_apply V c t (ix2 r q) _
    (by show 2000 * i.val + r.val = 2000 * (t.val % 25) + r.val; omega)
    (by show 128 * j.val + q.val = 128 * (t.val / 25) + q.val; omega)

theorem blk2 (c : Dev nD) (t : Fin cfg1.N) (j : Fin 2) (i : Fin 25) (ht : t.val = 25 * j.val + i.val)
    (r : Fin 2000) :
    (iblk1 V c 2 t : Vec Ideal S2000x1 .f32) (ix2 r (0 : Fin 1))
      = (V c main_v24 : S50000x1.Idx → EReal) (ix2 (Cert.Spec.nodeOf i r) (0 : Fin 1)) :=
  iblk1_2_apply V c t (ix2 r (0 : Fin 1)) _
    (by show 2000 * i.val + r.val = 2000 * (t.val % 25) + r.val; omega)

theorem blk3 (c : Dev nD) (t : Fin cfg1.N) (j : Fin 2) (i : Fin 25) (ht : t.val = 25 * j.val + i.val)
    (q : Fin 128) :
    (iblk1 V c 3 t : Vec Ideal S128 .f32) (ix1 q)
      = (V c main_arg4 : S256.Idx → EReal) (ix1 (⟨128 * j.val + q.val, by omega⟩ : Fin 256)) :=
  iblk1_3_apply V c t (ix1 q) _
    (by show 128 * j.val + q.val = 128 * (t.val / 25) + q.val; omega)

theorem blk4 (c : Dev nD) (t : Fin cfg1.N) (j : Fin 2) (i : Fin 25) (ht : t.val = 25 * j.val + i.val)
    (r : Fin 2000) :
    (iblk1 V c 4 t : Vec Ideal S2000x1 .i32) (ix2 r (0 : Fin 1))
      = (V c main_v25 : S50000x1.Idx → BitVec 32) (ix2 (Cert.Spec.nodeOf i r) (0 : Fin 1)) :=
  iblk1_4_apply V c t (ix2 r (0 : Fin 1)) _
    (by show 2000 * i.val + r.val = 2000 * (t.val % 25) + r.val; omega)

/-! ## The layer output and the graph words, off the arrays the region finds -/

/-- The activated layer output at node `n`, channel `h`, from the degree scaling `D`, the scattered sums `S`, the
    scaled features `X` and the bias `B`: `max (D n · (S n h + X n h) + B h) 0`. -/
def actA (D : S50000x1.Idx → EReal) (S X : S50000x256.Idx → EReal) (B : S256.Idx → EReal) (n : Fin 50000) (h : Fin 256) : EReal :=
  max (D (ix2 n (0 : Fin 1)) * (S (ix2 n h) + X (ix2 n h)) + B (ix1 h)) 0

/-- The same off the arrays the region finds. -/
def actV (c : Dev nD) : Fin 50000 → Fin 256 → EReal :=
  actA (V c main_v24) (V c main_v23) (V c main_v12_0) (V c main_arg4)

/-- Node `n`'s graph word, from the column of graph words. -/
def btA (T : S50000x1.Idx → BitVec 32) : S50000.Idx → BitVec 32 := fun j => T (ix2 (j 0) (0 : Fin 1))

/-- The same off the array the region finds. -/
def btV (c : Dev nD) : S50000.Idx → BitVec 32 := btA (V c main_v25)

/-! ## One point's update -/

theorem lt_N (j : Fin 2) (i : ℕ) (hi : i < 25) : 25 * j.val + i < cfg1.N := by
  rw [show cfg1.N = 50 from N_1]; omega

/-- Block `i`'s part of graph `g`'s sum at channel `128 j + q` (zero past the last block). -/
def blockSum (c : Dev nD) (j : Fin 2) (g : Fin 64) (q : Fin 128) (i : ℕ) : EReal :=
  if h : i < 25 then
    ∑ r : Fin 2000, Cert.Spec.hot (btV V c (ix1 (Cert.Spec.nodeOf ⟨i, h⟩ r))) g
      * actV V c (Cert.Spec.nodeOf ⟨i, h⟩ r) (⟨128 * j.val + q.val, by omega⟩ : Fin 256)
  else 0

/-- Block `i`'s part of graph `g`'s node count. -/
def blockCnt (c : Dev nD) (g : Fin 64) (i : ℕ) : EReal :=
  if h : i < 25 then ∑ r : Fin 2000, Cert.Spec.hot (btV V c (ix1 (Cert.Spec.nodeOf ⟨i, h⟩ r))) g * 1 else 0

/-- The point `25 j + i` adds block `i`'s part to the sums. -/
theorem stepAcc_fst (c : Dev nD) (t : Fin cfg1.N) (j : Fin 2) (i : ℕ) (hi : i < 25) (ht : t.val = 25 * j.val + i)
    (s : Vec Ideal S64x128 .f32 × Vec Ideal S64x1 .f32) (g : Fin 64) (q : Fin 128) :
    (stepAcc V c t s).1 (ix2 g q) = s.1 (ix2 g q) + blockSum V c j g q i := by
  show k1_pay7 (F := Ideal) (iblk1 V c 2 t) (iblk1 V c 0 t) (iblk1 V c 1 t) (iblk1 V c 3 t) (iblk1 V c 4 t) s.1 (ix2 g q) = _
  rw [pay7_apply]
  unfold blockSum
  rw [dif_pos hi]
  refine congrArg (s.1 (ix2 g q) + ·) (Finset.sum_congr rfl fun r _ => ?_)
  rw [blk4 V c t j ⟨i, hi⟩ ht r, blk2 V c t j ⟨i, hi⟩ ht r, blk0 V c t j ⟨i, hi⟩ ht r q, blk1 V c t j ⟨i, hi⟩ ht r q,
    blk3 V c t j ⟨i, hi⟩ ht q]
  rfl

/-- … and to the counts. -/
theorem stepAcc_snd (c : Dev nD) (t : Fin cfg1.N) (j : Fin 2) (i : ℕ) (hi : i < 25) (ht : t.val = 25 * j.val + i)
    (s : Vec Ideal S64x128 .f32 × Vec Ideal S64x1 .f32) (g : Fin 64) :
    (stepAcc V c t s).2 (ix2 g (0 : Fin 1)) = s.2 (ix2 g (0 : Fin 1)) + blockCnt V c g i := by
  show k1_pay1 (F := Ideal) (k1_pay6 (iblk1 V c 4 t)) s.2 (ix2 g (0 : Fin 1)) = _
  rw [pay1_apply, pay6_apply]
  unfold blockCnt
  rw [dif_pos hi]
  refine congrArg (s.2 (ix2 g (0 : Fin 1)) + ·) (Finset.sum_congr rfl fun r _ => ?_)
  rw [blk4 V c t j ⟨i, hi⟩ ht r]
  rfl

/-! ## The induction over a chunk's 25 points -/

theorem accAt1_succ (c : Dev nD) (n : ℕ) (hn : n + 1 < cfg1.N) (h : ¬ (n + 1) % 25 = 0) :
    accAt1 V c (n + 1) hn = stepAcc V c ⟨n + 1, hn⟩ (accAt1 V c n (Nat.lt_of_succ_lt hn)) :=
  if_neg h

/-- After point `25 j + i` the accumulators hold the parts of blocks `0 … i`. -/
theorem acc_inv (c : Dev nD) (j : Fin 2) (g : Fin 64) (q : Fin 128) :
    ∀ (i n : ℕ) (hn : n < cfg1.N), n = 25 * j.val + i → i < 25 →
      (accAt1 V c n hn).1 (ix2 g q) = ∑ i' ∈ Finset.range (i + 1), blockSum V c j g q i'
      ∧ (accAt1 V c n hn).2 (ix2 g (0 : Fin 1)) = ∑ i' ∈ Finset.range (i + 1), blockCnt V c g i' := by
  intro i
  induction i with
  | zero =>
    intro n hn hni hi
    have e : accAt1 V c n hn = stepAcc V c ⟨n, hn⟩ (k1_pay3 (F := Ideal), k1_pay4 (F := Ideal)) :=
      accAt1_first V c ⟨n, hn⟩ (by show n % 25 = 0; omega)
    rw [e, Finset.sum_range_succ, Finset.sum_range_zero, zero_add, Finset.sum_range_succ, Finset.sum_range_zero, zero_add]
    constructor
    · rw [stepAcc_fst V c ⟨n, hn⟩ j 0 hi hni]
      show k1_pay3 (F := Ideal) (ix2 g q) + _ = _
      rw [pay3_apply, zero_add]
    · rw [stepAcc_snd V c ⟨n, hn⟩ j 0 hi hni]
      show k1_pay4 (F := Ideal) (ix2 g (0 : Fin 1)) + _ = _
      rw [pay4_apply, zero_add]
  | succ i ih =>
    intro n hn hni hi
    obtain ⟨m, rfl⟩ : ∃ m, n = m + 1 := ⟨n - 1, by omega⟩
    have e : accAt1 V c (m + 1) hn = stepAcc V c ⟨m + 1, hn⟩ (accAt1 V c m (Nat.lt_of_succ_lt hn)) :=
      accAt1_succ V c m hn (by omega)
    obtain ⟨ih1, ih2⟩ := ih m (Nat.lt_of_succ_lt hn) (by omega) (by omega)
    rw [e, Finset.sum_range_succ _ (i + 1), Finset.sum_range_succ _ (i + 1)]
    constructor
    · rw [stepAcc_fst V c ⟨m + 1, hn⟩ j (i + 1) hi hni, ih1]
    · rw [stepAcc_snd V c ⟨m + 1, hn⟩ j (i + 1) hi hni, ih2]

/-! ## After a chunk's last point: the sums over all the nodes -/

theorem sum_blockSum (c : Dev nD) (j : Fin 2) (g : Fin 64) (q : Fin 128) :
    ∑ i' ∈ Finset.range 25, blockSum V c j g q i'
      = ∑ n : Fin 50000 with Cert.Spec.Hits (btV V c (ix1 n)) g, actV V c n (⟨128 * j.val + q.val, by omega⟩ : Fin 256) := by
  rw [Finset.sum_range, ← Cert.Spec.blocks_sum (btV V c) (fun n => actV V c n (⟨128 * j.val + q.val, by omega⟩ : Fin 256)) g]
  refine Finset.sum_congr rfl fun i _ => ?_
  unfold blockSum
  rw [dif_pos i.isLt]

theorem sum_blockCnt (c : Dev nD) (g : Fin 64) :
    ∑ i' ∈ Finset.range 25, blockCnt V c g i'
      = ∑ n : Fin 50000 with Cert.Spec.Hits (btV V c (ix1 n)) g, (1 : EReal) := by
  rw [Finset.sum_range, ← Cert.Spec.blocks_sum (btV V c) (fun _ => (1 : EReal)) g]
  refine Finset.sum_congr rfl fun i _ => ?_
  unfold blockCnt
  rw [dif_pos i.isLt]

/-- After the last point of column chunk `j`, the sum accumulator at graph `g`, channel `q` is the sum of the layer
    output at channel `128 j + q` over the nodes of `g`, and the count accumulator the number of those nodes. -/
theorem acc_last (c : Dev nD) (j : Fin 2) (g : Fin 64) (q : Fin 128) :
    (Hand.accAt1 (F := Ideal) V c (25 * j.val + 24) (lt_N j 24 (by omega))).1 (ix2 g q)
        = ∑ n : Fin 50000 with Cert.Spec.Hits (btV V c (ix1 n)) g, actV V c n (⟨128 * j.val + q.val, by omega⟩ : Fin 256)
    ∧ (Hand.accAt1 (F := Ideal) V c (25 * j.val + 24) (lt_N j 24 (by omega))).2 (ix2 g (0 : Fin 1))
        = ∑ n : Fin 50000 with Cert.Spec.Hits (btV V c (ix1 n)) g, (1 : EReal) := by
  obtain ⟨h1, h2⟩ := acc_inv V c j g q 24 (25 * j.val + 24) (lt_N j 24 (by omega)) rfl (by omega)
  exact ⟨h1.trans (sum_blockSum V c j g q), h2.trans (sum_blockCnt V c g)⟩

end Cert.KernelIdeal.Val

end
-- ==== Proof.KI.Val1.lean ====
import proofs.«413251_j72258529788421_3_alg».proof.Proof.Gen.KernelIdeal.Launch
import proofs.«413251_j72258529788421_3_alg».proof.Proof.Gen.KernelIdeal.Skeleton
import proofs.«413251_j72258529788421_3_alg».proof.Proof.Gen.KernelIdeal.Regions
import proofs.«413251_j72258529788421_3_alg».proof.Proof.Spec
import proofs.«413251_j72258529788421_3_alg».proof.Proof.LibIdealFinite
import proofs.«413251_j72258529788421_3_alg».proof.Proof.LibScatterGather
import proofs.«413251_j72258529788421_3_alg».proof.Proof.KI.R1
import proofs.«413251_j72258529788421_3_alg».proof.Proof.KI.Val1Pay
import proofs.«413251_j72258529788421_3_alg».proof.Proof.KI.Val1Acc
import Idealize.ShloMosaic.Lib.StableHlo.Run
import Idealize.ShloMosaic.Lib.Pipeline.Value
import Idealize.ShloMosaic.Lib.ValueIdx
import Idealize.ShloMosaic.PureOps.Ideal.Laws

/-! # The kernel program's values from the first call's exit to the end, over the extended reals

Between the two calls the host gathers, for each of the 800000 edges, the narrowed scaled row of the edge's source
node — the source word wrapped once by 50000 when negative, then clamped into the table — and sums these rows into
the edge's target node, an edge whose target word names no node being dropped; it also lays the inverse square-root
degrees and the graph words out as columns. The pooling call then visits the 50000 nodes in 25 blocks of 2000 for
each of two chunks of 128 channels, keeps per-graph sums and counts across a chunk's blocks, and at the chunk's last
block writes the quotient into the chunk's 64 × 128 block of the 64 × 256 output. This module reads the host
stretch's three results at an index, for any contents it starts from, and shows that the output array ends holding
the mean over each graph of max (dis · (sum + scaled row) + bias, 0), for any contents the pooling call starts from. -/

set_option maxRecDepth 100000

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)
open scoped BigOperators

/-! ## Index words -/

/-- The wrap of a source word as the program writes it — a select on "the word is negative" between the word plus the
    table's length and the word — is the specification's wrap. -/
theorem select_wrap (w : BitVec 32) :
    Scalar.select (IntOp.cmpi .slt w 0#32) (IntOp.addi w 50000#32) w = Cert.Spec.wrap w := by
  unfold Cert.Spec.wrap
  show (if BitVec.ofBool (w.slt 0#32) = 1#1 then w + 50000#32 else w) = _
  cases h : w.slt 0#32
  · rw [if_neg (by decide), if_neg (by simp)]
  · rw [if_pos (by decide), if_pos rfl]

/-- A vector of words read as a one-column matrix: entry (e, 0) is word e. -/
theorem column_apply (v : S800000.Idx → BitVec 32) (e : Fin 800000) :
    broadcastInDim S800000x1 ![0] bcast_S800000_S800000x1_0 v (ix2 e (0 : Fin 1)) = v (ix1 e) :=
  broadcastInDim_apply _ bcast_S800000_S800000x1_0 v _ (ix1 e) (fun a => match a with
    | ⟨0, _⟩ => by show e.val = if (800000 : Nat) = 1 then 0 else e.val; rw [if_neg (by decide)])

/-- The wrapped source words as a one-column matrix: entry (e, 0) is the wrap of word e. -/
theorem wrapped_apply (sw : S800000.Idx → BitVec 32) (e : Fin 800000) :
    broadcastInDim S800000x1 ![0] bcast_S800000_S800000x1_0
        (select (cmpi .slt sw (broadcastInDim S800000 ![] bcast_S_S800000 (constantI S_ 32 0#32)))
          (addi sw (broadcastInDim S800000 ![] bcast_S_S800000 (constantI S_ 32 50000#32))) sw) (ix2 e (0 : Fin 1))
      = Cert.Spec.wrap (sw (ix1 e)) := by
  rw [column_apply]
  exact select_wrap _

/-- The gathered, widened rows: row e, channel h is the table's row at edge e's source (wrapped, then clamped). -/
theorem gathered_apply (T : S50000x256.Idx → EReal) (sw : S800000.Idx → BitVec 32) (e : Fin 800000) (h : Fin 256) :
    extf (F := Ideal) .f32 (Host.gather gather_S50000x256_S800000x1_S800000x256_1_0_n_n_0_1_1256 (T : FVec Ideal S50000x256 .bf16)
        (broadcastInDim S800000x1 ![0] bcast_S800000_S800000x1_0
          (select (cmpi .slt sw (broadcastInDim S800000 ![] bcast_S_S800000 (constantI S_ 32 0#32)))
            (addi sw (broadcastInDim S800000 ![] bcast_S_S800000 (constantI S_ 32 50000#32))) sw))) bitsLt_bf16_f32 (ix2 e h)
      = T (ix2 (Cert.Spec.src (sw (ix1 e))) h) := by
  rw [extf_apply, LibScatterGather.gather_rows_apply gather_S50000x256_S800000x1_S800000x256_1_0_n_n_0_1_1256 rfl rfl rfl rfl rfl rfl (by decide)]
  refine congrArg (fun r => T (ix2 r h)) (Fin.ext ?_)
  exact (congrArg (fun w : BitVec 32 => min w.toInt.toNat (50000 - 1)) (wrapped_apply sw e)).trans rfl

/-- Over the extended reals the host's accumulating scatter is the ideal one (as functions of the index). -/
theorem host1_scatterAdd_ideal {s si su : Shape} {w : Nat} (d : ScatterDims s si su) (v : FVec Ideal s .f32) (idx : IVec si w)
    (upd : FVec Ideal su .f32) : Host.scatterAdd (F := Ideal) d v idx upd = Ideal.hostScatterAdd d v idx upd := rfl

/-- A segment sum into zeros, read at index i = (node, channel), of updates that are the table's rows at the edges'
    sources, under index words that are the target words: zero plus the sum over the edges whose target word names the node. -/
theorem segsum_gen (T : S50000x256.Idx → EReal) (sw cw : S800000.Idx → BitVec 32) (i : S50000x256.Idx)
    (x : S50000x256.Idx → EReal) (idx : IVec S800000x1 32) (upd : S800000x256.Idx → EReal)
    (hx : x i = 0) (hidx : ∀ e : Fin 800000, idx (ix2 e (0 : Fin 1)) = cw (ix1 e))
    (hupd : ∀ e : Fin 800000, upd (ix2 e (i 1)) = T (ix2 (Cert.Spec.src (sw (ix1 e))) (i 1))) :
    Ideal.hostScatterAdd scatter_S50000x256_S800000x1_S800000x256_1_0_0_1 x idx upd i
      = (0 : EReal) + ∑ e : Fin 800000 with (cw (ix1 e)).toInt = ((i 0).val : ℤ), T (ix2 (Cert.Spec.src (sw (ix1 e))) (i 1)) := by
  obtain ⟨n, h, rfl⟩ : ∃ (n : Fin 50000) (h : Fin 256), i = ix2 n h := ⟨i 0, i 1, eq_ix2 i⟩
  rw [LibScatterGather.scatterAdd_rows_apply scatter_S50000x256_S800000x1_S800000x256_1_0_0_1 rfl rfl rfl rfl, hx]
  refine congrArg ((0 : EReal) + ·) ?_
  exact Finset.sum_congr (Finset.filter_congr fun e _ => by rw [hidx]) fun e _ => hupd e
/-! ## The second host stretch -/

/-- After the second host stretch the segment-sum buffer holds, at node n and channel h, zero plus the sum over the
    edges whose target word names n of the narrowed scaled row at the edge's source (wrapped, then clamped), channel h.
    T, sw, cw name what the stretch finds in the narrowed scaled rows, the source words and the target words. -/
theorem host1_v23 (W : Valuation τ sig (Elt Ideal)) (T : S50000x256.Idx → EReal) (sw cw : S800000.Idx → BitVec 32)
    (hT : W (Proc.devRef .tc main_v12_1) = T) (hs : W (Proc.devRef .tc main_v1) = sw) (hc : W (Proc.devRef .tc main_v3) = cw) :
    StableHlo.after (Gen.hostOps1 (F := Ideal)) W (Proc.devRef .tc main_v23)
      = fun i : S50000x256.Idx => (0 : EReal) + ∑ e : Fin 800000 with (cw (ix1 e)).toInt = ((i 0).val : ℤ),
          T (ix2 (Cert.Spec.src (sw (ix1 e))) (i 1)) := by
  dsimp only [Gen.hostOps1]
  after_results
  rw [hT, hs, hc]
  funext i
  refine (congrFun (host1_scatterAdd_ideal _ _ _ _) i).trans ?_
  refine segsum_gen T sw cw i _ _ _ ?_ ?_ ?_
  · exact Ideal.ofBits_zero_f32
  · exact fun e => column_apply cw e
  · exact fun e => gathered_apply T sw e (i 1)

/-- The inverse square-root degrees as a column. -/
theorem host1_v24 (W : Valuation τ sig (Elt Ideal)) (D : S50000.Idx → EReal) (hD : W (Proc.devRef .tc main_v10) = D) :
    StableHlo.after (Gen.hostOps1 (F := Ideal)) W (Proc.devRef .tc main_v24) = fun i : S50000x1.Idx => D (ix1 (i 0)) := by
  dsimp only [Gen.hostOps1]
  after_results
  rw [hD]
  funext i
  show shapeCast S50000x1 D shapeCasts_S50000_S50000x1 i = _
  exact shapeCast_apply D shapeCasts_S50000_S50000x1 i (ix1 (i 0))
    (by rewrite [Shape.rowMajor_val_two, Shape.rowMajor_val_one]; have h1 : (i 1).val < 1 := (i 1).isLt; show (i 0).val = (i 0).val * 1 + (i 1).val; omega)

/-- The graph words as a column. -/
theorem host1_v25 (W : Valuation τ sig (Elt Ideal)) (B : S50000.Idx → BitVec 32) (hB : W (Proc.devRef .tc main_arg2) = B) :
    StableHlo.after (Gen.hostOps1 (F := Ideal)) W (Proc.devRef .tc main_v25) = fun i : S50000x1.Idx => B (ix1 (i 0)) := by
  dsimp only [Gen.hostOps1]
  after_results
  rw [hB]
  funext i
  show shapeCast S50000x1 B shapeCasts_S50000_S50000x1 i = _
  exact shapeCast_apply B shapeCasts_S50000_S50000x1 i (ix1 (i 0))
    (by rewrite [Shape.rowMajor_val_two, Shape.rowMajor_val_one]; have h1 : (i 1).val < 1 := (i 1).isLt; show (i 0).val = (i 0).val * 1 + (i 1).val; omega)

/-- A buffer the second host stretch does not write keeps its contents. -/
theorem host1_keeps (W : Valuation τ sig (Elt Ideal)) (b : Ref sig .tc) (hb : b ∉ Gen.hostOps1_W) :
    StableHlo.after (Gen.hostOps1 (F := Ideal)) W (Proc.devRef .tc b) = W (Proc.devRef .tc b) :=
  StableHlo.after_of_writes_sub Gen.hostOps1 _ Gen.hostOps1_writes hb

-- the TensorCore's buffer contents when the pooling call is entered
variable (V : (c : Dev nD) → (b : Ref sig .tc) → Buf (Elt Ideal) ((c : Thread nD τ).loc b))

/-! ## From the last point of each column chunk to the output array -/

/-- The output's index map over the grid: block row 0, block column the point's column chunk. -/
theorem idx5_facts : ∀ t : Fin cfg1.N, win1_5.index t (0 : Fin 2) = 0 ∧ win1_5.index t (1 : Fin 2) = t.val / 25 :=
  (by decide +kernel : ∀ t : Fin grid1.N, win1_5.index t (0 : Fin 2) = 0 ∧ win1_5.index t (1 : Fin 2) = t.val / 25)

/-- An index of the 64 × 256 output is in point t's block iff each coordinate is in the block's range on its axis. -/
theorem mem_blk5 (t : Fin cfg1.N) (i : S64x256.Idx) :
    i ∈ ((cfg1.win 5).blk t).view.set ↔ ∀ a : Fin 2, win1_5.index t a * S64x128.size a ≤ (i a).val ∧ (i a).val < win1_5.index t a * S64x128.size a + S64x128.size a := by
  show i ∈ ((View.whole main_v26).slice (win1_5.rect t)).set ↔ _
  rw [View.set_slice_whole, Rect.mem_set_unit]
  exact Iff.rfl

/-- The pooled mean of a layer output act under the graph words bt, as contents of the 64 × 256 output array. -/
def pooled (bt : (⟨1, ![50000]⟩ : Shape).Idx → BitVec 32) (act : Fin 50000 → Fin 256 → EReal) : S64x256.Idx → EReal :=
  fun i => Cert.Spec.pool bt act (i 0) (i 1)

/-- The accumulators do not depend on how the point is written. -/
theorem accAt1_congr (c : Dev nD) {n m : ℕ} (e : n = m) (hn : n < cfg1.N) (hm : m < cfg1.N) :
    Hand.accAt1 (F := Ideal) V c n hn = Hand.accAt1 (F := Ideal) V c m hm := by
  subst e; rfl

/-- What the accumulators hold after the last point 25 j + 24 of column chunk j: at (g, q) the sum over graph g's nodes
    of the layer's output at channel 128 j + q, and the number of graph g's nodes. -/
def AccLast (c : Dev nD) (bt : (⟨1, ![50000]⟩ : Shape).Idx → BitVec 32) (act : Fin 50000 → Fin 256 → EReal) : Prop :=
  ∀ (j : Fin 2) (g : Fin 64) (q : Fin 128) (hlt : 25 * j.val + 24 < cfg1.N),
    (Hand.accAt1 (F := Ideal) V c (25 * j.val + 24) hlt).1 (ix2 g q)
        = ∑ n : Fin 50000 with Cert.Spec.Hits (bt (ix1 n)) g, act n ⟨128 * j.val + q.val, by omega⟩
      ∧ (Hand.accAt1 (F := Ideal) V c (25 * j.val + 24) hlt).2 (ix2 g (0 : Fin 1))
        = ∑ n : Fin 50000 with Cert.Spec.Hits (bt (ix1 n)) g, (1 : EReal)

/-- What a writing point writes back — the last point 25 j + 24 of column chunk j — is its block of the pooled mean. -/
theorem flushed5_eq (c : Dev nD) (bt : (⟨1, ![50000]⟩ : Shape).Idx → BitVec 32) (act : Fin 50000 → Fin 256 → EReal)
    (acc_last : AccLast V c bt act) (t : Fin cfg1.N) (hf : (cfg1.win 5).flush t = true) :
    (Hand.dat1 (F := Ideal) V c).flushed 5 t = ((cfg1.win 5).blk t).view.read (Elt Ideal) (pooled bt act) := by
  have h24 : t.val % 25 = 24 := (flush1_5 t).mp hf
  have hN : cfg1.N = 50 := N_1
  have htN : t.val < 50 := lt_of_lt_of_eq t.isLt hN
  obtain ⟨e0, e1⟩ := idx5_facts t
  show (cfg1.win 5).cut (grid1.coords t) ((Hand.dat1 V c).after 5 t) = _
  rw [Hand.after1_5 V c t h24]
  funext y
  have hy0 : (y 0).val < 64 := (y 0).isLt
  have hy1 : (y 1).val < 128 := (y 1).isLt
  have hj : t.val / 25 < 2 := by omega
  have hlt : 25 * (t.val / 25) + 24 < cfg1.N := lt_of_lt_of_eq (by omega : 25 * (t.val / 25) + 24 < 50) hN.symm
  have hxi : (cfg1.win 5).xinj (grid1.coords t) y = ix2 (⟨(y 0).val, hy0⟩ : Fin 64) (⟨(y 1).val, hy1⟩ : Fin 128) :=
    funext fun a => match a with
      | ⟨0, _⟩ => rfl
      | ⟨1, _⟩ => rfl
  have hemb : ((cfg1.win 5).blk t).view.emb y
      = ix2 (⟨(y 0).val, hy0⟩ : Fin 64) (⟨128 * (t.val / 25) + (y 1).val, by omega⟩ : Fin 256) := by
    funext a; apply Fin.ext
    match a with
    | ⟨0, _⟩ => show win1_5.index t (0 : Fin 2) * 64 + 1 * (y 0).val = (y 0).val; rw [e0]; omega
    | ⟨1, _⟩ => show win1_5.index t (1 : Fin 2) * 128 + 1 * (y 1).val = 128 * (t.val / 25) + (y 1).val; rw [e1]; omega
  have hacc := acc_last ⟨t.val / 25, hj⟩ ⟨(y 0).val, hy0⟩ ⟨(y 1).val, hy1⟩ hlt
  have hpt : Hand.accAt1 (F := Ideal) V c t.val t.isLt = Hand.accAt1 (F := Ideal) V c (25 * (t.val / 25) + 24) hlt :=
    accAt1_congr V c (by omega) t.isLt hlt
  show Gen.k1_pay2 (F := Ideal) _ _ ((cfg1.win 5).xinj (grid1.coords t) y) = pooled bt act (((cfg1.win 5).blk t).view.emb y)
  rw [hxi, hemb, pay2_apply, hpt]
  exact (congrArg₂ Ideal.div hacc.1 (congrArg (max · (1 : EReal)) hacc.2)).trans rfl

/-- The two blocks (0, 0) and (0, 1), written back at points 24 and 49, tile the 64 × 256 output. -/
theorem cover5 (i : S64x256.Idx) : ∃ t : Fin cfg1.N, (cfg1.win 5).flush t = true ∧ i ∈ ((cfg1.win 5).blk t).view.set := by
  have hN : cfg1.N = 50 := N_1
  have hi0 : (i 0).val < 64 := (i 0).isLt
  have hi1 : (i 1).val < 256 := (i 1).isLt
  have htN : 25 * ((i 1).val / 128) + 24 < cfg1.N := lt_of_lt_of_eq (by omega : 25 * ((i 1).val / 128) + 24 < 50) hN.symm
  refine ⟨⟨25 * ((i 1).val / 128) + 24, htN⟩, (flush1_5 _).mpr (by show (25 * ((i 1).val / 128) + 24) % 25 = 24; omega), ?_⟩
  obtain ⟨e0, e1⟩ := idx5_facts ⟨25 * ((i 1).val / 128) + 24, htN⟩
  rw [mem_blk5]
  intro a
  match a with
  | ⟨0, _⟩ =>
    show win1_5.index _ (0 : Fin 2) * 64 ≤ (i 0).val ∧ (i 0).val < win1_5.index _ (0 : Fin 2) * 64 + 64
    rw [e0]; omega
  | ⟨1, _⟩ =>
    show win1_5.index _ (1 : Fin 2) * 128 ≤ (i 1).val ∧ (i 1).val < win1_5.index _ (1 : Fin 2) * 128 + 128
    rw [e1]
    show (25 * ((i 1).val / 128) + 24) / 25 * 128 ≤ (i 1).val ∧ (i 1).val < (25 * ((i 1).val / 128) + 24) / 25 * 128 + 128
    omega

/-- THE OUTPUT ARRAY after the pooling call, for any entry contents: the mean over each graph of the layer's output,
    given what the accumulators hold after each column chunk's last point. -/
theorem arr1_5_of (c : Dev nD) (bt : (⟨1, ![50000]⟩ : Shape).Idx → BitVec 32) (act : Fin 50000 → Fin 256 → EReal)
    (acc_last : AccLast V c bt act) :
    (Hand.dat1 (F := Ideal) V c).arrAt 5 cfg1.N = fun i : S64x256.Idx => Cert.Spec.pool bt act (i 0) (i 1) :=
  (Hand.dat1 (F := Ideal) V c).arrAt_eq_of_cover 5 (pooled bt act) (flushed5_eq V c bt act acc_last) cover5

/-- THE OUTPUT ARRAY after the pooling call, for any contents V of the core's buffers on entry: at graph g and channel
    h, the mean over the nodes of g of max (dis n · (sum n h + scaled row n h) + bias h) 0, the arrays read off V. -/
theorem arr1_5 (c : Dev nD) :
    (Hand.dat1 (F := Ideal) V c).arrAt 5 cfg1.N
      = fun i : S64x256.Idx => Cert.Spec.pool (btV V c) (actV V c) (i 0) (i 1) :=
  arr1_5_of V c (btV V c) (actV V c) fun j g q _ => acc_last V c j g q

end Cert.KernelIdeal.Val

end
-- ==== Proof.KI.Result.lean ====
import proofs.«413251_j72258529788421_3_alg».proof.Proof.KI.Run
import proofs.«413251_j72258529788421_3_alg».proof.Proof.KI.Val0
import proofs.«413251_j72258529788421_3_alg».proof.Proof.KI.Val0Arr
import proofs.«413251_j72258529788421_3_alg».proof.Proof.KI.Val1
import proofs.«413251_j72258529788421_3_alg».proof.Proof.Spec
import Idealize.ShloMosaic.Lib.ValueIdx

noncomputable section

/-!
  THE KERNEL PROGRAM'S RESULT, as one function of its five arguments.

  The program is four stretches. The first host stretch cuts the edge list into its source and target words and forms
  the normalisation dis n = deg n ^ (-1/2). The first kernel call leaves, twice, the scaled rows xws n = (x W) n * dis n.
  The second host stretch sums the scaled rows at the edges' sources over the edges into each node. The second kernel
  call forms max (dis n * (sum + xws n) + b) 0 at every node and takes the mean over each graph's nodes. Each stretch's
  value is stated elsewhere as a function of the buffers it reads; this module chains them from the launch memory.
-/

namespace Cert.KernelIdeal.Val

open Cert.KernelIdeal Cert.KernelIdeal.Gen
open Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ) (c : Dev nD)

/-! ## The five arguments as launched -/

/-- The node features. -/
abbrev aX : S50000x1280.Idx → EReal := m ((c.tc : Thread nD τ).loc main_arg0)
/-- The edge list: row 0 the source words, row 1 the target words. -/
abbrev aE : S2x800000.Idx → BitVec 32 := m ((c.tc : Thread nD τ).loc main_arg1)
/-- Each node's graph word. -/
abbrev aG : S50000.Idx → BitVec 32 := m ((c.tc : Thread nD τ).loc main_arg2)
/-- The weights. -/
abbrev aW : S1280x256.Idx → EReal := m ((c.tc : Thread nD τ).loc main_arg3)
/-- The bias. -/
abbrev aB : S256.Idx → EReal := m ((c.tc : Thread nD τ).loc main_arg4)

/-! ## After the first host stretch -/

theorem W1_arg0 : Hand.W1 m c (Proc.devRef .tc main_arg0) = aX m c := host0_keeps (Hand.W0 m c) main_arg0 (by decide)
theorem W1_arg2 : Hand.W1 m c (Proc.devRef .tc main_arg2) = aG m c := host0_keeps (Hand.W0 m c) main_arg2 (by decide)
theorem W1_arg3 : Hand.W1 m c (Proc.devRef .tc main_arg3) = aW m c := host0_keeps (Hand.W0 m c) main_arg3 (by decide)
theorem W1_arg4 : Hand.W1 m c (Proc.devRef .tc main_arg4) = aB m c := host0_keeps (Hand.W0 m c) main_arg4 (by decide)

/-- The normalisation as a column. -/
theorem W1_v11 : (Hand.W1 m c (Proc.devRef .tc main_v11) : S50000x1.Idx → EReal) = fun i => Cert.Spec.disK (aE m c) (i 0) :=
  host0_v11 (Hand.W0 m c)
/-- The normalisation as a vector. -/
theorem W1_v10 : (Hand.W1 m c (Proc.devRef .tc main_v10) : S50000.Idx → EReal) = fun i => Cert.Spec.disK (aE m c) (i 0) :=
  host0_v10 (Hand.W0 m c)
/-- The source words. -/
theorem W1_v1 : (Hand.W1 m c (Proc.devRef .tc main_v1) : S800000.Idx → BitVec 32) = fun i => Cert.Spec.rowW (aE m c) (i 0) :=
  host0_v1 (Hand.W0 m c)
/-- The target words. -/
theorem W1_v3 : (Hand.W1 m c (Proc.devRef .tc main_v3) : S800000.Idx → BitVec 32) = fun i => Cert.Spec.colW (aE m c) (i 0) :=
  host0_v3 (Hand.W0 m c)

/-! ## After the first kernel call: its two result arrays hold the scaled rows, every other buffer is as before -/

theorem W2_arg2 : Hand.W2 m c (Proc.devRef .tc main_arg2) = aG m c :=
  (Hand.W2_of_ne m c main_arg2 (by decide)).trans (W1_arg2 m c)
theorem W2_arg4 : Hand.W2 m c (Proc.devRef .tc main_arg4) = aB m c :=
  (Hand.W2_of_ne m c main_arg4 (by decide)).trans (W1_arg4 m c)
theorem W2_v10 : (Hand.W2 m c (Proc.devRef .tc main_v10) : S50000.Idx → EReal) = fun i => Cert.Spec.disK (aE m c) (i 0) :=
  (Hand.W2_of_ne m c main_v10 (by decide)).trans (W1_v10 m c)
theorem W2_v1 : (Hand.W2 m c (Proc.devRef .tc main_v1) : S800000.Idx → BitVec 32) = fun i => Cert.Spec.rowW (aE m c) (i 0) :=
  (Hand.W2_of_ne m c main_v1 (by decide)).trans (W1_v1 m c)
theorem W2_v3 : (Hand.W2 m c (Proc.devRef .tc main_v3) : S800000.Idx → BitVec 32) = fun i => Cert.Spec.colW (aE m c) (i 0) :=
  (Hand.W2_of_ne m c main_v3 (by decide)).trans (W1_v3 m c)

/-- At the operands the first host stretch leaves, the first call's closed form is the scaled rows. -/
theorem scaled_rows :
    G0 (Hand.V1 m c main_arg0) (Hand.V1 m c main_arg3) (Hand.V1 m c main_v11)
      = fun i => Cert.Spec.xws (aX m c) (aE m c) (aW m c) (i 0) (i 1) := by
  show G0 (Hand.W1 m c (Proc.devRef .tc main_arg0)) (Hand.W1 m c (Proc.devRef .tc main_arg3)) (Hand.W1 m c (Proc.devRef .tc main_v11)) = _
  rw [W1_arg0, W1_arg3, W1_v11]
  rfl

/-- The single-precision result array. -/
theorem W2_v12_0 : (Hand.W2 m c (Proc.devRef .tc main_v12_0) : S50000x256.Idx → EReal)
    = fun i => Cert.Spec.xws (aX m c) (aE m c) (aW m c) (i 0) (i 1) :=
  ((Hand.W2_arr m c 3).trans (arr0_3 (Hand.V1 m) c)).trans (scaled_rows m c)

/-- The narrowed result array: the same extended reals. -/
theorem W2_v12_1 : (Hand.W2 m c (Proc.devRef .tc main_v12_1) : S50000x256.Idx → EReal)
    = fun i => Cert.Spec.xws (aX m c) (aE m c) (aW m c) (i 0) (i 1) :=
  ((Hand.W2_arr m c 4).trans (arr0_4 (Hand.V1 m) c)).trans (scaled_rows m c)

/-! ## After the second host stretch: the second call's five operands -/

/-- The graph words as a column. -/
theorem V3_v25 : (Hand.V3 m c main_v25 : S50000x1.Idx → BitVec 32) = fun i => aG m c (ix1 (i 0)) :=
  host1_v25 (Hand.W2 m c) (aG m c) (W2_arg2 m c)

/-- The normalisation as a column. -/
theorem V3_v24 : (Hand.V3 m c main_v24 : S50000x1.Idx → EReal) = fun i => Cert.Spec.disK (aE m c) (i 0) :=
  host1_v24 (Hand.W2 m c) (fun i => Cert.Spec.disK (aE m c) (i 0)) (W2_v10 m c)

/-- The bias. -/
theorem V3_arg4 : Hand.V3 m c main_arg4 = aB m c :=
  (host1_keeps (Hand.W2 m c) main_arg4 (by decide)).trans (W2_arg4 m c)

/-- The scaled rows. -/
theorem V3_v12_0 : (Hand.V3 m c main_v12_0 : S50000x256.Idx → EReal)
    = fun i => Cert.Spec.xws (aX m c) (aE m c) (aW m c) (i 0) (i 1) :=
  (host1_keeps (Hand.W2 m c) main_v12_0 (by decide)).trans (W2_v12_0 m c)

/-- The scaled rows at the edges' sources, summed over the edges into each node. -/
theorem V3_v23 : (Hand.V3 m c main_v23 : S50000x256.Idx → EReal)
    = fun i => Cert.Spec.aggK (aX m c) (aE m c) (aW m c) (i 0) (i 1) :=
  host1_v23 (Hand.W2 m c) (fun i => Cert.Spec.xws (aX m c) (aE m c) (aW m c) (i 0) (i 1))
    (fun i => Cert.Spec.rowW (aE m c) (i 0)) (fun i => Cert.Spec.colW (aE m c) (i 0)) (W2_v12_1 m c) (W2_v1 m c) (W2_v3 m c)

/-! ## The second call's two functions at these operands -/

/-- Each node's graph word, off the column. -/
theorem btV_V3 : btV (Hand.V3 m) c = aG m c := by
  unfold btV btA
  rw [V3_v25]
  exact funext fun j => congrArg (aG m c) (eq_ix1 j).symm

/-- The layer's output after the maximum with zero, the way this program computes it. -/
theorem actV_V3 : actV (Hand.V3 m) c = Cert.Spec.actK (aX m c) (aE m c) (aW m c) (aB m c) := by
  unfold actV
  rw [V3_v24, V3_v23, V3_v12_0, V3_arg4]
  rfl

/-! ## The result -/

/-- The result array holds, at graph g and channel h, the mean over g's nodes of the layer's output. -/
theorem kernel_result :
    (Hand.W4 (F := Ideal) m c (Proc.devRef .tc main_v26) : S64x256.Idx → EReal)
      = fun i => Cert.Spec.pool (m ((c.tc : Thread nD τ).loc main_arg2))
          (Cert.Spec.actK (m ((c.tc : Thread nD τ).loc main_arg0)) (m ((c.tc : Thread nD τ).loc main_arg1))
            (m ((c.tc : Thread nD τ).loc main_arg3)) (m ((c.tc : Thread nD τ).loc main_arg4))) (i 0) (i 1) := by
  refine ((Hand.W4_arr m c 5).trans (arr1_5 (Hand.V3 m) c)).trans ?_
  rw [btV_V3, actV_V3]
  rfl

end Cert.KernelIdeal.Val
end
-- ==== Proof.RefValue.lean ====
/-
  The reference program's one result, index by index: the mean over each graph of the layer's output, the layer
  computed over the one list of 850000 entries (the 800000 edges, then one self loop per node).

  The stages, in the order the program computes them: the two index lists (edge words, then the numbers 0 … 49999);
  the degree (a sum of ones over the entries whose target word names the node); its inverse square root where the
  degree is positive; the two factors read at the wrapped and clamped source and target words; the feature rows read
  at the source words; their product summed into the target nodes; the bias and the maximum with zero; the sum over
  each graph's nodes and the count of its nodes; the quotient.
-/
import proofs.«413251_j72258529788421_3_alg».proof.Defs
import proofs.«413251_j72258529788421_3_alg».proof.Proof.RefRun
import proofs.«413251_j72258529788421_3_alg».proof.Proof.RefRead
import proofs.«413251_j72258529788421_3_alg».proof.Proof.Spec
import proofs.«413251_j72258529788421_3_alg».proof.Proof.LibIdealFinite
import proofs.«413251_j72258529788421_3_alg».proof.Proof.LibScatterGather

noncomputable section

open scoped BigOperators

namespace Cert.ReferenceIdeal.RefValue

open Cert.ReferenceIdeal Cert.ReferenceIdeal.Gen Cert.ReferenceIdeal.ReadP Idealize.ShloMosaic Idealize.ShloMosaic.TcCoe
open Idealize.ShloMosaic.ValueIdx Idealize.SL.Sem Cert.Spec

variable (x : (⟨S50000x1280, .f32⟩ : BufTy).Contents (Elt Ideal)) (ei : (⟨S2x800000, .i32⟩ : BufTy).Contents (Elt Ideal))
  (bt : (⟨S50000, .i32⟩ : BufTy).Contents (Elt Ideal)) (W : (⟨S1280x256, .f32⟩ : BufTy).Contents (Elt Ideal))
  (b : (⟨S256, .f32⟩ : BufTy).Contents (Elt Ideal))

/-! ## The two index lists -/

/-- The first row of the edge array, as a list of 800000 words: the source words. -/
theorem v3_at (e : Fin 800000) : val_main_v3 (F := Ideal) ei (ix1 e) = rowW ei e := by
  rw [val_main_v3_apply, val_main_v2_apply]
  unfold rowW
  congr 1
  funext a
  match a with
  | ⟨0, _⟩ => rfl
  | ⟨1, _⟩ => exact Fin.ext (Nat.mod_eq_of_lt e.isLt)

/-- The second row: the target words. -/
theorem v6_at (e : Fin 800000) : val_main_v6 (F := Ideal) ei (ix1 e) = colW ei e := by
  rw [val_main_v6_apply, val_main_v5_apply]
  unfold colW
  congr 1
  funext a
  match a with
  | ⟨0, _⟩ => rfl
  | ⟨1, _⟩ => exact Fin.ext (Nat.mod_eq_of_lt e.isLt)

/-- A list of 800000 words followed by the numbers 0 … 49999, read at entry j. -/
theorem cat_at (a : (⟨S800000, .i32⟩ : BufTy).Contents (Elt Ideal)) (j : Fin 850000) :
    concatenate S850000 0 [⟨S800000, a⟩, ⟨S50000, val_main_v1 (F := Ideal)⟩] concatenates_S800000_S50000_S850000_d0 (ix1 j)
      = catW (fun e => a (ix1 e)) j := by
  unfold catW
  by_cases h : j.val < 800000
  · rw [dif_pos h]
    exact Idealize.ShloMosaic.concatenate_pair_apply_left 0 a _ concatenates_S800000_S50000_S850000_d0 (ix1 j) rfl
      (ix1 ⟨j.val, h⟩) (fun b => by
        match b with
        | ⟨0, _⟩ => rfl)
  · rw [dif_neg h]
    have hj : j.val - 800000 < 50000 := by have := j.isLt; omega
    rw [Idealize.ShloMosaic.concatenate_pair_apply_right 0 a (val_main_v1 (F := Ideal)) concatenates_S800000_S50000_S850000_d0 (ix1 j)
      rfl rfl (ix1 ⟨j.val - 800000, hj⟩)
      (fun b hb => (hb (Subsingleton.elim (α := Fin 1) _ _)).elim)
      (by show j.val - 800000 + 800000 = j.val; omega)]
    rfl

/-- The source words, then the self loops' numbers. -/
theorem v4_at (j : Fin 850000) : val_main_v4 (F := Ideal) ei (ix1 j) = catW (rowW ei) j := by
  unfold val_main_v4
  rw [cat_at]
  congr 1
  funext e
  exact v3_at ei e

/-- The target words, then the self loops' numbers. -/
theorem v7_at (j : Fin 850000) : val_main_v7 (F := Ideal) ei (ix1 j) = catW (colW ei) j := by
  unfold val_main_v7
  rw [cat_at]
  congr 1
  funext e
  exact v6_at ei e

/-! ## The wrap of a negative index -/

/-- The program's select of "word + 50000" under "word < 0, signed" is the wrap. -/
theorem wrap_eq (w : BitVec 32) :
    Scalar.select (IntOp.cmpi .slt w 0#32) (IntOp.addi w 50000#32) w = wrap w := by
  unfold wrap Scalar.select IntOp.cmpi IntOp.addi
  by_cases h : w.slt 0#32 = true
  · rw [if_pos h, h]; rfl
  · rw [if_neg h]
    have : w.slt 0#32 = false := by simpa using h
    rw [this]; rfl

/-- The source list, wrapped (the list the first factor is read at). -/
theorem v20_at (j : Fin 850000) : val_main_v20 (F := Ideal) ei (ix1 j) = wrap (catW (rowW ei) j) := by
  rw [val_main_v20_apply, val_main_v17_apply, val_main_v19_apply, val_main_v16_apply, val_main_v18_apply,
    val_main_c_apply, val_main_c_3_apply, v4_at]
  exact wrap_eq _

/-- The target list, wrapped (the list the second factor is read at). -/
theorem v27_at (j : Fin 850000) : val_main_v27 (F := Ideal) ei (ix1 j) = wrap (catW (colW ei) j) := by
  rw [val_main_v27_apply, val_main_v24_apply, val_main_v26_apply, val_main_v23_apply, val_main_v25_apply,
    val_main_c_4_apply, val_main_c_5_apply, v7_at]
  exact wrap_eq _

/-- The source list, wrapped (the list the feature rows are read at). -/
theorem v36_at (j : Fin 850000) : val_main_v36 (F := Ideal) ei (ix1 j) = wrap (catW (rowW ei) j) := by
  rw [val_main_v36_apply, val_main_v33_apply, val_main_v35_apply, val_main_v32_apply, val_main_v34_apply,
    val_main_c_6_apply, val_main_c_7_apply, v4_at]
  exact wrap_eq _

/-! ## The degree and its inverse square root -/

/-- Row e of a one-column array of index words is entry e of the list. -/
theorem idx10_eq (e : Fin 850000) : idx_main_v10 (ix2 e (0 : Fin 1)) = ix1 e := by
  funext a
  match a with
  | ⟨0, _⟩ => rfl

/-- Two sums over the entries whose word names n agree when the words and the summands do. -/
theorem sum_hits_congr {M N : Nat} (wd wd' : Fin M → BitVec 32) (n : Fin N) (f g : Fin M → EReal)
    (hw : ∀ e, wd e = wd' e) (hf : ∀ e, f e = g e) :
    ∑ e : Fin M with (wd e).toInt = (n.val : ℤ), f e = ∑ e : Fin M with Hits (wd' e) n, g e := by
  refine Finset.sum_congr (Finset.filter_congr fun e _ => ?_) fun e _ => hf e
  rw [hw e]
  exact Iff.rfl

/-- The target word of entry e, as the degree's scatter reads it. -/
theorem v10_at (e : Fin 850000) : val_main_v10 (F := Ideal) ei (ix2 e (0 : Fin 1)) = catW (colW ei) e := by
  rw [val_main_v10_apply, idx10_eq, v7_at]

/-- Every entry adds one. -/
theorem v8_at (e : Fin 850000) : val_main_v8 (F := Ideal) (ix1 e) = (1 : EReal) := by
  rw [val_main_v8_apply, val_main_cst_apply, Ideal.ofBits_def, IdealFinite.ofBits_3F800000, EReal.coe_one]

/-- The sum starts from zero. -/
theorem v9_at (n : Fin 50000) : val_main_v9 (F := Ideal) (ix1 n) = (0 : EReal) := by
  rw [val_main_v9_apply, val_main_cst_0_apply, Ideal.ofBits_def, Ideal.ofBits_zero_f32]

/-- On the extended reals the host's accumulating scatter is the exact one (for any operands). -/
theorem scatterAdd_ideal {s si su : Shape} {w : Nat} (d : ScatterDims s si su) (v : FVec Ideal s .f32) (idx : IVec si w)
    (upd : FVec Ideal su .f32) : Host.scatterAdd d v idx upd = Ideal.hostScatterAdd d v idx upd := rfl

/-- The degree stage is the accumulating scatter of the ones at the target words into zeros. -/
theorem v11_def : val_main_v11 (F := Ideal) ei
    = Host.scatterAdd (F := Ideal) (φ := .f32) scatter_S50000_S850000x1_S850000_n_0_0_1 (val_main_v9 (F := Ideal)) (val_main_v10 (F := Ideal) ei)
        (val_main_v8 (F := Ideal)) := rfl

/-- The degree: from zero, one for every entry of the long list whose target word names the node. -/
theorem v11_at (n : Fin 50000) : val_main_v11 (F := Ideal) ei (ix1 n) = degR ei n := by
  refine (congrFun ((v11_def ei).trans (scatterAdd_ideal _ _ _ _)) (ix1 n)).trans ?_
  refine (LibScatterGather.scatterAdd_vec_apply scatter_S50000_S850000x1_S850000_n_0_0_1 rfl rfl rfl rfl
    (val_main_v9 (F := Ideal)) (val_main_v10 (F := Ideal) ei) (val_main_v8 (F := Ideal)) n).trans ?_
  unfold degR
  exact congrArg₂ (fun a s : EReal => a + s) (v9_at n)
    (sum_hits_congr _ _ n _ _ (fun e => v10_at ei e) (fun e => v8_at e))

/-- Where the degree is positive its inverse square root, elsewhere zero. -/
theorem dis_eq (d : EReal) :
    Scalar.select (Ideal.cmp .ogt d 0) (Ideal.rsqrt d) (0 : EReal) = if 0 < d then Ideal.rsqrt d else 0 := by
  unfold Scalar.select Ideal.cmp
  by_cases h : 0 < d
  · rw [if_pos h, if_pos]
    simp [h]
  · rw [if_neg h, if_neg]
    simp [h]

theorem v12_at (n : Fin 50000) : val_main_v12 (F := Ideal) (ix1 n) = (0 : EReal) := by
  rw [val_main_v12_apply, val_main_cst_1_apply, Ideal.ofBits_def, Ideal.ofBits_zero_f32]

theorem call0_v1_at (n : Fin 50000) : val_main_call0_v1 (F := Ideal) (ix1 n) = (0 : EReal) := by
  rw [val_main_call0_v1_apply, val_main_call0_v0_apply, val_main_cst_2_apply, Ideal.ofBits_def, Ideal.ofBits_zero_f32]

theorem v15_at (n : Fin 50000) : val_main_v15 (F := Ideal) ei (ix1 n) = disR ei n := by
  rw [val_main_v15_apply, val_main_v13_apply, val_main_v14_apply, v12_at, call0_v1_at, v11_at, Ideal.cmpf_def,
    Ideal.hostUnary_rsqrt_def]
  exact dis_eq _

/-! ## The two factors, read at the wrapped and clamped index words -/

/-- A word that is the wrap of w', read signed and clamped into the table, is the row w' reads. -/
theorem src_ext (w w' : BitVec 32) (hw : w = wrap w') (p : min w.toInt.toNat (50000 - 1) < 50000) :
    (⟨min w.toInt.toNat (50000 - 1), p⟩ : Fin 50000) = src w' := by
  subst hw
  rfl

theorem idx21_eq (e : Fin 850000) : idx_main_v21 (ix2 e (0 : Fin 1)) = ix1 e := by
  funext a
  match a with
  | ⟨0, _⟩ => rfl

theorem idx28_eq (e : Fin 850000) : idx_main_v28 (ix2 e (0 : Fin 1)) = ix1 e := by
  funext a
  match a with
  | ⟨0, _⟩ => rfl

theorem idx37_eq (e : Fin 850000) : idx_main_v37 (ix2 e (0 : Fin 1)) = ix1 e := by
  funext a
  match a with
  | ⟨0, _⟩ => rfl

theorem v21_at (j : Fin 850000) : val_main_v21 (F := Ideal) ei (ix2 j (0 : Fin 1)) = wrap (catW (rowW ei) j) := by
  rw [val_main_v21_apply, idx21_eq, v20_at]

theorem v28_at (j : Fin 850000) : val_main_v28 (F := Ideal) ei (ix2 j (0 : Fin 1)) = wrap (catW (colW ei) j) := by
  rw [val_main_v28_apply, idx28_eq, v27_at]

theorem v37_at (j : Fin 850000) : val_main_v37 (F := Ideal) ei (ix2 j (0 : Fin 1)) = wrap (catW (rowW ei) j) := by
  rw [val_main_v37_apply, idx37_eq, v36_at]

theorem v22_def : val_main_v22 (F := Ideal) ei
    = Host.gather gather_S50000_S850000x1_S850000_n_0_n_n_0_1_1 (val_main_v15 (F := Ideal) ei) (val_main_v21 (F := Ideal) ei) := rfl

theorem v29_def : val_main_v29 (F := Ideal) ei
    = Host.gather gather_S50000_S850000x1_S850000_n_0_n_n_0_1_1 (val_main_v15 (F := Ideal) ei) (val_main_v28 (F := Ideal) ei) := rfl

/-- The first factor: the inverse square root of the degree of the row the source word reads. -/
theorem v22_at (j : Fin 850000) : val_main_v22 (F := Ideal) ei (ix1 j) = disR ei (src (catW (rowW ei) j)) := by
  refine (congrFun (v22_def ei) (ix1 j)).trans ?_
  refine (LibScatterGather.gather_vec_apply gather_S50000_S850000x1_S850000_n_0_n_n_0_1_1 rfl rfl rfl rfl (by decide)
    (val_main_v15 (F := Ideal) ei) (val_main_v21 (F := Ideal) ei) j).trans ?_
  refine (v15_at ei _).trans ?_
  exact congrArg (disR ei) (src_ext _ _ (v21_at ei j) _)

/-- The second factor: the same table read at the target word. -/
theorem v29_at (j : Fin 850000) : val_main_v29 (F := Ideal) ei (ix1 j) = disR ei (src (catW (colW ei) j)) := by
  refine (congrFun (v29_def ei) (ix1 j)).trans ?_
  refine (LibScatterGather.gather_vec_apply gather_S50000_S850000x1_S850000_n_0_n_n_0_1_1 rfl rfl rfl rfl (by decide)
    (val_main_v15 (F := Ideal) ei) (val_main_v28 (F := Ideal) ei) j).trans ?_
  refine (v15_at ei _).trans ?_
  exact congrArg (disR ei) (src_ext _ _ (v28_at ei j) _)

/-! ## The feature rows and the messages -/

/-- The product of the features with the weights, entry (n, h). -/
theorem v0_at (n : Fin 50000) (h : Fin 256) : val_main_v0 (F := Ideal) x W (ix2 n h) = xw x W n h := by
  rw [val_main_v0_apply]
  unfold xw
  refine Finset.sum_congr rfl fun k _ => ?_
  have el : lidx_main_v0 (ix2 n h) k = ix2 n k := by
    funext a
    match a with
    | ⟨0, _⟩ => rfl
    | ⟨1, _⟩ => rfl
  have er : ridx_main_v0 (ix2 n h) k = ix2 k h := by
    funext a
    match a with
    | ⟨0, _⟩ => rfl
    | ⟨1, _⟩ => rfl
  rw [el, er]

theorem v38_def : val_main_v38 (F := Ideal) x ei W
    = Host.gather gather_S50000x256_S850000x1_S850000x256_1_0_n_n_0_1_1256 (val_main_v0 (F := Ideal) x W)
        (val_main_v37 (F := Ideal) ei) := rfl

/-- The feature row the source word reads. -/
theorem v38_at (j : Fin 850000) (h : Fin 256) :
    val_main_v38 (F := Ideal) x ei W (ix2 j h) = xw x W (src (catW (rowW ei) j)) h := by
  refine (congrFun (v38_def x ei W) (ix2 j h)).trans ?_
  refine (LibScatterGather.gather_rows_apply gather_S50000x256_S850000x1_S850000x256_1_0_n_n_0_1_1256 rfl rfl rfl rfl rfl
    rfl (by decide) (val_main_v0 (F := Ideal) x W) (val_main_v37 (F := Ideal) ei) j h).trans ?_
  refine (v0_at x W _ h).trans ?_
  exact congrArg (fun r => xw x W r h) (src_ext _ _ (v37_at ei j) _)

theorem idx_v31_v39 (j : Fin 850000) (h : Fin 256) : idx_main_v31 (idx_main_v39 (ix2 j h)) = ix1 j := by
  funext a
  match a with
  | ⟨0, _⟩ => rfl

/-- The product of the two factors, the same along a row. -/
theorem v39_at (j : Fin 850000) (h : Fin 256) :
    val_main_v39 (F := Ideal) ei (ix2 j h) = disR ei (src (catW (rowW ei) j)) * disR ei (src (catW (colW ei) j)) := by
  rw [val_main_v39_apply, val_main_v31_apply, idx_v31_v39, val_main_v30_apply, v22_at, v29_at, Ideal.mulf_def]

/-- The message of entry j, channel h. -/
theorem v40_at (j : Fin 850000) (h : Fin 256) :
    val_main_v40 (F := Ideal) x ei W (ix2 j h)
      = (disR ei (src (catW (rowW ei) j)) * disR ei (src (catW (colW ei) j))) * xw x W (src (catW (rowW ei) j)) h := by
  rw [val_main_v40_apply, v39_at, v38_at, Ideal.mulf_def]

end Cert.ReferenceIdeal.RefValue

end
-- ==== Proof.RefValueMid.lean ====
/-
  The reference program's layer from the messages to the activation.

  The messages are one row of 256 channels per entry of the long list (the 800000 edges, then one self loop per node).
  The program sums them into the node each entry's target word names — an entry whose word names no node is dropped —,
  starting from zero; adds the bias, the same row of 256 numbers at every node; and takes the maximum with zero.
  Given what each message holds, entry by entry, the result at node n and channel h is the layer's output after
  the maximum with zero, computed over the one list of edges and self loops.
-/
import proofs.«413251_j72258529788421_3_alg».proof.Defs
import proofs.«413251_j72258529788421_3_alg».proof.Proof.RefRun
import proofs.«413251_j72258529788421_3_alg».proof.Proof.RefRead
import proofs.«413251_j72258529788421_3_alg».proof.Proof.Spec
import proofs.«413251_j72258529788421_3_alg».proof.Proof.LibIdealFinite
import proofs.«413251_j72258529788421_3_alg».proof.Proof.LibScatterGather

noncomputable section

open scoped BigOperators

namespace Cert.ReferenceIdeal.RefValue

open Cert.ReferenceIdeal Cert.ReferenceIdeal.Gen Cert.ReferenceIdeal.ReadP Idealize.ShloMosaic Idealize.ShloMosaic.TcCoe
open Idealize.ShloMosaic.ValueIdx Idealize.SL.Sem Cert.Spec

variable (x : (⟨S50000x1280, .f32⟩ : BufTy).Contents (Elt Ideal)) (ei : (⟨S2x800000, .i32⟩ : BufTy).Contents (Elt Ideal))
  (W : (⟨S1280x256, .f32⟩ : BufTy).Contents (Elt Ideal)) (b : (⟨S256, .f32⟩ : BufTy).Contents (Elt Ideal))

/-! ## The sum of the messages into their target nodes -/

/-- Row e of the one-column array of target words is entry e of the list. -/
theorem mid_idx42 (e : Fin 850000) : idx_main_v42 (ix2 e (0 : Fin 1)) = ix1 e := by
  funext a
  match a with
  | ⟨0, _⟩ => rfl

/-- The target word of entry e, as the sum reads it. -/
theorem mid_v42_at (h7 : ∀ j : Fin 850000, val_main_v7 (F := Ideal) ei (ix1 j) = catW (colW ei) j) (e : Fin 850000) :
    val_main_v42 (F := Ideal) ei (ix2 e (0 : Fin 1)) = catW (colW ei) e := by
  rw [val_main_v42_apply, mid_idx42, h7]

/-- The sum starts from zero. -/
theorem mid_v41_at (n : Fin 50000) (h : Fin 256) : val_main_v41 (F := Ideal) (ix2 n h) = (0 : EReal) := by
  rw [val_main_v41_apply, val_main_cst_8_apply, Ideal.ofBits_def, Ideal.ofBits_zero_f32]

/-- At the extended reals the host's accumulating scatter is the sum form, as functions of any operands. -/
theorem mid_scatterAdd_ideal {s si su : Shape} {w : Nat} (d : ScatterDims s si su) (v : FVec Ideal s .f32) (idx : IVec si w)
    (upd : FVec Ideal su .f32) : Host.scatterAdd (F := Ideal) d v idx upd = Ideal.hostScatterAdd d v idx upd := rfl

/-- The stage is the accumulating scatter of its three operands. -/
theorem mid_v43_def : val_main_v43 (F := Ideal) x ei W
    = Host.scatterAdd (F := Ideal) (φ := .f32) scatter_S50000x256_S850000x1_S850000x256_1_0_0_1 (val_main_v41 (F := Ideal))
        (val_main_v42 (F := Ideal) ei) (val_main_v40 (F := Ideal) x ei W) := rfl

/-- From zero, the messages of the entries whose target word names the node, channel by channel. -/
theorem mid_v43_at (h7 : ∀ j : Fin 850000, val_main_v7 (F := Ideal) ei (ix1 j) = catW (colW ei) j)
    (hmsg : ∀ (j : Fin 850000) (h : Fin 256), val_main_v40 (F := Ideal) x ei W (ix2 j h)
      = (disR ei (src (catW (rowW ei) j)) * disR ei (src (catW (colW ei) j))) * xw x W (src (catW (rowW ei) j)) h)
    (n : Fin 50000) (h : Fin 256) :
    val_main_v43 (F := Ideal) x ei W (ix2 n h) = aggR x ei W n h := by
  refine (congrFun ((mid_v43_def x ei W).trans (mid_scatterAdd_ideal _ _ _ _)) (ix2 n h)).trans ?_
  refine (LibScatterGather.scatterAdd_rows_apply scatter_S50000x256_S850000x1_S850000x256_1_0_0_1 rfl rfl rfl rfl
    (val_main_v41 (F := Ideal)) (val_main_v42 (F := Ideal) ei) (val_main_v40 (F := Ideal) x ei W) n h).trans ?_
  unfold aggR
  rw [mid_v41_at]
  refine congrArg (fun s : EReal => 0 + s) ?_
  refine Finset.sum_congr (Finset.filter_congr fun e _ => ?_) fun e _ => hmsg e h
  rw [mid_v42_at ei h7 e]
  exact Iff.rfl

/-! ## The bias and the maximum with zero -/

/-- The bias, the same row at every node. -/
theorem mid_v45_at (n : Fin 50000) (h : Fin 256) : val_main_v45 (F := Ideal) b (ix2 n h) = b (ix1 h) := by
  rw [val_main_v45_apply, val_main_v44_apply]
  congr 1
  funext a
  match a with
  | ⟨0, _⟩ => rfl

/-- The sum plus the bias. -/
theorem mid_v46_at (h7 : ∀ j : Fin 850000, val_main_v7 (F := Ideal) ei (ix1 j) = catW (colW ei) j)
    (hmsg : ∀ (j : Fin 850000) (h : Fin 256), val_main_v40 (F := Ideal) x ei W (ix2 j h)
      = (disR ei (src (catW (rowW ei) j)) * disR ei (src (catW (colW ei) j))) * xw x W (src (catW (rowW ei) j)) h)
    (n : Fin 50000) (h : Fin 256) :
    val_main_v46 (F := Ideal) x ei W b (ix2 n h) = aggR x ei W n h + b (ix1 h) := by
  rw [val_main_v46_apply, mid_v43_at x ei W h7 hmsg, mid_v45_at, Ideal.addf_def]

/-- The zero the maximum is taken with. -/
theorem mid_call1_v0_at (n : Fin 50000) (h : Fin 256) : val_main_call1_v0 (F := Ideal) (ix2 n h) = (0 : EReal) := by
  rw [val_main_call1_v0_apply, val_main_call1_cst_apply, Ideal.ofBits_def, Ideal.ofBits_zero_f32]

/-- FROM THE MESSAGES TO THE ACTIVATION: given the target list and each message, the layer's output after the maximum
    with zero, at every node and channel. -/
theorem act_of_msg (h7 : ∀ j : Fin 850000, val_main_v7 (F := Ideal) ei (ix1 j) = catW (colW ei) j)
    (hmsg : ∀ (j : Fin 850000) (h : Fin 256), val_main_v40 (F := Ideal) x ei W (ix2 j h)
      = (disR ei (src (catW (rowW ei) j)) * disR ei (src (catW (colW ei) j))) * xw x W (src (catW (rowW ei) j)) h) :
    ∀ (n : Fin 50000) (h : Fin 256), val_main_v47 (F := Ideal) x ei W b (ix2 n h) = actR x ei W b n h := by
  intro n h
  rw [val_main_v47_apply, mid_v46_at x ei W b h7 hmsg, mid_call1_v0_at, Ideal.maximumf_def]
  rfl

end Cert.ReferenceIdeal.RefValue

end
-- ==== Proof.RefValueTail.lean ====
/-
  The end of the reference program, from the activated layer to the result: the sum of the activated rows over each
  graph's nodes, the count of each graph's nodes (a sum of ones), the count raised to at least one, and the quotient.
  Stated over what the activated layer is at every node and channel, so that it joins whatever is proved of the layer.
-/
import proofs.«413251_j72258529788421_3_alg».proof.Defs
import proofs.«413251_j72258529788421_3_alg».proof.Proof.RefRun
import proofs.«413251_j72258529788421_3_alg».proof.Proof.RefRead
import proofs.«413251_j72258529788421_3_alg».proof.Proof.Spec
import proofs.«413251_j72258529788421_3_alg».proof.Proof.LibIdealFinite
import proofs.«413251_j72258529788421_3_alg».proof.Proof.LibScatterGather

noncomputable section

open scoped BigOperators

namespace Cert.ReferenceIdeal.RefValue

open Cert.ReferenceIdeal Cert.ReferenceIdeal.Gen Cert.ReferenceIdeal.ReadP Idealize.ShloMosaic Idealize.ShloMosaic.TcCoe
open Idealize.ShloMosaic.ValueIdx Idealize.SL.Sem Cert.Spec

variable (x : (⟨S50000x1280, .f32⟩ : BufTy).Contents (Elt Ideal)) (ei : (⟨S2x800000, .i32⟩ : BufTy).Contents (Elt Ideal))
  (bt : (⟨S50000, .i32⟩ : BufTy).Contents (Elt Ideal)) (W : (⟨S1280x256, .f32⟩ : BufTy).Contents (Elt Ideal))
  (b : (⟨S256, .f32⟩ : BufTy).Contents (Elt Ideal))

/-! ## The accumulating scatter over the extended reals -/

/-- Over the extended reals the host's accumulating scatter is the operand plus the sum of the updates that land. -/
theorem tail_scatterAdd_ideal {s si su : Shape} {w : Nat} (d : ScatterDims s si su) (v : FVec Ideal s .f32) (idx : IVec si w)
    (upd : FVec Ideal su .f32) : Host.scatterAdd (F := Ideal) d v idx upd = Ideal.hostScatterAdd d v idx upd := rfl

/-! ## Sums over a graph's nodes -/

/-- Two sums over the nodes whose word names graph g agree when the words and the summands do. -/
theorem sum_graph_congr {M N : Nat} (wd wd' : Fin M → BitVec 32) (g : Fin N) (f f' : Fin M → EReal)
    (hw : ∀ n, wd n = wd' n) (hf : ∀ n, f n = f' n) :
    ∑ n : Fin M with (wd n).toInt = (g.val : ℤ), f n = ∑ n : Fin M with Hits (wd' n) g, f' n := by
  refine Finset.sum_congr (Finset.filter_congr fun n _ => ?_) fun n _ => hf n
  rw [hw n]
  exact Iff.rfl

/-! ## The sum of the activated rows over each graph -/

/-- The sum starts from zero. -/
theorem v48_at (g : Fin 64) (h : Fin 256) : val_main_v48 (F := Ideal) (ix2 g h) = (0 : EReal) := by
  rw [val_main_v48_apply, val_main_cst_9_apply, Ideal.ofBits_def, Ideal.ofBits_zero_f32]

/-- Row n of the one-column array of graph words is node n's word. -/
theorem v49_at (n : Fin 50000) : val_main_v49 (F := Ideal) bt (ix2 n (0 : Fin 1)) = bt (ix1 n) := by
  rw [val_main_v49_apply]
  congr 1
  funext a
  match a with
  | ⟨0, _⟩ => rfl

/-- The stage is the accumulating scatter of the activated rows into the zero array at the graph words. -/
theorem v50_def : val_main_v50 (F := Ideal) x ei bt W b
    = Host.scatterAdd (F := Ideal) (φ := .f32) scatter_S64x256_S50000x1_S50000x256_1_0_0_1 (val_main_v48 (F := Ideal))
        (val_main_v49 (F := Ideal) bt) (val_main_v47 (F := Ideal) x ei W b) := rfl

/-- From zero, the activated row of every node whose word names the graph. -/
theorem v50_at (hact : ∀ (n : Fin 50000) (h : Fin 256), val_main_v47 (F := Ideal) x ei W b (ix2 n h) = actR x ei W b n h)
    (g : Fin 64) (h : Fin 256) :
    val_main_v50 (F := Ideal) x ei bt W b (ix2 g h) = 0 + ∑ n : Fin 50000 with Hits (bt (ix1 n)) g, actR x ei W b n h := by
  refine (congrFun ((v50_def x ei bt W b).trans (tail_scatterAdd_ideal _ _ _ _)) (ix2 g h)).trans
    ((LibScatterGather.scatterAdd_rows_apply scatter_S64x256_S50000x1_S50000x256_1_0_0_1 rfl rfl rfl rfl
      (val_main_v48 (F := Ideal)) (val_main_v49 (F := Ideal) bt) (val_main_v47 (F := Ideal) x ei W b) g h).trans ?_)
  rw [v48_at]
  exact congrArg (fun s : EReal => 0 + s) (sum_graph_congr _ _ g _ _ (fun n => v49_at bt n) (fun n => hact n h))

/-! ## The number of nodes of each graph -/

/-- Every node adds one. -/
theorem v51_at (n : Fin 50000) : val_main_v51 (F := Ideal) (ix1 n) = (1 : EReal) := by
  rw [val_main_v51_apply, val_main_cst_10_apply, Ideal.ofBits_def, IdealFinite.ofBits_3F800000, EReal.coe_one]

/-- The count starts from zero. -/
theorem v52_at (g : Fin 64) : val_main_v52 (F := Ideal) (ix1 g) = (0 : EReal) := by
  rw [val_main_v52_apply, val_main_cst_11_apply, Ideal.ofBits_def, Ideal.ofBits_zero_f32]

/-- Row n of the one-column array of graph words is node n's word. -/
theorem v53_at (n : Fin 50000) : val_main_v53 (F := Ideal) bt (ix2 n (0 : Fin 1)) = bt (ix1 n) := by
  rw [val_main_v53_apply]
  congr 1
  funext a
  match a with
  | ⟨0, _⟩ => rfl

/-- The stage is the accumulating scatter of the ones into the zero vector at the graph words. -/
theorem v54_def : val_main_v54 (F := Ideal) bt
    = Host.scatterAdd (F := Ideal) (φ := .f32) scatter_S64_S50000x1_S50000_n_0_0_1 (val_main_v52 (F := Ideal))
        (val_main_v53 (F := Ideal) bt) (val_main_v51 (F := Ideal)) := rfl

/-- From zero, one for every node whose word names the graph. -/
theorem v54_at (g : Fin 64) :
    val_main_v54 (F := Ideal) bt (ix1 g) = 0 + ∑ n : Fin 50000 with Hits (bt (ix1 n)) g, (1 : EReal) := by
  refine (congrFun ((v54_def bt).trans (tail_scatterAdd_ideal _ _ _ _)) (ix1 g)).trans
    ((LibScatterGather.scatterAdd_vec_apply scatter_S64_S50000x1_S50000_n_0_0_1 rfl rfl rfl rfl
      (val_main_v52 (F := Ideal)) (val_main_v53 (F := Ideal) bt) (val_main_v51 (F := Ideal)) g).trans ?_)
  rw [v52_at]
  exact congrArg (fun s : EReal => 0 + s) (sum_graph_congr _ _ g _ _ (fun n => v53_at bt n) (fun n => v51_at n))

/-- The count is compared with one. -/
theorem v55_at (g : Fin 64) : val_main_v55 (F := Ideal) (ix1 g) = (1 : EReal) := by
  rw [val_main_v55_apply, val_main_cst_12_apply, Ideal.ofBits_def, IdealFinite.ofBits_3F800000, EReal.coe_one]

/-- The count, at least one. -/
theorem v56_at (g : Fin 64) :
    val_main_v56 (F := Ideal) bt (ix1 g) = max (∑ n : Fin 50000 with Hits (bt (ix1 n)) g, (1 : EReal)) 1 := by
  rw [val_main_v56_apply, v54_at, v55_at, Ideal.maximumf_def, zero_add]

/-- The same in every column. -/
theorem v58_at (g : Fin 64) (h : Fin 256) :
    val_main_v58 (F := Ideal) bt (ix2 g h) = max (∑ n : Fin 50000 with Hits (bt (ix1 n)) g, (1 : EReal)) 1 := by
  rw [val_main_v58_apply, val_main_v57_apply]
  have e : idx_main_v57 (idx_main_v58 (ix2 g h)) = ix1 g := by
    funext a
    match a with
    | ⟨0, _⟩ => rfl
  rw [e, v56_at]

/-! ## The quotient -/

/-- The result at graph g and channel h: the mean of the activated layer over the graph's nodes. -/
theorem v59_at (hact : ∀ (n : Fin 50000) (h : Fin 256), val_main_v47 (F := Ideal) x ei W b (ix2 n h) = actR x ei W b n h)
    (g : Fin 64) (h : Fin 256) :
    val_main_v59 (F := Ideal) x ei bt W b (ix2 g h) = pool bt (actR x ei W b) g h := by
  rw [val_main_v59_apply, v50_at x ei bt W b hact, v58_at, Ideal.hostDivf_def, zero_add]
  rfl

/-- The reference's result is the mean over each graph of whatever the activated layer is. -/
theorem result_of_act (hact : ∀ (n : Fin 50000) (h : Fin 256), val_main_v47 (F := Ideal) x ei W b (ix2 n h) = actR x ei W b n h) :
    val_main_v59 (F := Ideal) x ei bt W b
      = fun i => pool bt (actR x ei W b) ⟨(i 0).val, (i 0).isLt⟩ ⟨(i 1).val, (i 1).isLt⟩ := by
  funext i
  obtain ⟨g, h, rfl⟩ : ∃ (g : Fin 64) (h : Fin 256), i = ix2 g h := ⟨i 0, i 1, eq_ix2 i⟩
  exact v59_at x ei bt W b hact g h

end Cert.ReferenceIdeal.RefValue

end
-- ==== Proof.RefResult.lean ====
/-
  The reference program's one result is the mean over each graph of the layer's output, index by index: the run's
  composed term is its last stage; the last stage is the quotient of the sums over each graph by the graph's size, of
  the activated layer; the activated layer is the sum of the messages into their target nodes, plus the bias, with the
  maximum with zero; and each message is the product of the two degree factors with the feature row its source reads.
-/
import proofs.«413251_j72258529788421_3_alg».proof.Defs
import proofs.«413251_j72258529788421_3_alg».proof.Proof.RefRun
import proofs.«413251_j72258529788421_3_alg».proof.Proof.RefRead
import proofs.«413251_j72258529788421_3_alg».proof.Proof.Spec
import proofs.«413251_j72258529788421_3_alg».proof.Proof.RefValue
import proofs.«413251_j72258529788421_3_alg».proof.Proof.RefValueMid
import proofs.«413251_j72258529788421_3_alg».proof.Proof.RefValueTail

noncomputable section

open scoped BigOperators

namespace Cert.ReferenceIdeal.RefValue

open Cert.ReferenceIdeal Cert.ReferenceIdeal.Gen Cert.ReferenceIdeal.ReadP Idealize.ShloMosaic Idealize.ShloMosaic.TcCoe
open Idealize.ShloMosaic.ValueIdx Idealize.SL.Sem Cert.Spec

/-- The reference's result, as its run states it, is the mean over each graph of the layer's output computed over the
    one list of edges and self loops. -/
theorem result_eq (m : (ℓ : Loc nD τ sig) → Buf (Elt Ideal) ℓ) (c : Dev nD) :
    Cert.ReferenceIdeal.ValueP.res_out0 (F := Ideal) m c
      = fun i => pool (m ((c.tc : Thread nD τ).loc main_arg2))
          (actR (m ((c.tc : Thread nD τ).loc main_arg0)) (m ((c.tc : Thread nD τ).loc main_arg1))
            (m ((c.tc : Thread nD τ).loc main_arg3)) (m ((c.tc : Thread nD τ).loc main_arg4)))
          ⟨(i 0).val, (i 0).isLt⟩ ⟨(i 1).val, (i 1).isLt⟩ :=
  (val_main_v59_eq (F := Ideal) m c).trans
    (result_of_act (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4))
      (act_of_msg (m ((c.tc : Thread nD τ).loc main_arg0)) (m ((c.tc : Thread nD τ).loc main_arg1))
        (m ((c.tc : Thread nD τ).loc main_arg3)) (m ((c.tc : Thread nD τ).loc main_arg4))
        (v7_at (m ((c.tc : Thread nD τ).loc main_arg1)))
        (v40_at (m ((c.tc : Thread nD τ).loc main_arg0)) (m ((c.tc : Thread nD τ).loc main_arg1))
          (m ((c.tc : Thread nD τ).loc main_arg3)))))

end Cert.ReferenceIdeal.RefValue

end
-- ==== Proof.Finite.lean ====
/-
  From the precondition to real numbers. The precondition says, of each float input, that every entry's absolute
  value is below +∞ (a conjunction of three "all entries" tests). Over the extended reals, |a| < +∞ excludes exactly
  the two infinities: such an `a` is a real number.
-/
import proofs.«413251_j72258529788421_3_alg».proof.Defs
import proofs.«413251_j72258529788421_3_alg».proof.Proof.Spec
import Idealize.ShloMosaic.Lib.ReduceAll
import Idealize.ShloMosaic.Lib.Affine
import Idealize.ShloMosaic.PureOps.Ideal.Laws

noncomputable section

namespace Cert.Finite

open Idealize.ShloMosaic

/-- An extended real whose absolute value is below +∞ is a real number. -/
theorem real_of_abs_lt_top (a : EReal)
    (h : FloatOps.cmpf (F := Ideal) (φ := .f32) .olt (FloatOps.hostAbsf (F := Ideal) (φ := .f32) a) (Ideal.ofBits .f32 0x7F800000#32) = 1#1) :
    ∃ r : ℝ, a = (r : EReal) := by
  have htop : Ideal.ofBits .f32 0x7F800000#32 = ⊤ := by simp [Ideal.ofBits, Ideal.ieee]
  rw [htop] at h
  have hlt : max a (-a) < ⊤ := by
    by_contra hn
    have : FloatOps.cmpf (F := Ideal) (φ := .f32) .olt (FloatOps.hostAbsf (F := Ideal) (φ := .f32) a) ⊤ = 0#1 := by
      show BitVec.ofBool (decide (max a (-a) < ⊤)) = 0#1
      rw [decide_eq_false hn]; rfl
    rw [this] at h
    exact absurd h (by decide)
  induction a using EReal.rec with
  | bot => simp at hlt
  | coe r => exact ⟨r, rfl⟩
  | top => simp at hlt

instance : Subsingleton Cert.Pre_finite_inputs.S_.Idx := ⟨fun a b => funext fun d => d.elim0⟩

variable [Cert.Pre_finite_inputs.Facts]

/-- Under the precondition the three float inputs hold real numbers only. -/
theorem reals_of_pre (a0 : FVec Ideal Cert.Pre_finite_inputs.S50000x1280 .f32) (a1 : IVec Cert.Pre_finite_inputs.S2x800000 32)
    (a2 : IVec Cert.Pre_finite_inputs.S50000 32) (a3 : FVec Ideal Cert.Pre_finite_inputs.S1280x256 .f32)
    (a4 : FVec Ideal Cert.Pre_finite_inputs.S256 .f32)
    (h : Cert.Pre_finite_inputs.fn (F := Ideal) a0 a1 a2 a3 a4 = fun _ => 1#1) :
    Cert.Spec.Real2 a0 ∧ Cert.Spec.Real2 a3 ∧ Cert.Spec.Real1 a4 := by
  have h0 := congrFun h ValueIdx.ix0
  dsimp only [Cert.Pre_finite_inputs.fn] at h0
  obtain ⟨h01, h2⟩ := IntOp.andi_eq_one.1 h0
  obtain ⟨hx, hW⟩ := IntOp.andi_eq_one.1 h01
  exact ⟨fun i => real_of_abs_lt_top _ (Host.reduce_andi_all _ _ _ _ _ hx i),
    fun i => real_of_abs_lt_top _ (Host.reduce_andi_all _ _ _ _ _ hW i),
    fun i => real_of_abs_lt_top _ (Host.reduce_andi_all _ _ _ _ _ h2 i)⟩

end Cert.Finite

end
-- ==== Proof.lean ====
/-
  A graph-convolution layer followed by a mean over each graph, computed two ways, is one function of its inputs.

  The kernel's program scales the transformed node features by `dis = deg ^ (-1/2)` inside its first tiled matrix
  product, sums the scaled rows over the real edges only, and finishes in a second tiled pass that adds each node's
  own scaled row (its self loop), scales once more, adds the bias, clamps at zero, and accumulates each graph's sum
  and node count block by block before dividing. The reference lists the self loops among the edges and weights
  every entry by `dis (source) · dis (target)`. On real inputs the two agree entry by entry (`Spec.actK_eq_actR`:
  the self loop's entry is the `+ 1` of the degree and the node's own row, and `dis n` leaves the finite sum), hence
  so do the pooled means.

  The three frames: each program runs to its end, faults nowhere and leaves its arguments as launched — for the
  kernel's two printed forms by the run of their two tiled regions between stretches of host operations, for the
  reference by its run read back. The idealization rewrote no operation, so nothing is owed for it.
-/
import proofs.«413251_j72258529788421_3_alg».proof.Defs
import proofs.«413251_j72258529788421_3_alg».proof.Proof.Gen.Kernel
import proofs.«413251_j72258529788421_3_alg».proof.Proof.Gen.KernelIdeal
import proofs.«413251_j72258529788421_3_alg».proof.Proof.Gen.ReferenceIdeal
import proofs.«413251_j72258529788421_3_alg».proof.Proof.Gen.Pre_finite_inputs
import proofs.«413251_j72258529788421_3_alg».proof.Proof.K.Run
import proofs.«413251_j72258529788421_3_alg».proof.Proof.KI.Run
import proofs.«413251_j72258529788421_3_alg».proof.Proof.KI.Result
import proofs.«413251_j72258529788421_3_alg».proof.Proof.RefRun
import proofs.«413251_j72258529788421_3_alg».proof.Proof.RefResult
import proofs.«413251_j72258529788421_3_alg».proof.Proof.Spec
import proofs.«413251_j72258529788421_3_alg».proof.Proof.Finite
import Idealize.ShloMosaic.Adequacy
import Idealize.ShloMosaic.Init

noncomputable section

namespace Cert.Proof

open Idealize.ShloMosaic Idealize.ShloMosaic.TcCoe Idealize.SL.Sem

section
variable [Cert.Kernel.Facts] [Cert.KernelIdeal.Facts] [Cert.ReferenceIdeal.Facts] [Cert.Pre_finite_inputs.Facts]

/-- The word-level program runs to its end and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- And the reference: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments, real by the precondition, both programs end with the pooled means of
    the layer: the kernel's by its two regions' values, the reference's by its run; the two layers agree on reals. -/
theorem algebraic : Cert.algebraic_KernelIdeal_ReferenceIdeal := by
  intro m ρ m' ρ' hpre hagree
  refine ⟨fun c => fun i => Cert.Spec.pool (m ((c.tc : Thread Cert.KernelIdeal.nD Cert.KernelIdeal.τ).loc Cert.KernelIdeal.main_arg2))
      (Cert.Spec.actK (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))) (i 0) (i 1), ?_, ?_⟩
  · -- the kernel's run: every unscoped buffer ends at the last valuation; the result's is the pooled mean, the arguments' are the launch contents
    refine (θ_run Cert.KernelIdeal.defs _ _).mono (fun r h c => ⟨?_, ?_, ?_, ?_, ?_, ?_⟩) (Cert.KernelIdeal.Hand.run_main (F := Ideal) m ρ)
    · exact (h c _ (Cert.KernelIdeal.Hand.mem_uc Cert.KernelIdeal.main_v26 (by decide))).trans (Cert.KernelIdeal.Val.kernel_result m c)
    · exact (h c _ (Cert.KernelIdeal.Hand.mem_uc Cert.KernelIdeal.main_arg0 (by decide))).trans (Cert.KernelIdeal.Hand.W4_main_arg0 m c)
    · exact (h c _ (Cert.KernelIdeal.Hand.mem_uc Cert.KernelIdeal.main_arg1 (by decide))).trans (Cert.KernelIdeal.Hand.W4_main_arg1 m c)
    · exact (h c _ (Cert.KernelIdeal.Hand.mem_uc Cert.KernelIdeal.main_arg2 (by decide))).trans (Cert.KernelIdeal.Hand.W4_main_arg2 m c)
    · exact (h c _ (Cert.KernelIdeal.Hand.mem_uc Cert.KernelIdeal.main_arg3 (by decide))).trans (Cert.KernelIdeal.Hand.W4_main_arg3 m c)
    · exact (h c _ (Cert.KernelIdeal.Hand.mem_uc Cert.KernelIdeal.main_arg4 (by decide))).trans (Cert.KernelIdeal.Hand.W4_main_arg4 m c)
  · -- the reference's run: its result is the pooled mean of the layer over the one list; on reals the two layers agree
    refine (θ_run Cert.ReferenceIdeal.defs _ _).mono (fun r h c => ⟨(h c).1.trans ?_, (h c).2⟩)
      (Cert.ReferenceIdeal.ValueP.run (F := Ideal) m' ρ')
    obtain ⟨hx, hW, hb⟩ := Cert.Finite.reals_of_pre _ _ _ _ _ (hpre c)
    show Cert.ReferenceIdeal.ValueP.res_out0 (F := Ideal) m' c = _
    rw [Cert.ReferenceIdeal.RefValue.result_eq m' c, (hagree c).1, (hagree c).2.1, (hagree c).2.2.1, (hagree c).2.2.2.1, (hagree c).2.2.2.2]
    funext i
    exact (Cert.Spec.pool_actK_eq_pool_actR _ _ _ _ _ hx hW hb _ _).symm

end

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
